-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v0_1)) (v5 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v0_1) = v4 c
          ∧ r.2.mem ((c.tc : Thread Cert.KernelIdeal.nD Cert.KernelIdeal.τ).loc Cert.KernelIdeal.main_v0_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S10000x64 : S_.BroadcastsInDim S10000x64 (![] : Fin 0 → Fin S10000x64.rank)
  reducesTo_S10000x64_S_d0_1 : S10000x64.ReducesTo [0, 1] S_

variable [Facts]

def fn_part2 {F : FTy → Type} [FloatOps F] (main_arg7 : FVec F S64x32 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  main_v38

def fn_part1 {F : FTy → Type} [FloatOps F] (main_arg4 : FVec F S64x32 .f32) (main_arg5 : FVec F S10000x64 .f32) (main_arg6 : FVec F S64x32 .f32) (main_arg7 : FVec F S64x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S10000x64 .f32 := Host.absf main_arg5
  let main_cst_8 : FVec F S_ .f32 := constant S_ .f32 0x7F800000#32
  let main_v25 : FVec F S10000x64 .f32 := broadcastInDim S10000x64 ![] bcast_S_S10000x64 main_cst_8
  let main_v26 : IVec S10000x64 1 := cmpf .olt main_v24 main_v25
  let main_c_9 : IVec S_ 1 := constantI S_ 1 1#1
  let main_v27 : IVec S_ 1 := (fun x v => Host.reduce IntOp.andi x v reducesTo_S10000x64_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64x32 .f32) (main_arg4 : FVec F S64x32 .f32) (main_arg5 : FVec F S10000x64 .f32) (main_arg6 : FVec F S64x32 .f32) (main_arg7 : FVec F S64x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S128x32 : Shape := ⟨2, ![128, 32]⟩
abbrev S64x64 : Shape := ⟨2, ![64, 64]⟩
abbrev S400x10000 : Shape := ⟨2, ![400, 10000]⟩
abbrev S400x64 : Shape := ⟨2, ![400, 64]⟩
abbrev S10000x32 : Shape := ⟨2, ![10000, 32]⟩
abbrev S400x32 : Shape := ⟨2, ![400, 32]⟩
abbrev S400x128 : Shape := ⟨2, ![400, 128]⟩

abbrev nBuf : Space → Nat
  | .hbm => 17
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S10000x64, .f32⟩
  | .hbm, ⟨6, _⟩ => ⟨S64x32, .f32⟩
  | .hbm, ⟨7, _⟩ => ⟨S64x32, .f32⟩
  | .hbm, ⟨8, _⟩ => ⟨S10000x64, .f32⟩
  | .hbm, ⟨9, _⟩ => ⟨S128x32, .f32⟩
  | .hbm, ⟨10, _⟩ => ⟨S128x32, .f32⟩
  | .hbm, ⟨11, _⟩ => ⟨S64x64, .f32⟩
  | .hbm, ⟨12, _⟩ => ⟨S10000x64, .f32⟩
  | .hbm, ⟨13, _⟩ => ⟨S10000x32, .f32⟩
  | .hbm, ⟨14, _⟩ => ⟨S10000x32, .f32⟩
  | .hbm, ⟨15, _⟩ => ⟨S10000x128, .f32⟩
  | .hbm, ⟨16, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S64x32, .f32⟩
  | .local _ .vmem, ⟨4, _⟩ => ⟨S64x32, .f32⟩
  | .local _ .vmem, ⟨5, _⟩ => ⟨S10000x64, .f32⟩
  | .local _ .vmem, ⟨6, _⟩ => ⟨S128x32, .f32⟩
  | .local _ .vmem, ⟨7, _⟩ => ⟨S128x32, .f32⟩
  | .local _ .vmem, ⟨8, _⟩ => ⟨S400x10000, .f32⟩
  | .local _ .vmem, ⟨9, _⟩ => ⟨S400x10000, .f32⟩
  | .local _ .vmem, ⟨10, _⟩ => ⟨S10000x64, .f32⟩
  | .local _ .vmem, ⟨11, _⟩ => ⟨S64x64, .f32⟩
  | .local _ .vmem, ⟨12, _⟩ => ⟨S400x64, .f32⟩
  | .local _ .vmem, ⟨13, _⟩ => ⟨S400x64, .f32⟩
  | .local _ .vmem, ⟨14, _⟩ => ⟨S400x10000, .f32⟩
  | .local _ .vmem, ⟨15, _⟩ => ⟨S400x10000, .f32⟩
  | .local _ .vmem, ⟨16, _⟩ => ⟨S10000x64, .f32⟩
  | .local _ .vmem, ⟨17, _⟩ => ⟨S128x32, .f32⟩
  | .local _ .vmem, ⟨18, _⟩ => ⟨S400x32, .f32⟩
  | .local _ .vmem, ⟨19, _⟩ => ⟨S400x32, .f32⟩
  | .local _ .vmem, ⟨20, _⟩ => ⟨S400x32, .f32⟩
  | .local _ .vmem, ⟨21, _⟩ => ⟨S400x32, .f32⟩
  | .local _ .vmem, ⟨22, _⟩ => ⟨S400x128, .f32⟩
  | .local _ .vmem, ⟨23, _⟩ => ⟨S400x128, .f32⟩
  | .local _ .vmem, ⟨24, _⟩ => ⟨S400x32, .f32⟩
  | .local _ .vmem, ⟨25, _⟩ => ⟨S400x32, .f32⟩
  | .local _ .vmem, ⟨26, _⟩ => ⟨S10000x32, .f32⟩
  | .local _ .vmem, ⟨27, _⟩ => ⟨S400x10000, .f32⟩
  | .local _ .vmem, ⟨28, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S64x32_S64x32_0_0 : ∀ a, (![0, 0] : Fin 2 → Nat) a + S64x32.size a ≤ S64x32.size a
  h_S64x32 : 0 < S64x32.numel
  inb_S128x32_S128x32_0_0 : ∀ a, (![0, 0] : Fin 2 → Nat) a + S128x32.size a ≤ S128x32.size a
  h_S128x32 : 0 < S128x32.numel
  concatenates_S64x32_S64x32_S64x64_d1 : Shape.Concatenates [S64x32, S64x32] S64x64 1
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S400x64_0_0 : ∀ a, (![0, 0] : Fin 2 → Nat) a + S400x64.size a ≤ S400x64.size a
  h_S400x64 : 0 < S400x64.numel
  slices_S400x64_o0_0_S400x32 : S400x64.Slices ![0, 0] S400x32
  inb_S400x32_S400x32_0_0 : ∀ a, (![0, 0] : Fin 2 → Nat) a + S400x32.size a ≤ S400x32.size a
  h_S400x32 : 0 < S400x32.numel
  slices_S400x64_o0_32_S400x32 : S400x64.Slices ![0, 32] S400x32
  shapeCasts_S128x32_S128x32 : S128x32.ShapeCasts S128x32
  inb_S400x128_S400x128_0_0 : ∀ a, (![0, 0] : Fin 2 → Nat) a + S400x128.size a ≤ S400x128.size a
  h_S400x128 : 0 < S400x128.numel
  shapeCasts_S400x32_S400x32 : S400x32.ShapeCasts S400x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  dot_S10000x128_S128x64_S10000x64_1_0_0_1_n_n_wf : DotDims.WF S10000x128 S128x64 S10000x64 [1] [0] [0] [1] [] []
  dot_S10000x128_S10000x64_S128x64_0_0_1_1_n_n_wf : DotDims.WF S10000x128 S10000x64 S128x64 [0] [0] [1] [1] [] []
  dot_S128x64_S64x32_S128x32_1_0_0_1_n_n_wf : DotDims.WF S128x64 S64x32 S128x32 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x32_S128x32_S400x128_1_1_0_0_n_n_wf : DotDims.WF S400x32 S128x32 S400x128 [1] [1] [0] [0] [] []
  dot_S400x32_S10000x32_S400x10000_1_1_0_0_n_n_wf : DotDims.WF S400x32 S10000x32 S400x10000 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x32.size a ≤ S10000x32.size a
  hwx2_3 : ∀ i : grid2.Coords, EltTy.bits .f32 = 32 ∨ (Rect.block (s := S10000x32) S400x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x32.size a ≤ S10000x32.size a
  hwx2_4 : ∀ i : grid2.Coords, EltTy.bits .f32 = 32 ∨ (Rect.block (s := S10000x32) S400x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x32.size a ≤ S10000x32.size a
  hwx3_0 : ∀ i : grid3.Coords, EltTy.bits .f32 = 32 ∨ (Rect.block (s := S10000x32) S400x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .f32 = 32 ∨ (Rect.block (s := S10000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x32_S128x32_S400x128_1_1_0_0_n_n : DotDims S400x32 S128x32 S400x128 where
  lhsContracting := [1]
  rhsContracting := [1]
  lhsNonContracting := [0]
  rhsNonContracting := [0]
  lhsBatch := []
  rhsBatch := []
  wf := dot_S400x32_S128x32_S400x128_1_1_0_0_n_n_wf
def dot_S400x32_S10000x32_S400x10000_1_1_0_0_n_n : DotDims S400x32 S10000x32 S400x10000 where
  lhsContracting := [1]
  rhsContracting := [1]
  lhsNonContracting := [0]
  rhsNonContracting := [0]
  lhsBatch := []
  rhsBatch := []
  wf := dot_S400x32_S10000x32_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_arg6) false false (stage0_3 0) (sem0_3 0) (Memref.isWhole_whole _) (hstage0_3 0)

abbrev win0_4 : Pipeline.Window sig grid0 :=
  Pipeline.Window.whole (Memref.whole main_arg7) false false (stage0_4 0) (sem0_4 0) (Memref.isWhole_whole _) (hstage0_4 0)

abbrev win0_5 : Pipeline.Window sig grid0 :=
  Pipeline.Window.whole (Memref.whole main_v0_0) true false (stage0_5 0) (sem0_5 0) (Memref.isWhole_whole _) (hstage0_5 0)

abbrev win0_6 : Pipeline.Window sig grid0 :=
  Pipeline.Window.whole (Memref.whole main_v0_1) true false (stage0_6 0) (sem0_6 0) (Memref.isWhole_whole _) (hstage0_6 0)

abbrev win0_7 : Pipeline.Window sig grid0 :=
  Pipeline.Window.whole (Memref.whole main_v0_2) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S128x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3_0) S400x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3_1) S400x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3_2) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v3_0) S400x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3_0) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S128x10000 : Shape := ⟨2, ![128, 10000]⟩
abbrev S128x32 : Shape := ⟨2, ![128, 32]⟩
abbrev S32x10000 : Shape := ⟨2, ![32, 10000]⟩
abbrev S32x128 : Shape := ⟨2, ![32, 128]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S10000x64, .f32⟩
  | .hbm, ⟨6, _⟩ => ⟨S64x32, .f32⟩
  | .hbm, ⟨7, _⟩ => ⟨S64x32, .f32⟩
  | .hbm, ⟨8, _⟩ => ⟨S10000x64, .f32⟩
  | .hbm, ⟨9, _⟩ => ⟨S10000x64, .f32⟩
  | .hbm, ⟨10, _⟩ => ⟨S_, .f32⟩
  | .hbm, ⟨11, _⟩ => ⟨S10000x64, .f32⟩
  | .hbm, ⟨12, _⟩ => ⟨S10000x64, .f32⟩
  | .hbm, ⟨13, _⟩ => ⟨S10000x32, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S128x10000, .f32⟩
  | .hbm, ⟨18, _⟩ => ⟨S128x64, .f32⟩
  | .hbm, ⟨19, _⟩ => ⟨S128x64, .f32⟩
  | .hbm, ⟨20, _⟩ => ⟨S128x32, .f32⟩
  | .hbm, ⟨21, _⟩ => ⟨S128x32, .f32⟩
  | .hbm, ⟨22, _⟩ => ⟨S32x10000, .f32⟩
  | .hbm, ⟨23, _⟩ => ⟨S10000x10000, .f32⟩
  | .hbm, ⟨24, _⟩ => ⟨S32x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  transposes_S10000x128_S128x10000_1_0 : S10000x128.Transposes [1, 0] S128x10000
  transposes_S10000x32_S32x10000_1_0 : S10000x32.Transposes [1, 0] S32x10000
  transposes_S128x32_S32x128_1_0 : S128x32.Transposes [1, 0] S32x128
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S128x10000_S10000x64_S128x64_1_0_0_1_n_n_wf : DotDims.WF S128x10000 S10000x64 S128x64 [1] [0] [0] [1] [] []
  dot_S128x64_S64x32_S128x32_1_0_0_1_n_n_wf : DotDims.WF S128x64 S64x32 S128x32 [1] [0] [0] [1] [] []
  dot_S10000x32_S32x10000_S10000x10000_1_0_0_1_n_n_wf : DotDims.WF S10000x32 S32x10000 S10000x10000 [1] [0] [0] [1] [] []
  dot_S10000x32_S32x128_S10000x128_1_0_0_1_n_n_wf : DotDims.WF S10000x32 S32x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S128x10000_S10000x64_S128x64_1_0_0_1_n_n : DotDims S128x10000 S10000x64 S128x64 where
  lhsContracting := [1]
  rhsContracting := [0]
  lhsNonContracting := [0]
  rhsNonContracting := [1]
  lhsBatch := []
  rhsBatch := []
  wf := dot_S128x10000_S10000x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

class Facts : Prop extends Facts₀ where

variable [Facts]
-- ==== Proof.KernelReg0.lean ====
/- Region 0 of the program: one call on a one-point grid, every window the whole of its array.
   From X (10000 x 128), W1 (128 x 64), Wa1 (10000 x 64), Wa2 and Wa3 (64 x 32 each) the body computes
     Y  = X * W1                     (10000 x 64),
     T  = tanh (X^T * Wa1)           (128 x 64; the product contracts the 10000 rows of X against those of Wa1),
     M2 = T * Wa2,  M3 = T * Wa3     (128 x 32 each),
   every product accumulated from zero, and stores Y, M2, M3 whole into its three output windows.
   This module proves, for any contents V of the arrays at the region's entry and any float instance: the
   body, run on staging buffers that hold the five input arrays (the three output buffers holding anything),
   leaves the inputs as they were and the outputs at Y, M2, M3 of the inputs; the pipeline's proof data built
   from that; and the body obligation of the pipeline at its one point. -/
import proofs.«132950_g81999515615950_cont_9to1_m_63_4_alg».proof.Proof.Gen.Kernel.Launch
import proofs.«132950_g81999515615950_cont_9to1_m_63_4_alg».proof.Proof.Gen.Kernel.Skeleton
import proofs.«132950_g81999515615950_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there
    (here always the whole array). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is the entry
    contents and whose body leaves the block in place: an input is never written, and where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data whose array is the entry
    contents and whose body leaves the block in place: an input is never written, and where it is not fetched
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data whose array is the entry
    contents and whose body leaves the block in place: an input is never written, and where it is not fetched
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data whose array is the entry
    contents and whose body leaves the block in place: an input is never written, and where it is not fetched
    its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data whose array is the entry
    contents and whose body leaves the block in place: an input is never written, and where it is not fetched
    its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0
abbrev r0_3 : Rect S64x32 := Rect.unit (s := S64x32) ![0, 0] S64x32.size inb_S64x32_S64x32_0_0
abbrev r0_4 : Rect S64x32 := Rect.unit (s := S64x32) ![0, 0] S64x32.size inb_S64x32_S64x32_0_0
abbrev r0_5 : Rect S10000x64 := Rect.unit (s := S10000x64) ![0, 0] S10000x64.size inb_S10000x64_S10000x64_0_0
abbrev r0_6 : Rect S128x32 := Rect.unit (s := S128x32) ![0, 0] S128x32.size inb_S128x32_S128x32_0_0
abbrev r0_7 : Rect S128x32 := Rect.unit (s := S128x32) ![0, 0] S128x32.size inb_S128x32_S128x32_0_0

/-! ## What the body leaves in each output window's buffer -/

/-- Window 5's staging buffer after the body, from the input windows' blocks: its one store, of the product X * W1. -/
def out0_5 (x0 : Vec F S10000x128 .f32) (x1 : Vec F S128x64 .f32) (x2 : Vec F S10000x64 .f32) (x3 : Vec F S64x32 .f32) (x4 : Vec F S64x32 .f32) : Vec F S10000x64 .f32 :=
  View.canon [⟨r0_5, k0_pay1 (View.ld x0 r0_0) (View.ld x1 r0_1)⟩]

/-- That store is of the whole buffer, so it covers it. -/
theorem cover0_5 (p0 : Vec F S10000x64 .f32) (y : S10000x64.Idx) :
    ∃ pc ∈ ([⟨r0_5, p0⟩] : List (View.Piece (Elt F) S10000x64 .f32)), y ∈ pc.1.set :=
  View.cover_of_tiled [⟨r0_5, p0⟩] S10000x64.size (by rfl) y

/-- Window 6's staging buffer after the body, from the input windows' blocks: its one store, of tanh (X^T * Wa1) * Wa2. -/
def out0_6 (x0 : Vec F S10000x128 .f32) (x1 : Vec F S128x64 .f32) (x2 : Vec F S10000x64 .f32) (x3 : Vec F S64x32 .f32) (x4 : Vec F S64x32 .f32) : Vec F S128x32 .f32 :=
  View.canon [⟨r0_6, k0_pay3 (View.ld x0 r0_0) (View.ld x2 r0_2) (View.ld x3 r0_3)⟩]

/-- That store is of the whole buffer, so it covers it. -/
theorem cover0_6 (p0 : Vec F S128x32 .f32) (y : S128x32.Idx) :
    ∃ pc ∈ ([⟨r0_6, p0⟩] : List (View.Piece (Elt F) S128x32 .f32)), y ∈ pc.1.set :=
  View.cover_of_tiled [⟨r0_6, p0⟩] S128x32.size (by rfl) y

/-- Window 7's staging buffer after the body, from the input windows' blocks: its one store, of tanh (X^T * Wa1) * Wa3. -/
def out0_7 (x0 : Vec F S10000x128 .f32) (x1 : Vec F S128x64 .f32) (x2 : Vec F S10000x64 .f32) (x3 : Vec F S64x32 .f32) (x4 : Vec F S64x32 .f32) : Vec F S128x32 .f32 :=
  View.canon [⟨r0_7, k0_pay4 (View.ld x0 r0_0) (View.ld x2 r0_2) (View.ld x4 r0_4)⟩]

/-- That store is of the whole buffer, so it covers it. -/
theorem cover0_7 (p0 : Vec F S128x32 .f32) (y : S128x32.Idx) :
    ∃ pc ∈ ([⟨r0_7, p0⟩] : List (View.Piece (Elt F) S128x32 .f32)), y ∈ pc.1.set :=
  View.cover_of_tiled [⟨r0_7, p0⟩] S128x32.size (by rfl) y

/-! ## The body's triple -/

set_option maxHeartbeats 4000000 in
/-- The body on whole staging buffers, the inputs' at contents `x0 … x4` and the outputs' at anything, runs to the
    continuation holding the inputs' as they were and each output's at `out0_w` of the inputs'. Each output buffer
    is loaded before it is stored to, which is why it must be owned (at some contents) beforehand. -/
theorem sound_kernel0 (c : Dev nD) (E : Set ℕ) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole) (arg3 : Memref sig .tc .vmem S64x32 .f32) (harg3 : arg3.IsWhole) (arg4 : Memref sig .tc .vmem S64x32 .f32) (harg4 : arg4.IsWhole) (arg5 : Memref sig .tc .vmem S10000x64 .f32) (harg5 : arg5.IsWhole) (arg6 : Memref sig .tc .vmem S128x32 .f32) (harg6 : arg6.IsWhole) (arg7 : Memref sig .tc .vmem S128x32 .f32) (harg7 : arg7.IsWhole)
    (x0 : Vec F S10000x128 .f32) (x1 : Vec F S128x64 .f32) (x2 : Vec F S10000x64 .f32) (x3 : Vec F S64x32 .f32) (x4 : Vec F S64x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4) ∗ owns (c : Thread nD τ) arg6 fullShare (out0_6 x0 x1 x2 x3 x4) ∗ owns (c : Thread nD τ) arg7 fullShare (out0_7 x0 x1 x2 x3 x4)) -∗ K ⟨⟩))
      ⊢ wp frame (wpE (defs₀ (F := F)) Variants.none c none) E (cc0__k1_small arg0 harg0 arg1 harg1 arg2 harg2 arg3 harg3 arg4 harg4 arg5 harg5 arg6 harg6 arg7 harg7) K := by
  simp only [cc0__k1_small_eq_skeleton]; unfold cc0__k1_small_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and each output's at `out0_w` of the input blocks; the invariant: the rest of the
    scoped memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelReg1.lean ====
/-
  Region 1 of the program: the first pass of the graph-convolution encoder over the adjacency matrix, row block by row
  block. At each of the 25 grid points the body reads a block of 400 rows of the adjacency matrix (400 x 10000), the
  whole first-layer product X·W1 (10000 x 64) and the whole pair of second-layer weight matrices set side by side
  (64 x 64), and stores the 400 x 64 block

      max(A_blk · (X·W1), 0) · [W2 | W3]

  into the output's staging buffer, which the pipeline writes back to rows 400·t … 400·t + 399 of the output array.

  This module proves, for an arbitrary float instance and at arbitrary contents `V` of the buffers when the region is
  entered: what each window's block at a point is (`iblk1`), that each input window's staging buffer holds its block at
  every point whether or not it was fetched there (the two whole-array windows are fetched once only), what the body
  leaves in the output's staging buffer as a closed function of the three input blocks (`out1_3`), the body's
  separation-logic triple (`sound_kernel1`), the proof data of the pipeline (`dat1`) and the body obligation at every
  grid point (`body_obligation1`).
-/
import proofs.«132950_g81999515615950_cont_9to1_m_63_4_alg».proof.Proof.Gen.Kernel.Launch
import proofs.«132950_g81999515615950_cont_9to1_m_63_4_alg».proof.Proof.Gen.Kernel.Skeleton
import proofs.«132950_g81999515615950_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds its row block at every point: it is fetched at every point, the
    window is uncut and never idle, and the body leaves it in place. Stated for any proof data whose array is the
    entry contents and whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The window of X·W1 is the whole array, fetched at the first point only; at a later point its block index has not
    moved and the body left the buffer as it was, so the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of the window of the two second-layer weight matrices set side by side. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S64x64 := Rect.unit (s := S64x64) ![0, 0] S64x64.size inb_S64x64_S64x64_0_0
abbrev r1_3 : Rect S400x64 := Rect.unit (s := S400x64) ![0, 0] S400x64.size inb_S400x64_S400x64_0_0

/-! ## What the body leaves in the output window's buffer -/

/-- The output's staging buffer after the body, from the three input blocks: its one store, of
    max(x0 · x1, 0) · x2, laid over the whole buffer. -/
def out1_3 (x0 : Vec F S400x10000 .f32) (x1 : Vec F S10000x64 .f32) (x2 : Vec F S64x64 .f32) : Vec F S400x64 .f32 :=
  View.canon [⟨r1_3, k1_pay1 (View.ld x0 r1_0) (View.ld x1 r1_1) (View.ld x2 r1_2)⟩]

/-- The one store is the whole buffer, so it covers it. -/
theorem cover1_3 (p0 : Vec F S400x64 .f32) (y : S400x64.Idx) :
    ∃ pc ∈ ([⟨r1_3, p0⟩] : List (View.Piece (Elt F) S400x64 .f32)), y ∈ pc.1.set :=
  View.cover_of_tiled [⟨r1_3, p0⟩] S400x64.size (by rfl) y

/-! ## The body's triple -/

set_option maxHeartbeats 1000000 in
/-- The kernel body on whole staging buffers, the three inputs' at read contents x0, x1, x2 and the output's at anything
    (the body loads it before it stores), runs to the continuation with the inputs' buffers as they were and the
    output's at `out1_3 x0 x1 x2`. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S400x64 .f32) (harg4 : arg4.IsWhole)
    (x0 : Vec F S400x10000 .f32) (x1 : Vec F S10000x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__k2_pass1 i arg1 harg1 arg2 harg2 arg3 harg3 arg4 harg4) K := by
  simp only [cc1__k2_pass1_eq_skeleton]; unfold cc1__k2_pass1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the body at point
    `t` each input's buffer at its block and the output's at `out1_3` of the three input blocks; the invariant holds
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelReg2.lean ====
/- Region 2 of @main: the second pass of the graph convolution. On a grid of 25 points, point t reads rows
   400 t .. 400 t + 399 of the adjacency matrix (a 400 x 10000 block), the whole 10000 x 64 matrix of hidden
   features times weights, and the whole 128 x 32 matrix of attribute means. It forms the 400 x 64 product
   block · hidden, writes its columns 0..31 (the node means) and 32..63 (the node log-variances) to rows
   400 t .. 400 t + 399 of two 10000 x 32 outputs, and writes the product of the mean columns with the TRANSPOSE of
   the attribute means (400 x 128) to the same rows of a 10000 x 128 output.

   This module states, at any entry contents V of the core's buffers and for either number system: each window's
   block at a point; what the body leaves in each output buffer as a function of the three input blocks; the
   body's Hoare triple (inputs held as read, outputs held at anything, outputs left at those functions); the
   proof data of the pipeline; and the obligation that the body meets that data at every grid point. -/
import proofs.«132950_g81999515615950_cont_9to1_m_63_4_alg».proof.Proof.Gen.Kernel.Launch
import proofs.«132950_g81999515615950_cont_9to1_m_63_4_alg».proof.Proof.Gen.Kernel.Skeleton
import proofs.«132950_g81999515615950_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows (and columns) of its array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's buffer holds its block at every point: it is fetched at every point, the body never
    writes it, and no point is idle for it. Stated for any proof data over the entry contents whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The hidden-features window's buffer holds the whole matrix at every point: fetched at the first point only,
    its block index never moves afterwards, so what was fetched stays the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The attribute-means window's buffer holds the whole matrix at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S128x32 := Rect.unit (s := S128x32) ![0, 0] S128x32.size inb_S128x32_S128x32_0_0
abbrev r2_3 : Rect S400x32 := Rect.unit (s := S400x32) ![0, 0] S400x32.size inb_S400x32_S400x32_0_0
abbrev r2_5 : Rect S400x128 := Rect.unit (s := S400x128) ![0, 0] S400x128.size inb_S400x128_S400x128_0_0

/-! ## What the body leaves in each output window's buffer -/

/-- The means' buffer after the body: one store over the whole buffer, of columns 0..31 of the product of the
    adjacency block `x0` with the hidden features `x1`. -/
def out2_3 (x0 : Vec F S400x10000 .f32) (x1 : Vec F S10000x64 .f32) : Vec F S400x32 .f32 :=
  View.canon [⟨r2_3, k2_pay2 (View.ld x0 r2_0) (View.ld x1 r2_1)⟩]

/-- The log-variances' buffer after the body: one store over the whole buffer, of columns 32..63 of the same
    product. -/
def out2_4 (x0 : Vec F S400x10000 .f32) (x1 : Vec F S10000x64 .f32) : Vec F S400x32 .f32 :=
  View.canon [⟨r2_3, k2_pay3 (View.ld x0 r2_0) (View.ld x1 r2_1)⟩]

/-- The features' buffer after the body: one store over the whole buffer, of the mean columns contracted with
    the attribute means `x2` along the 32 latent coordinates. -/
def out2_5 (x0 : Vec F S400x10000 .f32) (x1 : Vec F S10000x64 .f32) (x2 : Vec F S128x32 .f32) : Vec F S400x128 .f32 :=
  View.canon [⟨r2_5, k2_pay4 (View.ld x0 r2_0) (View.ld x1 r2_1) (View.ld x2 r2_2)⟩]

/-- A single store over the whole of a 400 x 32 buffer covers it. -/
theorem cover2_3 (p0 : Vec F S400x32 .f32) (y : S400x32.Idx) :
    ∃ pc ∈ ([⟨r2_3, p0⟩] : List (View.Piece (Elt F) S400x32 .f32)), y ∈ pc.1.set :=
  View.cover_of_tiled [⟨r2_3, p0⟩] S400x32.size (by rfl) y

/-- A single store over the whole of a 400 x 128 buffer covers it. -/
theorem cover2_5 (p0 : Vec F S400x128 .f32) (y : S400x128.Idx) :
    ∃ pc ∈ ([⟨r2_5, p0⟩] : List (View.Piece (Elt F) S400x128 .f32)), y ∈ pc.1.set :=
  View.cover_of_tiled [⟨r2_5, p0⟩] S400x128.size (by rfl) y

/-! ## The body's triple -/

set_option maxHeartbeats 4000000 in
/-- The body, run on whole buffers with the three inputs at contents `x0`, `x1`, `x2` and the three outputs at
    anything, ends with the inputs unchanged and each output at its function of the inputs: three loads of the
    inputs, and for each output a load (whose value is unused) followed by one store over the whole buffer. -/
theorem sound_kernel2 (c : Dev nD) (E : Set ℕ) (i : grid2.Coords)
    (arg1 : Memref sig .tc .vmem S400x10000 .f32) (harg1 : arg1.IsWhole) (arg2 : Memref sig .tc .vmem S10000x64 .f32) (harg2 : arg2.IsWhole)
    (arg3 : Memref sig .tc .vmem S128x32 .f32) (harg3 : arg3.IsWhole) (arg4 : Memref sig .tc .vmem S400x32 .f32) (harg4 : arg4.IsWhole)
    (arg5 : Memref sig .tc .vmem S400x32 .f32) (harg5 : arg5.IsWhole) (arg6 : Memref sig .tc .vmem S400x128 .f32) (harg6 : arg6.IsWhole)
    (x0 : Vec F S400x10000 .f32) (x1 : Vec F S10000x64 .f32) (x2 : Vec F S128x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1) ∗ owns (c : Thread nD τ) arg5 fullShare (out2_4 x0 x1)
            ∗ owns (c : Thread nD τ) arg6 fullShare (out2_5 x0 x1 x2)) -∗ K ⟨⟩))
      ⊢ wp frame (wpE (defs₀ (F := F)) Variants.none c none) E (cc2__k3_pass2 i arg1 harg1 arg2 harg2 arg3 harg3 arg4 harg4 arg5 harg5 arg6 harg6) K := by
  simp only [cc2__k3_pass2_eq_skeleton]; unfold cc2__k3_pass2_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_3 _)
  iexists _; isplitr
  swap; · iexact H5
  ipureintro
  exact View.read_writes_eq_canon _ _ _ (cover2_5 _)

/-! ## The pipeline's proof data -/

/-- The proof data of the region's pipeline on core `c`: the arrays as the region finds them; after the body at
    point `t` each input's buffer at its block and each output's at its function of the input blocks; the
    invariant is the rest of the core's memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t)
    | ⟨5, _⟩ => out2_5 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debts, and each window's current buffer
    at what the schedule has put there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the proof data at every point of the grid. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelReg3.lean ====
/- Region 3 of the program: the decoder. On a grid of 25 points, point t takes rows 400·t … 400·t+399 of the
   10000 × 32 matrix mu (its first window, a row block) together with the whole of mu (its second window, the same
   array, read once), contracts the block with mu along the 32-long axis of both, and writes the 400 × 10000 product
   as row block t of the 10000 × 10000 output: the output is mu · muᵀ.

   This module proves the region's body obligation at an arbitrary float instance and at arbitrary entry contents V
   of the core's buffers: each window's block at a point as a read of its array; the output staging buffer after the
   body as the one store of the product payload over the two input blocks; the body's triple; the pipeline's proof
   data (the two input windows read one array, so each holds half of it); and the obligation at every point. -/
import proofs.«132950_g81999515615950_cont_9to1_m_63_4_alg».proof.Proof.Gen.Kernel.Launch
import proofs.«132950_g81999515615950_cont_9to1_m_63_4_alg».proof.Proof.Gen.Kernel.Skeleton
import proofs.«132950_g81999515615950_cont_9to1_m_63_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, at the entry contents, that the point's rectangle selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window: whatever the point, the body finds its block in the staging buffer, for any proof data
    over the entry contents whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole-matrix window: it is fetched at the first point only, its block index never moves, so at every point
    the body finds the whole matrix there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S400x32 := Rect.unit (s := S400x32) ![0, 0] S400x32.size inb_S400x32_S400x32_0_0
abbrev r3_1 : Rect S10000x32 := Rect.unit (s := S10000x32) ![0, 0] S10000x32.size inb_S10000x32_S10000x32_0_0
abbrev r3_2 : Rect S400x10000 := Rect.unit (s := S400x10000) ![0, 0] S400x10000.size inb_S400x10000_S400x10000_0_0

/-! ## What the body leaves in the output window's buffer -/

/-- The output staging buffer after the body, from the two input blocks: its single store, of the product of the
    row block with the whole matrix contracted along the short axis of both. -/
def out3_2 (x0 : Vec F S400x32 .f32) (x1 : Vec F S10000x32 .f32) : Vec F S400x10000 .f32 :=
  View.canon [⟨r3_2, k3_pay1 (View.ld x0 r3_0) (View.ld x1 r3_1)⟩]

/-- The store is of the whole buffer, so it covers it. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

/-! ## The body's triple -/

set_option maxHeartbeats 1000000 in
/-- The body on whole staging memrefs, the inputs at contents x0 and x1 and the output at anything, runs to the
    continuation holding the inputs as they were and the output at out3_2 x0 x1. -/
theorem sound_kernel3 (c : Dev nD) (E : Set ℕ) (i : grid3.Coords)
    (arg1 : Memref sig .tc .vmem S400x32 .f32) (harg1 : arg1.IsWhole)
    (arg2 : Memref sig .tc .vmem S10000x32 .f32) (harg2 : arg2.IsWhole)
    (arg3 : Memref sig .tc .vmem S400x10000 .f32) (harg3 : arg3.IsWhole)
    (x0 : Vec F S400x32 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__k4_decoder i arg1 harg1 arg2 harg2 arg3 harg3) K := by
  simp only [cc3__k4_decoder_eq_skeleton]; unfold cc3__k4_decoder_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core c: the arrays at the entry contents; after the body at point t each input
    buffer at its block and the output buffer at out3_2 of the two input blocks; the invariant the scoped rest and
    the generator register, untouched; nothing owed. The two input windows read ONE array, so each holds one half
    of it; the output window holds the whole of its own. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelRun.lean ====
/-
  The run of the kernel program's @main: four kernel regions (the small dense algebra; the first pass over the
  adjacency matrix; the second pass; the inner-product decoder) with one host concatenate between the first two.
  Each region is entered with every unscoped buffer of the core at known contents and left with its output arrays at
  what its grid points wrote back, every other buffer as entered; the contents at the five boundaries are the fold
  `W0 … W5`.  The result, `run_all`: every weakly fair execution terminates, faults nowhere, and ends with every
  unscoped buffer at `W5`.  Stated at any float instance.
-/
import proofs.«132950_g81999515615950_cont_9to1_m_63_4_alg».proof.Proof.Gen.Kernel.Launch
import proofs.«132950_g81999515615950_cont_9to1_m_63_4_alg».proof.Proof.Gen.Kernel.Skeleton
import proofs.«132950_g81999515615950_cont_9to1_m_63_4_alg».proof.Proof.Gen.Kernel.Points
import proofs.«132950_g81999515615950_cont_9to1_m_63_4_alg».proof.Proof.KernelReg0
import proofs.«132950_g81999515615950_cont_9to1_m_63_4_alg».proof.Proof.KernelReg1
import proofs.«132950_g81999515615950_cont_9to1_m_63_4_alg».proof.Proof.KernelReg2
import proofs.«132950_g81999515615950_cont_9to1_m_63_4_alg».proof.Proof.KernelReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3's two input windows read one array

Windows 0 and 1 of region 3 both stage `main_v3_0`; each holds half of it while the region runs. -/

section Shared
variable (V : (c : Dev nD) → (b : Ref sig .tc) → Buf (Elt F) ((c : Thread nD τ).loc b))

/-- The buffers behind region 3's three windows are two: the shared input and the output. -/
theorem arrImage3 : (Finset.univ.image (Pipeline.arrRef spec3) : Finset (Ref sig .tc)) = ([main_v3_0, main_v4] : List (Ref sig .tc)).toFinset := by decide

/-- The pipeline's arrays, window by window: the shared input at its two halves, the output whole. -/
theorem arrays3_eq (c : Dev nD) (G : (w : Fin cfg3.W) → Buf (Elt F) ((cfg3.win w).arr.view.loc (c.tc : Thread nD τ))) :
    ((dat3 V c).arrays G : sProp 𝕄)
      = iprop((((c : Thread nD τ).loc main_v3_0) ↦{fullShare.left} G 0) ∗ (((c : Thread nD τ).loc main_v3_0) ↦{fullShare.right} G 1)
          ∗ (((c : Thread nD τ).loc main_v4) ↦{fullShare} G 2)) := by
  unfold Dat.arrays
  rw [bigSep_W3, (arr_whole3 0).set_eq_univ, (arr_whole3 2).set_eq_univ]
  rfl

end Shared

section Shared3
variable (V : (c : Dev nD) → (b : Ref sig .tc) → Buf (Elt F) ((c : Thread nD τ).loc b))

/-- ENTRY of region 3: the two buffers behind its windows, whole, make the pipeline's arrays at their entry contents — the
    shared input dealt to its two windows by halves. -/
theorem arrays3_of_bufs (c : Dev nD) :
    (Pipeline.arrBufs (Ix := Unit) (Name := ℕ) (U := UR sig nD τ) (Lvl := ℕ) spec3 c (V c) : sProp 𝕄) ⊢ (dat3 V c).arrays ((dat3 V c).arrAt · 0) := by
  rw [arrays3_eq]
  unfold Pipeline.arrBufs
  rw [bigSep_eq_bigSepL_of_eq _ arrImage3 (by decide)]
  show iprop((((c : Thread nD τ).loc main_v3_0) ↦{fullShare} V c main_v3_0) ∗ (((c : Thread nD τ).loc main_v4) ↦{fullShare} V c main_v4)) ⊢ _
  iintro ⟨Hm, Ho⟩
  ihave Hm' := (pointsTo_share (PosShare.mem_left_op_right fullShare)).1 $$ Hm
  icases Hm' with ⟨Hl, Hr⟩
  isplitl [Hl]; · iexact Hl
  isplitl [Hr]; · iexact Hr
  iexact Ho

/-- EXIT of region 3: the pipeline's arrays at what it leaves give back the shared input whole, as entered (neither input
    window writes it), and the output at its written-back blocks. -/
theorem bufs_of_arrays3 (c : Dev nD) :
    ((dat3 V c).arrays ((dat3 V c).arrAt · cfg3.N) : sProp 𝕄)
      ⊢ iprop((((c : Thread nD τ).loc main_v3_0) ↦{fullShare} V c main_v3_0) ∗ (((c : Thread nD τ).loc main_v4) ↦{fullShare} (dat3 V c).arrAt 2 cfg3.N)) := by
  rw [arrays3_eq, (dat3 V c).arrAt_in 0 rfl cfg3.N, (dat3 V c).arrAt_in 1 rfl cfg3.N, A_eq3, A_eq3]
  iintro ⟨Hl, Hr, Ho⟩
  isplitl [Hl Hr]
  · iapply (pointsTo_share (PosShare.mem_left_op_right fullShare)).2
    isplitl [Hl]; · iexact Hl
    iexact Hr
  iexact Ho

end Shared3

/-! # The run: @main's five items from the launch to the return

## The buffer contents at each boundary: a fold through @main -/

variable (m : (ℓ : Loc nD τ sig) → Buf (Elt F) ℓ) (ρ : Dev nD → PrngReg)

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (an input as entered, an output's blocks written
    back point by point), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host concatenate (region 1's entry). -/
abbrev W2 : Dev nD → Valuation τ sig (Elt F) := fun c => StableHlo.after hostOps1 (W1 m ρ c)
/-- The same read at the TensorCore's references. -/
abbrev V2 : (c : Dev nD) → (b : Ref sig .tc) → Buf (Elt F) ((c : Thread nD τ).loc b) := fun c b => W2 m ρ c b

/-- At region 1's exit: its arrays at what the pipeline leaves (an input as entered, an output's blocks written
    back point by point), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, an output's blocks written
    back point by point), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: the decoder's output at what the pipeline leaves, every other buffer (the shared input too) as entered. -/
def W5 (c : Dev nD) : Valuation τ sig (Elt F) :=
  Function.update (W4 m ρ c) (Proc.devRef .tc main_v4) ((dat3 (V4 m ρ) c).arrAt 2 cfg3.N)
theorem W5_out (c : Dev nD) : W5 m ρ c (Proc.devRef .tc main_v4) = (dat3 (V4 m ρ) c).arrAt 2 cfg3.N := by
  unfold W5; exact Function.update_self ..
theorem W5_of_ne (c : Dev nD) (b : Ref sig .tc) (hb : b ≠ main_v4) : W5 m ρ c (Proc.devRef .tc b) = W4 m ρ c (Proc.devRef .tc b) := by
  unfold W5; exact Function.update_of_ne (StableHlo.devRef_ne_of_ne hb) ..
/-- The same read at the TensorCore's references. -/
abbrev V5 : (c : Dev nD) → (b : Ref sig .tc) → Buf (Elt F) ((c : Thread nD τ).loc b) := fun c b => W5 m ρ c b

/-! ## The proof data family and the thread state -/

/-- The prefetched tables' admissible contents: no pipeline has a table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The concatenate allocates no buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 of @main over the thread state: entered with every unscoped buffer at `W0`, left with them at
    `W1`. Its arrays are split out of the unscoped buffers at entry and put back at what the pipeline leaves at
    exit; the generator register goes into the region's invariant and comes back; nothing is owed; the kernel has no
    semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 of @main over the thread state: entered with every unscoped buffer at `W2`, left with them at
    `W3`. Its arrays are split out of the unscoped buffers at entry and put back at what the pipeline leaves at
    exit; the generator register goes into the region's invariant and comes back; nothing is owed; the kernel has no
    semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 of @main over the thread state: entered with every unscoped buffer at `W3`, left with them at
    `W4`. Its arrays are split out of the unscoped buffers at entry and put back at what the pipeline leaves at
    exit; the generator register goes into the region's invariant and comes back; nothing is owed; the kernel has no
    semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's exit contents agree with its entry contents off the output's buffer. -/
theorem V5_rest (c : Dev nD) : ∀ b, b ∉ Finset.univ.image (Pipeline.arrRef spec3) → V5 m ρ c b = V4 m ρ c b := fun b hb =>
  W5_of_ne m ρ c b fun e => hb (Finset.mem_image.mpr ⟨2, Finset.mem_univ _, e.symm⟩)

set_option backward.isDefEq.respectTransparency.types false in
/-- Region 3 of @main over the thread state: entered with every unscoped buffer at `W4`, left with them at `W5`. Its two
    input windows stage one array, which is dealt to them by halves at entry and joined again at exit (`arrays3_of_bufs`,
    `bufs_of_arrays3`); the rest is as in the other regions. -/
def reg3 : Pipeline.RegionSeg (pcfgs (F := F)) admH (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (unscopedBufs c (V4 m ρ c) : sProp 𝕄)
        ⊢ iprop((pdats m ρ 3 c).arrays ((pdats m ρ 3 c).arrAt · 0) ∗ Pipeline.unscopedRest spec3 c (V4 m ρ c)) := by
      rw [Pipeline.unscopedBufs_split₀ (Pipeline.pin (pcfgs (F := F)) admH) 3 winFacts₀3.arr_unscoped c (V4 m ρ c)]
      exact sep_mono (arrays3_of_bufs (V4 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N) ∗ Pipeline.unscopedRest spec3 c (V4 m ρ c))
        ⊢ (unscopedBufs c (V5 m ρ c) : sProp 𝕄) := by
      rw [Pipeline.unscopedBufs_split₀ (Pipeline.pin (pcfgs (F := F)) admH) 3 winFacts₀3.arr_unscoped c (V5 m ρ c)]
      refine sep_mono ((bufs_of_arrays3 (V4 m ρ) c).trans ?_) (Entails.of_eq ?_)
      · show _ ⊢ (Pipeline.arrBufs (Ix := Unit) (Name := ℕ) (U := UR sig nD τ) (Lvl := ℕ) spec3 c (V5 m ρ c) : sProp 𝕄)
        unfold Pipeline.arrBufs
        rw [bigSep_eq_bigSepL_of_eq _ arrImage3 (by decide)]
        show _ ⊢ iprop((((c : Thread nD τ).loc main_v3_0) ↦{fullShare} V5 m ρ c main_v3_0) ∗ (((c : Thread nD τ).loc main_v4) ↦{fullShare} V5 m ρ c main_v4))
        rw [show V5 m ρ c main_v3_0 = V4 m ρ c main_v3_0 from W5_of_ne m ρ c main_v3_0 (by decide),
          show V5 m ρ c main_v4 = (dat3 (V4 m ρ) c).arrAt 2 cfg3.N from W5_out m ρ c]
      · show (Pipeline.unscopedRest (Ix := Unit) (Name := ℕ) (U := UR sig nD τ) (Lvl := ℕ) spec3 c (V4 m ρ c) : sProp 𝕄) = Pipeline.unscopedRest spec3 c (V5 m ρ c)
        unfold Pipeline.unscopedRest
        exact bigSep_congr fun b hb => by rw [V5_rest m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and the final memory holds every unscoped buffer at the fold's last
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.KernelFold.lean ====
/-
  What the fold through @main holds at each buffer the claims and the later regions read: an argument array is never
  written (a region reads it through an input window or bypasses it; the concatenate writes only its own result), so it
  reaches every boundary as launched; a region's output array holds what that region's pipeline left from the moment it
  is written, through every later item that only reads it.
-/
import proofs.«132950_g81999515615950_cont_9to1_m_63_4_alg».proof.Proof.KernelRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The concatenate writes only its own result. -/
theorem W2_of_ne (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne hb))

/-! ## The arguments end as launched -/

/-- `main_arg0` reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- `main_arg1` reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- `main_arg2` reaches the end as launched. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- `main_arg3` reaches the end as launched. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- `main_arg4` reaches the end as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- `main_arg5` reaches the end as launched. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl

/-- `main_arg6` reaches the end as launched. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := (W1_arr m ρ c 3).trans (((dat0 (V0 m ρ) c).arrAt_in 3 rfl _).trans (A_eq0 (V0 m ρ) c 3))
    _ = m ((c : Thread nD τ).loc main_arg6) := rfl

/-- `main_arg7` reaches the end as launched. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := (W1_arr m ρ c 4).trans (((dat0 (V0 m ρ) c).arrAt_in 4 rfl _).trans (A_eq0 (V0 m ρ) c 4))
    _ = m ((c : Thread nD τ).loc main_arg7) := rfl

/-! ## What each region is entered with -/

/-- Region 1 reads the adjacency matrix as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Region 1 reads region 0's first output as that region left it. -/
theorem W2_main_v0_0 (c : Dev nD) : W2 m ρ c (Proc.devRef .tc main_v0_0) = (dat0 (V0 m ρ) c).arrAt 5 cfg0.N :=
  (W2_of_ne m ρ c main_v0_0 (by decide)).trans (W1_arr m ρ c 5)
/-- The two projection matrices reach the concatenate as launched. -/
theorem W1_main_arg3 (c : Dev nD) : W1 m ρ c (Proc.devRef .tc main_arg3) = m ((c : Thread nD τ).loc main_arg3) := W1_of_ne m ρ c main_arg3 (by decide)
theorem W1_main_arg4 (c : Dev nD) : W1 m ρ c (Proc.devRef .tc main_arg4) = m ((c : Thread nD τ).loc main_arg4) := W1_of_ne m ρ c main_arg4 (by decide)
/-- Region 1's third operand is the concatenate of the two projection matrices. -/
theorem W2_main_v1 (c : Dev nD) : W2 m ρ c (Proc.devRef .tc main_v1)
    = concatenate S64x64 1 [⟨S64x32, m ((c : Thread nD τ).loc main_arg3)⟩, ⟨S64x32, m ((c : Thread nD τ).loc main_arg4)⟩] concatenates_S64x32_S64x32_S64x64_d1 := by
  rw [← W1_main_arg3 m ρ c, ← W1_main_arg4 m ρ c]
  show StableHlo.after hostOps1 (W1 m ρ c) (Proc.devRef .tc main_v1) = _
  after_results

/-- Region 2 reads the adjacency matrix as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Region 2 reads region 1's output as that region left it. -/
theorem W3_main_v2 (c : Dev nD) : W3 m ρ c (Proc.devRef .tc main_v2) = (dat1 (V2 m ρ) c).arrAt 3 cfg1.N := W3_arr m ρ c 3
/-- Region 2 reads region 0's second output as that region left it. -/
theorem W3_main_v0_1 (c : Dev nD) : W3 m ρ c (Proc.devRef .tc main_v0_1) = (dat0 (V0 m ρ) c).arrAt 6 cfg0.N :=
  calc W3 m ρ c (Proc.devRef .tc main_v0_1)
    _ = W2 m ρ c (Proc.devRef .tc main_v0_1) := W3_of_ne m ρ c main_v0_1 (by decide)
    _ = W1 m ρ c (Proc.devRef .tc main_v0_1) := W2_of_ne m ρ c main_v0_1 (by decide)
    _ = (dat0 (V0 m ρ) c).arrAt 6 cfg0.N := W1_arr m ρ c 6

/-- Region 3 reads region 2's first output as that region left it. -/
theorem W4_main_v3_0 (c : Dev nD) : W4 m ρ c (Proc.devRef .tc main_v3_0) = (dat2 (V3 m ρ) c).arrAt 3 cfg2.N := W4_arr m ρ c 3

/-! ## The six results at the end -/

theorem W5_main_v4 (c : Dev nD) : W5 m ρ c (Proc.devRef .tc main_v4) = (dat3 (V4 m ρ) c).arrAt 2 cfg3.N := W5_out m ρ c
theorem W5_main_v3_2 (c : Dev nD) : W5 m ρ c (Proc.devRef .tc main_v3_2) = (dat2 (V3 m ρ) c).arrAt 5 cfg2.N :=
  (W5_of_ne m ρ c main_v3_2 (by decide)).trans (W4_arr m ρ c 5)
theorem W5_main_v3_0 (c : Dev nD) : W5 m ρ c (Proc.devRef .tc main_v3_0) = (dat2 (V3 m ρ) c).arrAt 3 cfg2.N :=
  (W5_of_ne m ρ c main_v3_0 (by decide)).trans (W4_arr m ρ c 3)
theorem W5_main_v3_1 (c : Dev nD) : W5 m ρ c (Proc.devRef .tc main_v3_1) = (dat2 (V3 m ρ) c).arrAt 4 cfg2.N :=
  (W5_of_ne m ρ c main_v3_1 (by decide)).trans (W4_arr m ρ c 4)
/-- The fifth result is region 0's second output. -/
theorem W5_main_v0_1 (c : Dev nD) : W5 m ρ c (Proc.devRef .tc main_v0_1) = (dat0 (V0 m ρ) c).arrAt 6 cfg0.N :=
  calc W5 m ρ c (Proc.devRef .tc main_v0_1)
    _ = W4 m ρ c (Proc.devRef .tc main_v0_1) := W5_of_ne m ρ c main_v0_1 (by decide)
    _ = W3 m ρ c (Proc.devRef .tc main_v0_1) := (W4_arr m ρ c 2).trans (((dat2 (V3 m ρ) c).arrAt_in 2 rfl _).trans (A_eq2 (V3 m ρ) c 2))
    _ = W2 m ρ c (Proc.devRef .tc main_v0_1) := W3_of_ne m ρ c main_v0_1 (by decide)
    _ = W1 m ρ c (Proc.devRef .tc main_v0_1) := W2_of_ne m ρ c main_v0_1 (by decide)
    _ = (dat0 (V0 m ρ) c).arrAt 6 cfg0.N := W1_arr m ρ c 6

/-- The sixth result is region 0's third output. -/
theorem W5_main_v0_2 (c : Dev nD) : W5 m ρ c (Proc.devRef .tc main_v0_2) = (dat0 (V0 m ρ) c).arrAt 7 cfg0.N :=
  calc W5 m ρ c (Proc.devRef .tc main_v0_2)
    _ = W4 m ρ c (Proc.devRef .tc main_v0_2) := W5_of_ne m ρ c main_v0_2 (by decide)
    _ = W3 m ρ c (Proc.devRef .tc main_v0_2) := W4_of_ne m ρ c main_v0_2 (by decide)
    _ = W2 m ρ c (Proc.devRef .tc main_v0_2) := W3_of_ne m ρ c main_v0_2 (by decide)
    _ = W1 m ρ c (Proc.devRef .tc main_v0_2) := W2_of_ne m ρ c main_v0_2 (by decide)
    _ = (dat0 (V0 m ρ) c).arrAt 7 cfg0.N := W1_arr m ρ c 7

/-! ## The frame: every argument array ends as launched -/

/-- Every weakly fair execution of @main terminates, nothing faulting, with each argument array as launched: `run_all`
    read at the eight arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩)
    (run_all m ρ)

end Cert.Kernel.Hand

end
-- ==== Proof.KernelIdealReg0.lean ====
/- Region 0 of the program: one call on a one-point grid, every window the whole of its array.
   From X (10000 x 128), W1 (128 x 64), Wa1 (10000 x 64), Wa2 and Wa3 (64 x 32 each) the body computes
     Y  = X * W1                     (10000 x 64),
     T  = tanh (X^T * Wa1)           (128 x 64; the product contracts the 10000 rows of X against those of Wa1),
     M2 = T * Wa2,  M3 = T * Wa3     (128 x 32 each),
   every product accumulated from zero, and stores Y, M2, M3 whole into its three output windows.
   This module proves, for any contents V of the arrays at the region's entry and any float instance: the
   body, run on staging buffers that hold the five input arrays (the three output buffers holding anything),
   leaves the inputs as they were and the outputs at Y, M2, M3 of the inputs; the pipeline's proof data built
   from that; and the body obligation of the pipeline at its one point. -/
import proofs.«132950_g81999515615950_cont_9to1_m_63_4_alg».proof.Proof.Gen.KernelIdeal.Launch
import proofs.«132950_g81999515615950_cont_9to1_m_63_4_alg».proof.Proof.Gen.KernelIdeal.Skeleton
import proofs.«132950_g81999515615950_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there
    (here always the whole array). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is the entry
    contents and whose body leaves the block in place: an input is never written, and where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data whose array is the entry
    contents and whose body leaves the block in place: an input is never written, and where it is not fetched
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data whose array is the entry
    contents and whose body leaves the block in place: an input is never written, and where it is not fetched
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data whose array is the entry
    contents and whose body leaves the block in place: an input is never written, and where it is not fetched
    its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data whose array is the entry
    contents and whose body leaves the block in place: an input is never written, and where it is not fetched
    its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0
abbrev r0_3 : Rect S64x32 := Rect.unit (s := S64x32) ![0, 0] S64x32.size inb_S64x32_S64x32_0_0
abbrev r0_4 : Rect S64x32 := Rect.unit (s := S64x32) ![0, 0] S64x32.size inb_S64x32_S64x32_0_0
abbrev r0_5 : Rect S10000x64 := Rect.unit (s := S10000x64) ![0, 0] S10000x64.size inb_S10000x64_S10000x64_0_0
abbrev r0_6 : Rect S128x32 := Rect.unit (s := S128x32) ![0, 0] S128x32.size inb_S128x32_S128x32_0_0
abbrev r0_7 : Rect S128x32 := Rect.unit (s := S128x32) ![0, 0] S128x32.size inb_S128x32_S128x32_0_0

/-! ## What the body leaves in each output window's buffer -/

/-- Window 5's staging buffer after the body, from the input windows' blocks: its one store, of the product X * W1. -/
def out0_5 (x0 : Vec F S10000x128 .f32) (x1 : Vec F S128x64 .f32) (x2 : Vec F S10000x64 .f32) (x3 : Vec F S64x32 .f32) (x4 : Vec F S64x32 .f32) : Vec F S10000x64 .f32 :=
  View.canon [⟨r0_5, k0_pay1 (View.ld x0 r0_0) (View.ld x1 r0_1)⟩]

/-- That store is of the whole buffer, so it covers it. -/
theorem cover0_5 (p0 : Vec F S10000x64 .f32) (y : S10000x64.Idx) :
    ∃ pc ∈ ([⟨r0_5, p0⟩] : List (View.Piece (Elt F) S10000x64 .f32)), y ∈ pc.1.set :=
  View.cover_of_tiled [⟨r0_5, p0⟩] S10000x64.size (by rfl) y

/-- Window 6's staging buffer after the body, from the input windows' blocks: its one store, of tanh (X^T * Wa1) * Wa2. -/
def out0_6 (x0 : Vec F S10000x128 .f32) (x1 : Vec F S128x64 .f32) (x2 : Vec F S10000x64 .f32) (x3 : Vec F S64x32 .f32) (x4 : Vec F S64x32 .f32) : Vec F S128x32 .f32 :=
  View.canon [⟨r0_6, k0_pay3 (View.ld x0 r0_0) (View.ld x2 r0_2) (View.ld x3 r0_3)⟩]

/-- That store is of the whole buffer, so it covers it. -/
theorem cover0_6 (p0 : Vec F S128x32 .f32) (y : S128x32.Idx) :
    ∃ pc ∈ ([⟨r0_6, p0⟩] : List (View.Piece (Elt F) S128x32 .f32)), y ∈ pc.1.set :=
  View.cover_of_tiled [⟨r0_6, p0⟩] S128x32.size (by rfl) y

/-- Window 7's staging buffer after the body, from the input windows' blocks: its one store, of tanh (X^T * Wa1) * Wa3. -/
def out0_7 (x0 : Vec F S10000x128 .f32) (x1 : Vec F S128x64 .f32) (x2 : Vec F S10000x64 .f32) (x3 : Vec F S64x32 .f32) (x4 : Vec F S64x32 .f32) : Vec F S128x32 .f32 :=
  View.canon [⟨r0_7, k0_pay4 (View.ld x0 r0_0) (View.ld x2 r0_2) (View.ld x4 r0_4)⟩]

/-- That store is of the whole buffer, so it covers it. -/
theorem cover0_7 (p0 : Vec F S128x32 .f32) (y : S128x32.Idx) :
    ∃ pc ∈ ([⟨r0_7, p0⟩] : List (View.Piece (Elt F) S128x32 .f32)), y ∈ pc.1.set :=
  View.cover_of_tiled [⟨r0_7, p0⟩] S128x32.size (by rfl) y

/-! ## The body's triple -/

set_option maxHeartbeats 4000000 in
/-- The body on whole staging buffers, the inputs' at contents `x0 … x4` and the outputs' at anything, runs to the
    continuation holding the inputs' as they were and each output's at `out0_w` of the inputs'. Each output buffer
    is loaded before it is stored to, which is why it must be owned (at some contents) beforehand. -/
theorem sound_kernel0 (c : Dev nD) (E : Set ℕ) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole) (arg3 : Memref sig .tc .vmem S64x32 .f32) (harg3 : arg3.IsWhole) (arg4 : Memref sig .tc .vmem S64x32 .f32) (harg4 : arg4.IsWhole) (arg5 : Memref sig .tc .vmem S10000x64 .f32) (harg5 : arg5.IsWhole) (arg6 : Memref sig .tc .vmem S128x32 .f32) (harg6 : arg6.IsWhole) (arg7 : Memref sig .tc .vmem S128x32 .f32) (harg7 : arg7.IsWhole)
    (x0 : Vec F S10000x128 .f32) (x1 : Vec F S128x64 .f32) (x2 : Vec F S10000x64 .f32) (x3 : Vec F S64x32 .f32) (x4 : Vec F S64x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4) ∗ owns (c : Thread nD τ) arg6 fullShare (out0_6 x0 x1 x2 x3 x4) ∗ owns (c : Thread nD τ) arg7 fullShare (out0_7 x0 x1 x2 x3 x4)) -∗ K ⟨⟩))
      ⊢ wp frame (wpE (defs₀ (F := F)) Variants.none c none) E (cc0__k1_small arg0 harg0 arg1 harg1 arg2 harg2 arg3 harg3 arg4 harg4 arg5 harg5 arg6 harg6 arg7 harg7) K := by
  simp only [cc0__k1_small_eq_skeleton]; unfold cc0__k1_small_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer at its block and each output's at `out0_w` of the input blocks; the invariant: the rest of the
    scoped memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealReg1.lean ====
/-
  Region 1 of the program: the first pass of the graph-convolution encoder over the adjacency matrix, row block by row
  block. At each of the 25 grid points the body reads a block of 400 rows of the adjacency matrix (400 x 10000), the
  whole first-layer product X·W1 (10000 x 64) and the whole pair of second-layer weight matrices set side by side
  (64 x 64), and stores the 400 x 64 block

      max(A_blk · (X·W1), 0) · [W2 | W3]

  into the output's staging buffer, which the pipeline writes back to rows 400·t … 400·t + 399 of the output array.

  This module proves, for an arbitrary float instance and at arbitrary contents `V` of the buffers when the region is
  entered: what each window's block at a point is (`iblk1`), that each input window's staging buffer holds its block at
  every point whether or not it was fetched there (the two whole-array windows are fetched once only), what the body
  leaves in the output's staging buffer as a closed function of the three input blocks (`out1_3`), the body's
  separation-logic triple (`sound_kernel1`), the proof data of the pipeline (`dat1`) and the body obligation at every
  grid point (`body_obligation1`).
-/
import proofs.«132950_g81999515615950_cont_9to1_m_63_4_alg».proof.Proof.Gen.KernelIdeal.Launch
import proofs.«132950_g81999515615950_cont_9to1_m_63_4_alg».proof.Proof.Gen.KernelIdeal.Skeleton
import proofs.«132950_g81999515615950_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's staging buffer holds its row block at every point: it is fetched at every point, the
    window is uncut and never idle, and the body leaves it in place. Stated for any proof data whose array is the
    entry contents and whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The window of X·W1 is the whole array, fetched at the first point only; at a later point its block index has not
    moved and the body left the buffer as it was, so the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of the window of the two second-layer weight matrices set side by side. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S64x64 := Rect.unit (s := S64x64) ![0, 0] S64x64.size inb_S64x64_S64x64_0_0
abbrev r1_3 : Rect S400x64 := Rect.unit (s := S400x64) ![0, 0] S400x64.size inb_S400x64_S400x64_0_0

/-! ## What the body leaves in the output window's buffer -/

/-- The output's staging buffer after the body, from the three input blocks: its one store, of
    max(x0 · x1, 0) · x2, laid over the whole buffer. -/
def out1_3 (x0 : Vec F S400x10000 .f32) (x1 : Vec F S10000x64 .f32) (x2 : Vec F S64x64 .f32) : Vec F S400x64 .f32 :=
  View.canon [⟨r1_3, k1_pay1 (View.ld x0 r1_0) (View.ld x1 r1_1) (View.ld x2 r1_2)⟩]

/-- The one store is the whole buffer, so it covers it. -/
theorem cover1_3 (p0 : Vec F S400x64 .f32) (y : S400x64.Idx) :
    ∃ pc ∈ ([⟨r1_3, p0⟩] : List (View.Piece (Elt F) S400x64 .f32)), y ∈ pc.1.set :=
  View.cover_of_tiled [⟨r1_3, p0⟩] S400x64.size (by rfl) y

/-! ## The body's triple -/

set_option maxHeartbeats 1000000 in
/-- The kernel body on whole staging buffers, the three inputs' at read contents x0, x1, x2 and the output's at anything
    (the body loads it before it stores), runs to the continuation with the inputs' buffers as they were and the
    output's at `out1_3 x0 x1 x2`. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S400x64 .f32) (harg4 : arg4.IsWhole)
    (x0 : Vec F S400x10000 .f32) (x1 : Vec F S10000x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__k2_pass1 i arg1 harg1 arg2 harg2 arg3 harg3 arg4 harg4) K := by
  simp only [cc1__k2_pass1_eq_skeleton]; unfold cc1__k2_pass1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the body at point
    `t` each input's buffer at its block and the output's at `out1_3` of the three input blocks; the invariant holds
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealReg2.lean ====
/- Region 2 of @main: the second pass of the graph convolution. On a grid of 25 points, point t reads rows
   400 t .. 400 t + 399 of the adjacency matrix (a 400 x 10000 block), the whole 10000 x 64 matrix of hidden
   features times weights, and the whole 128 x 32 matrix of attribute means. It forms the 400 x 64 product
   block · hidden, writes its columns 0..31 (the node means) and 32..63 (the node log-variances) to rows
   400 t .. 400 t + 399 of two 10000 x 32 outputs, and writes the product of the mean columns with the TRANSPOSE of
   the attribute means (400 x 128) to the same rows of a 10000 x 128 output.

   This module states, at any entry contents V of the core's buffers and for either number system: each window's
   block at a point; what the body leaves in each output buffer as a function of the three input blocks; the
   body's Hoare triple (inputs held as read, outputs held at anything, outputs left at those functions); the
   proof data of the pipeline; and the obligation that the body meets that data at every grid point. -/
import proofs.«132950_g81999515615950_cont_9to1_m_63_4_alg».proof.Proof.Gen.KernelIdeal.Launch
import proofs.«132950_g81999515615950_cont_9to1_m_63_4_alg».proof.Proof.Gen.KernelIdeal.Skeleton
import proofs.«132950_g81999515615950_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows (and columns) of its array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency window's buffer holds its block at every point: it is fetched at every point, the body never
    writes it, and no point is idle for it. Stated for any proof data over the entry contents whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The hidden-features window's buffer holds the whole matrix at every point: fetched at the first point only,
    its block index never moves afterwards, so what was fetched stays the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The attribute-means window's buffer holds the whole matrix at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S128x32 := Rect.unit (s := S128x32) ![0, 0] S128x32.size inb_S128x32_S128x32_0_0
abbrev r2_3 : Rect S400x32 := Rect.unit (s := S400x32) ![0, 0] S400x32.size inb_S400x32_S400x32_0_0
abbrev r2_5 : Rect S400x128 := Rect.unit (s := S400x128) ![0, 0] S400x128.size inb_S400x128_S400x128_0_0

/-! ## What the body leaves in each output window's buffer -/

/-- The means' buffer after the body: one store over the whole buffer, of columns 0..31 of the product of the
    adjacency block `x0` with the hidden features `x1`. -/
def out2_3 (x0 : Vec F S400x10000 .f32) (x1 : Vec F S10000x64 .f32) : Vec F S400x32 .f32 :=
  View.canon [⟨r2_3, k2_pay2 (View.ld x0 r2_0) (View.ld x1 r2_1)⟩]

/-- The log-variances' buffer after the body: one store over the whole buffer, of columns 32..63 of the same
    product. -/
def out2_4 (x0 : Vec F S400x10000 .f32) (x1 : Vec F S10000x64 .f32) : Vec F S400x32 .f32 :=
  View.canon [⟨r2_3, k2_pay3 (View.ld x0 r2_0) (View.ld x1 r2_1)⟩]

/-- The features' buffer after the body: one store over the whole buffer, of the mean columns contracted with
    the attribute means `x2` along the 32 latent coordinates. -/
def out2_5 (x0 : Vec F S400x10000 .f32) (x1 : Vec F S10000x64 .f32) (x2 : Vec F S128x32 .f32) : Vec F S400x128 .f32 :=
  View.canon [⟨r2_5, k2_pay4 (View.ld x0 r2_0) (View.ld x1 r2_1) (View.ld x2 r2_2)⟩]

/-- A single store over the whole of a 400 x 32 buffer covers it. -/
theorem cover2_3 (p0 : Vec F S400x32 .f32) (y : S400x32.Idx) :
    ∃ pc ∈ ([⟨r2_3, p0⟩] : List (View.Piece (Elt F) S400x32 .f32)), y ∈ pc.1.set :=
  View.cover_of_tiled [⟨r2_3, p0⟩] S400x32.size (by rfl) y

/-- A single store over the whole of a 400 x 128 buffer covers it. -/
theorem cover2_5 (p0 : Vec F S400x128 .f32) (y : S400x128.Idx) :
    ∃ pc ∈ ([⟨r2_5, p0⟩] : List (View.Piece (Elt F) S400x128 .f32)), y ∈ pc.1.set :=
  View.cover_of_tiled [⟨r2_5, p0⟩] S400x128.size (by rfl) y

/-! ## The body's triple -/

set_option maxHeartbeats 4000000 in
/-- The body, run on whole buffers with the three inputs at contents `x0`, `x1`, `x2` and the three outputs at
    anything, ends with the inputs unchanged and each output at its function of the inputs: three loads of the
    inputs, and for each output a load (whose value is unused) followed by one store over the whole buffer. -/
theorem sound_kernel2 (c : Dev nD) (E : Set ℕ) (i : grid2.Coords)
    (arg1 : Memref sig .tc .vmem S400x10000 .f32) (harg1 : arg1.IsWhole) (arg2 : Memref sig .tc .vmem S10000x64 .f32) (harg2 : arg2.IsWhole)
    (arg3 : Memref sig .tc .vmem S128x32 .f32) (harg3 : arg3.IsWhole) (arg4 : Memref sig .tc .vmem S400x32 .f32) (harg4 : arg4.IsWhole)
    (arg5 : Memref sig .tc .vmem S400x32 .f32) (harg5 : arg5.IsWhole) (arg6 : Memref sig .tc .vmem S400x128 .f32) (harg6 : arg6.IsWhole)
    (x0 : Vec F S400x10000 .f32) (x1 : Vec F S10000x64 .f32) (x2 : Vec F S128x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1) ∗ owns (c : Thread nD τ) arg5 fullShare (out2_4 x0 x1)
            ∗ owns (c : Thread nD τ) arg6 fullShare (out2_5 x0 x1 x2)) -∗ K ⟨⟩))
      ⊢ wp frame (wpE (defs₀ (F := F)) Variants.none c none) E (cc2__k3_pass2 i arg1 harg1 arg2 harg2 arg3 harg3 arg4 harg4 arg5 harg5 arg6 harg6) K := by
  simp only [cc2__k3_pass2_eq_skeleton]; unfold cc2__k3_pass2_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_3 _)
  iexists _; isplitr
  swap; · iexact H5
  ipureintro
  exact View.read_writes_eq_canon _ _ _ (cover2_5 _)

/-! ## The pipeline's proof data -/

/-- The proof data of the region's pipeline on core `c`: the arrays as the region finds them; after the body at
    point `t` each input's buffer at its block and each output's at its function of the input blocks; the
    invariant is the rest of the core's memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t)
    | ⟨5, _⟩ => out2_5 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debts, and each window's current buffer
    at what the schedule has put there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets the proof data at every point of the grid. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealReg3.lean ====
/- Region 3 of the program: the decoder. On a grid of 25 points, point t takes rows 400·t … 400·t+399 of the
   10000 × 32 matrix mu (its first window, a row block) together with the whole of mu (its second window, the same
   array, read once), contracts the block with mu along the 32-long axis of both, and writes the 400 × 10000 product
   as row block t of the 10000 × 10000 output: the output is mu · muᵀ.

   This module proves the region's body obligation at an arbitrary float instance and at arbitrary entry contents V
   of the core's buffers: each window's block at a point as a read of its array; the output staging buffer after the
   body as the one store of the product payload over the two input blocks; the body's triple; the pipeline's proof
   data (the two input windows read one array, so each holds half of it); and the obligation at every point. -/
import proofs.«132950_g81999515615950_cont_9to1_m_63_4_alg».proof.Proof.Gen.KernelIdeal.Launch
import proofs.«132950_g81999515615950_cont_9to1_m_63_4_alg».proof.Proof.Gen.KernelIdeal.Skeleton
import proofs.«132950_g81999515615950_cont_9to1_m_63_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t: the part of its array, at the entry contents, that the point's rectangle selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window: whatever the point, the body finds its block in the staging buffer, for any proof data
    over the entry contents whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The whole-matrix window: it is fetched at the first point only, its block index never moves, so at every point
    the body finds the whole matrix there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S400x32 := Rect.unit (s := S400x32) ![0, 0] S400x32.size inb_S400x32_S400x32_0_0
abbrev r3_1 : Rect S10000x32 := Rect.unit (s := S10000x32) ![0, 0] S10000x32.size inb_S10000x32_S10000x32_0_0
abbrev r3_2 : Rect S400x10000 := Rect.unit (s := S400x10000) ![0, 0] S400x10000.size inb_S400x10000_S400x10000_0_0

/-! ## What the body leaves in the output window's buffer -/

/-- The output staging buffer after the body, from the two input blocks: its single store, of the product of the
    row block with the whole matrix contracted along the short axis of both. -/
def out3_2 (x0 : Vec F S400x32 .f32) (x1 : Vec F S10000x32 .f32) : Vec F S400x10000 .f32 :=
  View.canon [⟨r3_2, k3_pay1 (View.ld x0 r3_0) (View.ld x1 r3_1)⟩]

/-- The store is of the whole buffer, so it covers it. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

/-! ## The body's triple -/

set_option maxHeartbeats 1000000 in
/-- The body on whole staging memrefs, the inputs at contents x0 and x1 and the output at anything, runs to the
    continuation holding the inputs as they were and the output at out3_2 x0 x1. -/
theorem sound_kernel3 (c : Dev nD) (E : Set ℕ) (i : grid3.Coords)
    (arg1 : Memref sig .tc .vmem S400x32 .f32) (harg1 : arg1.IsWhole)
    (arg2 : Memref sig .tc .vmem S10000x32 .f32) (harg2 : arg2.IsWhole)
    (arg3 : Memref sig .tc .vmem S400x10000 .f32) (harg3 : arg3.IsWhole)
    (x0 : Vec F S400x32 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__k4_decoder i arg1 harg1 arg2 harg2 arg3 harg3) K := by
  simp only [cc3__k4_decoder_eq_skeleton]; unfold cc3__k4_decoder_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core c: the arrays at the entry contents; after the body at point t each input
    buffer at its block and the output buffer at out3_2 of the two input blocks; the invariant the scoped rest and
    the generator register, untouched; nothing owed. The two input windows read ONE array, so each holds one half
    of it; the output window holds the whole of its own. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealRun.lean ====
/-
  The run of the kernel program's @main: four kernel regions (the small dense algebra; the first pass over the
  adjacency matrix; the second pass; the inner-product decoder) with one host concatenate between the first two.
  Each region is entered with every unscoped buffer of the core at known contents and left with its output arrays at
  what its grid points wrote back, every other buffer as entered; the contents at the five boundaries are the fold
  `W0 … W5`.  The result, `run_all`: every weakly fair execution terminates, faults nowhere, and ends with every
  unscoped buffer at `W5`.  Stated at any float instance.
-/
import proofs.«132950_g81999515615950_cont_9to1_m_63_4_alg».proof.Proof.Gen.KernelIdeal.Launch
import proofs.«132950_g81999515615950_cont_9to1_m_63_4_alg».proof.Proof.Gen.KernelIdeal.Skeleton
import proofs.«132950_g81999515615950_cont_9to1_m_63_4_alg».proof.Proof.Gen.KernelIdeal.Points
import proofs.«132950_g81999515615950_cont_9to1_m_63_4_alg».proof.Proof.KernelIdealReg0
import proofs.«132950_g81999515615950_cont_9to1_m_63_4_alg».proof.Proof.KernelIdealReg1
import proofs.«132950_g81999515615950_cont_9to1_m_63_4_alg».proof.Proof.KernelIdealReg2
import proofs.«132950_g81999515615950_cont_9to1_m_63_4_alg».proof.Proof.KernelIdealReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3's two input windows read one array

Windows 0 and 1 of region 3 both stage `main_v3_0`; each holds half of it while the region runs. -/

section Shared
variable (V : (c : Dev nD) → (b : Ref sig .tc) → Buf (Elt F) ((c : Thread nD τ).loc b))

/-- The buffers behind region 3's three windows are two: the shared input and the output. -/
theorem arrImage3 : (Finset.univ.image (Pipeline.arrRef spec3) : Finset (Ref sig .tc)) = ([main_v3_0, main_v4] : List (Ref sig .tc)).toFinset := by decide

/-- The pipeline's arrays, window by window: the shared input at its two halves, the output whole. -/
theorem arrays3_eq (c : Dev nD) (G : (w : Fin cfg3.W) → Buf (Elt F) ((cfg3.win w).arr.view.loc (c.tc : Thread nD τ))) :
    ((dat3 V c).arrays G : sProp 𝕄)
      = iprop((((c : Thread nD τ).loc main_v3_0) ↦{fullShare.left} G 0) ∗ (((c : Thread nD τ).loc main_v3_0) ↦{fullShare.right} G 1)
          ∗ (((c : Thread nD τ).loc main_v4) ↦{fullShare} G 2)) := by
  unfold Dat.arrays
  rw [bigSep_W3, (arr_whole3 0).set_eq_univ, (arr_whole3 2).set_eq_univ]
  rfl

end Shared

section Shared3
variable (V : (c : Dev nD) → (b : Ref sig .tc) → Buf (Elt F) ((c : Thread nD τ).loc b))

/-- ENTRY of region 3: the two buffers behind its windows, whole, make the pipeline's arrays at their entry contents — the
    shared input dealt to its two windows by halves. -/
theorem arrays3_of_bufs (c : Dev nD) :
    (Pipeline.arrBufs (Ix := Unit) (Name := ℕ) (U := UR sig nD τ) (Lvl := ℕ) spec3 c (V c) : sProp 𝕄) ⊢ (dat3 V c).arrays ((dat3 V c).arrAt · 0) := by
  rw [arrays3_eq]
  unfold Pipeline.arrBufs
  rw [bigSep_eq_bigSepL_of_eq _ arrImage3 (by decide)]
  show iprop((((c : Thread nD τ).loc main_v3_0) ↦{fullShare} V c main_v3_0) ∗ (((c : Thread nD τ).loc main_v4) ↦{fullShare} V c main_v4)) ⊢ _
  iintro ⟨Hm, Ho⟩
  ihave Hm' := (pointsTo_share (PosShare.mem_left_op_right fullShare)).1 $$ Hm
  icases Hm' with ⟨Hl, Hr⟩
  isplitl [Hl]; · iexact Hl
  isplitl [Hr]; · iexact Hr
  iexact Ho

/-- EXIT of region 3: the pipeline's arrays at what it leaves give back the shared input whole, as entered (neither input
    window writes it), and the output at its written-back blocks. -/
theorem bufs_of_arrays3 (c : Dev nD) :
    ((dat3 V c).arrays ((dat3 V c).arrAt · cfg3.N) : sProp 𝕄)
      ⊢ iprop((((c : Thread nD τ).loc main_v3_0) ↦{fullShare} V c main_v3_0) ∗ (((c : Thread nD τ).loc main_v4) ↦{fullShare} (dat3 V c).arrAt 2 cfg3.N)) := by
  rw [arrays3_eq, (dat3 V c).arrAt_in 0 rfl cfg3.N, (dat3 V c).arrAt_in 1 rfl cfg3.N, A_eq3, A_eq3]
  iintro ⟨Hl, Hr, Ho⟩
  isplitl [Hl Hr]
  · iapply (pointsTo_share (PosShare.mem_left_op_right fullShare)).2
    isplitl [Hl]; · iexact Hl
    iexact Hr
  iexact Ho

end Shared3

/-! # The run: @main's five items from the launch to the return

## The buffer contents at each boundary: a fold through @main -/

variable (m : (ℓ : Loc nD τ sig) → Buf (Elt F) ℓ) (ρ : Dev nD → PrngReg)

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves (an input as entered, an output's blocks written
    back point by point), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host concatenate (region 1's entry). -/
abbrev W2 : Dev nD → Valuation τ sig (Elt F) := fun c => StableHlo.after hostOps1 (W1 m ρ c)
/-- The same read at the TensorCore's references. -/
abbrev V2 : (c : Dev nD) → (b : Ref sig .tc) → Buf (Elt F) ((c : Thread nD τ).loc b) := fun c b => W2 m ρ c b

/-- At region 1's exit: its arrays at what the pipeline leaves (an input as entered, an output's blocks written
    back point by point), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, an output's blocks written
    back point by point), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: the decoder's output at what the pipeline leaves, every other buffer (the shared input too) as entered. -/
def W5 (c : Dev nD) : Valuation τ sig (Elt F) :=
  Function.update (W4 m ρ c) (Proc.devRef .tc main_v4) ((dat3 (V4 m ρ) c).arrAt 2 cfg3.N)
theorem W5_out (c : Dev nD) : W5 m ρ c (Proc.devRef .tc main_v4) = (dat3 (V4 m ρ) c).arrAt 2 cfg3.N := by
  unfold W5; exact Function.update_self ..
theorem W5_of_ne (c : Dev nD) (b : Ref sig .tc) (hb : b ≠ main_v4) : W5 m ρ c (Proc.devRef .tc b) = W4 m ρ c (Proc.devRef .tc b) := by
  unfold W5; exact Function.update_of_ne (StableHlo.devRef_ne_of_ne hb) ..
/-- The same read at the TensorCore's references. -/
abbrev V5 : (c : Dev nD) → (b : Ref sig .tc) → Buf (Elt F) ((c : Thread nD τ).loc b) := fun c b => W5 m ρ c b

/-! ## The proof data family and the thread state -/

/-- The prefetched tables' admissible contents: no pipeline has a table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The concatenate allocates no buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 of @main over the thread state: entered with every unscoped buffer at `W0`, left with them at
    `W1`. Its arrays are split out of the unscoped buffers at entry and put back at what the pipeline leaves at
    exit; the generator register goes into the region's invariant and comes back; nothing is owed; the kernel has no
    semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 of @main over the thread state: entered with every unscoped buffer at `W2`, left with them at
    `W3`. Its arrays are split out of the unscoped buffers at entry and put back at what the pipeline leaves at
    exit; the generator register goes into the region's invariant and comes back; nothing is owed; the kernel has no
    semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 of @main over the thread state: entered with every unscoped buffer at `W3`, left with them at
    `W4`. Its arrays are split out of the unscoped buffers at entry and put back at what the pipeline leaves at
    exit; the generator register goes into the region's invariant and comes back; nothing is owed; the kernel has no
    semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3's exit contents agree with its entry contents off the output's buffer. -/
theorem V5_rest (c : Dev nD) : ∀ b, b ∉ Finset.univ.image (Pipeline.arrRef spec3) → V5 m ρ c b = V4 m ρ c b := fun b hb =>
  W5_of_ne m ρ c b fun e => hb (Finset.mem_image.mpr ⟨2, Finset.mem_univ _, e.symm⟩)

set_option backward.isDefEq.respectTransparency.types false in
/-- Region 3 of @main over the thread state: entered with every unscoped buffer at `W4`, left with them at `W5`. Its two
    input windows stage one array, which is dealt to them by halves at entry and joined again at exit (`arrays3_of_bufs`,
    `bufs_of_arrays3`); the rest is as in the other regions. -/
def reg3 : Pipeline.RegionSeg (pcfgs (F := F)) admH (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (unscopedBufs c (V4 m ρ c) : sProp 𝕄)
        ⊢ iprop((pdats m ρ 3 c).arrays ((pdats m ρ 3 c).arrAt · 0) ∗ Pipeline.unscopedRest spec3 c (V4 m ρ c)) := by
      rw [Pipeline.unscopedBufs_split₀ (Pipeline.pin (pcfgs (F := F)) admH) 3 winFacts₀3.arr_unscoped c (V4 m ρ c)]
      exact sep_mono (arrays3_of_bufs (V4 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N) ∗ Pipeline.unscopedRest spec3 c (V4 m ρ c))
        ⊢ (unscopedBufs c (V5 m ρ c) : sProp 𝕄) := by
      rw [Pipeline.unscopedBufs_split₀ (Pipeline.pin (pcfgs (F := F)) admH) 3 winFacts₀3.arr_unscoped c (V5 m ρ c)]
      refine sep_mono ((bufs_of_arrays3 (V4 m ρ) c).trans ?_) (Entails.of_eq ?_)
      · show _ ⊢ (Pipeline.arrBufs (Ix := Unit) (Name := ℕ) (U := UR sig nD τ) (Lvl := ℕ) spec3 c (V5 m ρ c) : sProp 𝕄)
        unfold Pipeline.arrBufs
        rw [bigSep_eq_bigSepL_of_eq _ arrImage3 (by decide)]
        show _ ⊢ iprop((((c : Thread nD τ).loc main_v3_0) ↦{fullShare} V5 m ρ c main_v3_0) ∗ (((c : Thread nD τ).loc main_v4) ↦{fullShare} V5 m ρ c main_v4))
        rw [show V5 m ρ c main_v3_0 = V4 m ρ c main_v3_0 from W5_of_ne m ρ c main_v3_0 (by decide),
          show V5 m ρ c main_v4 = (dat3 (V4 m ρ) c).arrAt 2 cfg3.N from W5_out m ρ c]
      · show (Pipeline.unscopedRest (Ix := Unit) (Name := ℕ) (U := UR sig nD τ) (Lvl := ℕ) spec3 c (V4 m ρ c) : sProp 𝕄) = Pipeline.unscopedRest spec3 c (V5 m ρ c)
        unfold Pipeline.unscopedRest
        exact bigSep_congr fun b hb => by rw [V5_rest m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .region (reg2 m ρ),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and the final memory holds every unscoped buffer at the fold's last
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.KernelIdealFold.lean ====
/-
  What the fold through @main holds at each buffer the claims and the later regions read: an argument array is never
  written (a region reads it through an input window or bypasses it; the concatenate writes only its own result), so it
  reaches every boundary as launched; a region's output array holds what that region's pipeline left from the moment it
  is written, through every later item that only reads it.
-/
import proofs.«132950_g81999515615950_cont_9to1_m_63_4_alg».proof.Proof.KernelIdealRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The concatenate writes only its own result. -/
theorem W2_of_ne (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne hb))

/-! ## The arguments end as launched -/

/-- `main_arg0` reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- `main_arg1` reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- `main_arg2` reaches the end as launched. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- `main_arg3` reaches the end as launched. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- `main_arg4` reaches the end as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- `main_arg5` reaches the end as launched. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl

/-- `main_arg6` reaches the end as launched. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := (W1_arr m ρ c 3).trans (((dat0 (V0 m ρ) c).arrAt_in 3 rfl _).trans (A_eq0 (V0 m ρ) c 3))
    _ = m ((c : Thread nD τ).loc main_arg6) := rfl

/-- `main_arg7` reaches the end as launched. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := (W1_arr m ρ c 4).trans (((dat0 (V0 m ρ) c).arrAt_in 4 rfl _).trans (A_eq0 (V0 m ρ) c 4))
    _ = m ((c : Thread nD τ).loc main_arg7) := rfl

/-! ## What each region is entered with -/

/-- Region 1 reads the adjacency matrix as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Region 1 reads region 0's first output as that region left it. -/
theorem W2_main_v0_0 (c : Dev nD) : W2 m ρ c (Proc.devRef .tc main_v0_0) = (dat0 (V0 m ρ) c).arrAt 5 cfg0.N :=
  (W2_of_ne m ρ c main_v0_0 (by decide)).trans (W1_arr m ρ c 5)
/-- The two projection matrices reach the concatenate as launched. -/
theorem W1_main_arg3 (c : Dev nD) : W1 m ρ c (Proc.devRef .tc main_arg3) = m ((c : Thread nD τ).loc main_arg3) := W1_of_ne m ρ c main_arg3 (by decide)
theorem W1_main_arg4 (c : Dev nD) : W1 m ρ c (Proc.devRef .tc main_arg4) = m ((c : Thread nD τ).loc main_arg4) := W1_of_ne m ρ c main_arg4 (by decide)
/-- Region 1's third operand is the concatenate of the two projection matrices. -/
theorem W2_main_v1 (c : Dev nD) : W2 m ρ c (Proc.devRef .tc main_v1)
    = concatenate S64x64 1 [⟨S64x32, m ((c : Thread nD τ).loc main_arg3)⟩, ⟨S64x32, m ((c : Thread nD τ).loc main_arg4)⟩] concatenates_S64x32_S64x32_S64x64_d1 := by
  rw [← W1_main_arg3 m ρ c, ← W1_main_arg4 m ρ c]
  show StableHlo.after hostOps1 (W1 m ρ c) (Proc.devRef .tc main_v1) = _
  after_results

/-- Region 2 reads the adjacency matrix as launched. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Region 2 reads region 1's output as that region left it. -/
theorem W3_main_v2 (c : Dev nD) : W3 m ρ c (Proc.devRef .tc main_v2) = (dat1 (V2 m ρ) c).arrAt 3 cfg1.N := W3_arr m ρ c 3
/-- Region 2 reads region 0's second output as that region left it. -/
theorem W3_main_v0_1 (c : Dev nD) : W3 m ρ c (Proc.devRef .tc main_v0_1) = (dat0 (V0 m ρ) c).arrAt 6 cfg0.N :=
  calc W3 m ρ c (Proc.devRef .tc main_v0_1)
    _ = W2 m ρ c (Proc.devRef .tc main_v0_1) := W3_of_ne m ρ c main_v0_1 (by decide)
    _ = W1 m ρ c (Proc.devRef .tc main_v0_1) := W2_of_ne m ρ c main_v0_1 (by decide)
    _ = (dat0 (V0 m ρ) c).arrAt 6 cfg0.N := W1_arr m ρ c 6

/-- Region 3 reads region 2's first output as that region left it. -/
theorem W4_main_v3_0 (c : Dev nD) : W4 m ρ c (Proc.devRef .tc main_v3_0) = (dat2 (V3 m ρ) c).arrAt 3 cfg2.N := W4_arr m ρ c 3

/-! ## The six results at the end -/

theorem W5_main_v4 (c : Dev nD) : W5 m ρ c (Proc.devRef .tc main_v4) = (dat3 (V4 m ρ) c).arrAt 2 cfg3.N := W5_out m ρ c
theorem W5_main_v3_2 (c : Dev nD) : W5 m ρ c (Proc.devRef .tc main_v3_2) = (dat2 (V3 m ρ) c).arrAt 5 cfg2.N :=
  (W5_of_ne m ρ c main_v3_2 (by decide)).trans (W4_arr m ρ c 5)
theorem W5_main_v3_0 (c : Dev nD) : W5 m ρ c (Proc.devRef .tc main_v3_0) = (dat2 (V3 m ρ) c).arrAt 3 cfg2.N :=
  (W5_of_ne m ρ c main_v3_0 (by decide)).trans (W4_arr m ρ c 3)
theorem W5_main_v3_1 (c : Dev nD) : W5 m ρ c (Proc.devRef .tc main_v3_1) = (dat2 (V3 m ρ) c).arrAt 4 cfg2.N :=
  (W5_of_ne m ρ c main_v3_1 (by decide)).trans (W4_arr m ρ c 4)
/-- The fifth result is region 0's second output. -/
theorem W5_main_v0_1 (c : Dev nD) : W5 m ρ c (Proc.devRef .tc main_v0_1) = (dat0 (V0 m ρ) c).arrAt 6 cfg0.N :=
  calc W5 m ρ c (Proc.devRef .tc main_v0_1)
    _ = W4 m ρ c (Proc.devRef .tc main_v0_1) := W5_of_ne m ρ c main_v0_1 (by decide)
    _ = W3 m ρ c (Proc.devRef .tc main_v0_1) := (W4_arr m ρ c 2).trans (((dat2 (V3 m ρ) c).arrAt_in 2 rfl _).trans (A_eq2 (V3 m ρ) c 2))
    _ = W2 m ρ c (Proc.devRef .tc main_v0_1) := W3_of_ne m ρ c main_v0_1 (by decide)
    _ = W1 m ρ c (Proc.devRef .tc main_v0_1) := W2_of_ne m ρ c main_v0_1 (by decide)
    _ = (dat0 (V0 m ρ) c).arrAt 6 cfg0.N := W1_arr m ρ c 6

/-- The sixth result is region 0's third output. -/
theorem W5_main_v0_2 (c : Dev nD) : W5 m ρ c (Proc.devRef .tc main_v0_2) = (dat0 (V0 m ρ) c).arrAt 7 cfg0.N :=
  calc W5 m ρ c (Proc.devRef .tc main_v0_2)
    _ = W4 m ρ c (Proc.devRef .tc main_v0_2) := W5_of_ne m ρ c main_v0_2 (by decide)
    _ = W3 m ρ c (Proc.devRef .tc main_v0_2) := W4_of_ne m ρ c main_v0_2 (by decide)
    _ = W2 m ρ c (Proc.devRef .tc main_v0_2) := W3_of_ne m ρ c main_v0_2 (by decide)
    _ = W1 m ρ c (Proc.devRef .tc main_v0_2) := W2_of_ne m ρ c main_v0_2 (by decide)
    _ = (dat0 (V0 m ρ) c).arrAt 7 cfg0.N := W1_arr m ρ c 7

/-! ## The frame: every argument array ends as launched -/

/-- Every weakly fair execution of @main terminates, nothing faulting, with each argument array as launched: `run_all`
    read at the eight arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩)
    (run_all m ρ)

end Cert.KernelIdeal.Hand

end
-- ==== Proof.Spec.lean ====
/-
  The mathematics of the two programs, over the extended reals, with matrices as functions of two
  literal `Fin` coordinates.  Nothing here mentions a program: an array of shape [a, b] is read as a
  matrix by `toMat` (entry (i, j) is the array at the index built from i and j) and a matrix is laid
  out as an array by `ofMat`.

  The graph-convolution auto-encoder, in eval mode:
    xw1    = X · W1
    h1     = max (ADJ · xw1) 0
    mu     = ADJ · (h1 · W2)            logvar = ADJ · (h1 · W3)
    ha1    = tanh (Xᵀ · WA1)            mua = ha1 · WA2        lva = ha1 · WA3
    adjrec = mu · muᵀ                   feat = mu · muaᵀ
  One side multiplies h1 by the two weight matrices laid side by side (`cat W2 W3`) and reads mu and
  logvar as the left and right halves of ADJ · (h1 · cat W2 W3).  A column of a product depends only
  on the same column of the right factor, so the halves are the two separate products: `mm_cat_left`,
  `mm_cat_right`.  No finiteness is needed: only sums and products are rearranged, never distributed.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : Nat) : Type := Fin a → Fin b → EReal

/-- An array of shape [a, b] of extended reals. -/
abbrev Arr (a b : Nat) : Type := (⟨2, ![a, b]⟩ : Shape).Idx → EReal

/-- The array read as a matrix. -/
def toMat (a b : Nat) (A : Arr a b) : Mat a b := fun i j => A (ix2 i j)

/-- The matrix laid out as an array. -/
def ofMat (a b : Nat) (f : Mat a b) : Arr a b := fun y => f (y 0) (y 1)

theorem ofMat_ix2 {a b : Nat} (f : Mat a b) (i : Fin a) (j : Fin b) : ofMat a b f (ix2 i j) = f i j := rfl

theorem toMat_apply {a b : Nat} (A : Arr a b) (i : Fin a) (j : Fin b) : toMat a b A i j = A (ix2 i j) := rfl

theorem toMat_ofMat {a b : Nat} (f : Mat a b) : toMat a b (ofMat a b f) = f := rfl

theorem ofMat_toMat {a b : Nat} (A : Arr a b) : ofMat a b (toMat a b A) = A := by
  funext y; exact congrArg A (eq_ix2 y).symm

/-- Two arrays are equal when they agree at every pair of coordinates. -/
theorem arr_ext {a b : Nat} {A B : Arr a b} (h : ∀ (i : Fin a) (j : Fin b), A (ix2 i j) = B (ix2 i j)) : A = B := by
  funext y; rw [eq_ix2 y]; exact h _ _

/-- The matrix product. -/
def mm {a k b : Nat} (A : Mat a k) (B : Mat k b) : Mat a b := fun i j => ∑ l : Fin k, A i l * B l j

/-- The product with the second factor transposed: rows of `A` against rows of `B`. -/
def mmT {a k b : Nat} (A : Mat a k) (B : Mat b k) : Mat a b := fun i j => ∑ l : Fin k, A i l * B j l

/-- The product with the first factor transposed: columns of `A` against columns of `B`. -/
def tmm {k a b : Nat} (A : Mat k a) (B : Mat k b) : Mat a b := fun i j => ∑ l : Fin k, A l i * B l j

/-- Two matrices of the same height side by side. -/
def cat {k p q : Nat} (A : Mat k p) (B : Mat k q) : Mat k (p + q) := fun i j => Fin.addCases (A i) (B i) j

/-- The left `p` columns. -/
def left {a p q : Nat} (M : Mat a (p + q)) : Mat a p := fun i j => M i (Fin.castAdd q j)

/-- The right `q` columns. -/
def right {a p q : Nat} (M : Mat a (p + q)) : Mat a q := fun i j => M i (Fin.natAdd p j)

theorem mm_cat_left {a k p q : Nat} (H : Mat a k) (A : Mat k p) (B : Mat k q) : left (mm H (cat A B)) = mm H A := by
  funext i j; simp only [left, mm, cat, Fin.addCases_left]

theorem mm_cat_right {a k p q : Nat} (H : Mat a k) (A : Mat k p) (B : Mat k q) : right (mm H (cat A B)) = mm H B := by
  funext i j; simp only [right, mm, cat, Fin.addCases_right]

theorem left_mm {a k p q : Nat} (A : Mat a k) (M : Mat k (p + q)) : left (mm A M) = mm A (left M) := rfl

theorem right_mm {a k p q : Nat} (A : Mat a k) (M : Mat k (p + q)) : right (mm A M) = mm A (right M) := rfl

/-- Entrywise maximum with zero. -/
def relu {a b : Nat} (M : Mat a b) : Mat a b := fun i j => max (M i j) 0

/-- Entrywise hyperbolic tangent, with its limits at the infinities. -/
def tanhM {a b : Nat} (M : Mat a b) : Mat a b := fun i j => Ideal.tanh (M i j)

/-! ## The model's stages -/

def xw1 (X : Mat 10000 128) (W1 : Mat 128 64) : Mat 10000 64 := mm X W1
def h1 (ADJ : Mat 10000 10000) (XW1 : Mat 10000 64) : Mat 10000 64 := relu (mm ADJ XW1)
def ha1 (X : Mat 10000 128) (WA1 : Mat 10000 64) : Mat 128 64 := tanhM (tmm X WA1)
def mua (X : Mat 10000 128) (WA1 : Mat 10000 64) (WA2 : Mat 64 32) : Mat 128 32 := mm (ha1 X WA1) WA2

/-- The first pass over the adjacency matrix, with the two projections fused side by side. -/
def hw (ADJ : Mat 10000 10000) (XW1 : Mat 10000 64) (W23 : Mat 64 64) : Mat 10000 64 := mm (h1 ADJ XW1) W23
/-- The second pass: both latent matrices at once. -/
def ml (ADJ : Mat 10000 10000) (HW : Mat 10000 64) : Mat 10000 64 := mm ADJ HW
def muK (ADJ : Mat 10000 10000) (HW : Mat 10000 (32 + 32)) : Mat 10000 32 := left (mm ADJ HW)
def lvK (ADJ : Mat 10000 10000) (HW : Mat 10000 (32 + 32)) : Mat 10000 32 := right (mm ADJ HW)
def featK (ADJ : Mat 10000 10000) (HW : Mat 10000 (32 + 32)) (MUA : Mat 128 32) : Mat 10000 128 := mmT (muK ADJ HW) MUA
/-- The inner-product decoder. -/
def dec (MU : Mat 10000 32) : Mat 10000 10000 := mmT MU MU

/-- The reference's latent mean and log-variance: one projection each. -/
def muR (ADJ : Mat 10000 10000) (XW1 : Mat 10000 64) (W2 : Mat 64 32) : Mat 10000 32 := mm ADJ (mm (h1 ADJ XW1) W2)

/-- The fused second pass gives the reference's mean: the left half of ADJ · (h1 · [W2 | W3]) is ADJ · (h1 · W2). -/
theorem muK_hw (ADJ : Mat 10000 10000) (XW1 : Mat 10000 64) (W2 W3 : Mat 64 32) :
    muK ADJ (hw ADJ XW1 (cat W2 W3)) = muR ADJ XW1 W2 := by
  unfold muK hw muR; rw [left_mm, mm_cat_left]

/-- … and the right half is the log-variance ADJ · (h1 · W3). -/
theorem lvK_hw (ADJ : Mat 10000 10000) (XW1 : Mat 10000 64) (W2 W3 : Mat 64 32) :
    lvK ADJ (hw ADJ XW1 (cat W2 W3)) = muR ADJ XW1 W3 := by
  unfold lvK hw muR; rw [right_mm, mm_cat_right]

end Cert.Spec

end
-- ==== Proof.Val0.lean ====
/- What region 0 leaves in its three output arrays, as matrices over the extended reals.
   With X, W1, Wa1, Wa2, Wa3 the matrices read off the five input arrays as the region finds them:
     array 5 ends at  X * W1,
     array 6 ends at  tanh (X^T * Wa1) * Wa2,
     array 7 ends at  tanh (X^T * Wa1) * Wa3.
   Each product into a zero accumulator is the plain sum over the contracted coordinate; the region has one
   point and every block is its whole array, so what the point writes back is the whole result. -/
import proofs.«132950_g81999515615950_cont_9to1_m_63_4_alg».proof.Proof.KernelIdealReg0
import proofs.«132950_g81999515615950_cont_9to1_m_63_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The three products' index maps -/

/-- Where the product xw reads its factors: the left one at (row of the result, contracted coordinate), -/
theorem xw_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem xw_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- the right one at (contracted coordinate, column of the result). -/
theorem xw_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem xw_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Where the product xtw reads its factors: the left one at (contracted coordinate, row of the result), -/
theorem xtw_lhs_0 (i : S128x64.Idx) (q : dot_S10000x128_S10000x64_S128x64_0_0_1_1_n_n.contr.Idx) :
    (dot_S10000x128_S10000x64_S128x64_0_0_1_1_n_n.lhsIdx i q 0).val = (q ⟨0, by decide⟩).val :=
  dot_S10000x128_S10000x64_S128x64_0_0_1_1_n_n.lhsIdx_val_of_single rfl i q
theorem xtw_lhs_1 (i : S128x64.Idx) (q : dot_S10000x128_S10000x64_S128x64_0_0_1_1_n_n.contr.Idx) :
    (dot_S10000x128_S10000x64_S128x64_0_0_1_1_n_n.lhsIdx i q 1).val = (i 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
/-- the right one at (contracted coordinate, column of the result). -/
theorem xtw_rhs_0 (i : S128x64.Idx) (q : dot_S10000x128_S10000x64_S128x64_0_0_1_1_n_n.contr.Idx) :
    (dot_S10000x128_S10000x64_S128x64_0_0_1_1_n_n.rhsIdx i q 0).val = (q ⟨0, by decide⟩).val :=
  dot_S10000x128_S10000x64_S128x64_0_0_1_1_n_n.rhsIdx_val_of_single rfl i q
theorem xtw_rhs_1 (i : S128x64.Idx) (q : dot_S10000x128_S10000x64_S128x64_0_0_1_1_n_n.contr.Idx) :
    (dot_S10000x128_S10000x64_S128x64_0_0_1_1_n_n.rhsIdx i q 1).val = (i 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

/-- Where the product tw reads its factors: the left one at (row of the result, contracted coordinate), -/
theorem tw_lhs_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
theorem tw_lhs_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
/-- the right one at (contracted coordinate, column of the result). -/
theorem tw_rhs_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
theorem tw_rhs_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

/-! ## The body's values at a pair of coordinates -/

/-- X * W1 at (p, q): the sum over the 128 shared coordinates. -/
theorem pay1_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  refine (Ideal.matmul_constant_zero_apply dot_S10000x128_S128x64_S10000x64_1_0_0_1_n_n none x0 x1 (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact xw_lhs_0 _ _
    | ⟨1, _⟩ => exact (xw_lhs_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (xw_rhs_0 _ _).trans hk
    | ⟨1, _⟩ => exact xw_rhs_1 _ _)
  rw [el, er]

/-- tanh (X^T * Wa1) at (p, q): the hyperbolic tangent of the sum over the 10000 shared rows. -/
theorem pay2_apply (x0 : Vec Ideal S10000x128 .f32) (x4 : Vec Ideal S10000x64 .f32) (p : Fin 128) (q : Fin 64) :
    k0_pay2 x0 x4 (ix2 p q) = Ideal.tanh (∑ k : Fin 10000, x0 (ix2 k p) * x4 (ix2 k q)) := by
  show Ideal.tanh (FloatOps.matmul dot_S10000x128_S10000x64_S128x64_0_0_1_1_n_n none x0 x4 (constant (F := Ideal) S128x64 .f32 0x00000000#32) (ix2 p q)) = _
  refine congrArg Ideal.tanh ?_
  refine (Ideal.matmul_constant_zero_apply dot_S10000x128_S10000x64_S128x64_0_0_1_1_n_n none x0 x4 (ix2 p q)).trans ?_
  rw [← Equiv.sum_comp (contrEquiv1 dot_S10000x128_S10000x64_S128x64_0_0_1_1_n_n 10000 rfl rfl).symm]
  refine Finset.sum_congr rfl fun k _ => ?_
  have hk := contrEquiv1_symm_val dot_S10000x128_S10000x64_S128x64_0_0_1_1_n_n 10000 rfl rfl k
  have el : dot_S10000x128_S10000x64_S128x64_0_0_1_1_n_n.lhsIdx (ix2 p q) ((contrEquiv1 dot_S10000x128_S10000x64_S128x64_0_0_1_1_n_n 10000 rfl rfl).symm k) = ix2 k p := funext fun a => Fin.ext (by
    match a with
    | ⟨0, _⟩ => exact (xtw_lhs_0 _ _).trans hk
    | ⟨1, _⟩ => exact xtw_lhs_1 _ _)
  have er : dot_S10000x128_S10000x64_S128x64_0_0_1_1_n_n.rhsIdx (ix2 p q) ((contrEquiv1 dot_S10000x128_S10000x64_S128x64_0_0_1_1_n_n 10000 rfl rfl).symm k) = ix2 k q := funext fun a => Fin.ext (by
    match a with
    | ⟨0, _⟩ => exact (xtw_rhs_0 _ _).trans hk
    | ⟨1, _⟩ => exact xtw_rhs_1 _ _)
  rw [el, er]

/-- A 128 x 64 matrix times a 64 x 32 one at (p, q): the sum over the 64 shared coordinates. -/
theorem tw_apply (y : FVec Ideal S128x64 .f32) (x7 : FVec Ideal S64x32 .f32) (p : Fin 128) (q : Fin 32) :
    FloatOps.matmul dot_S128x64_S64x32_S128x32_1_0_0_1_n_n none y x7 (constant (F := Ideal) S128x32 .f32 0x00000000#32) (ix2 p q) = ∑ l : Fin 64, y (ix2 p l) * x7 (ix2 l q) := by
  refine (Ideal.matmul_constant_zero_apply dot_S128x64_S64x32_S128x32_1_0_0_1_n_n none y x7 (ix2 p q)).trans ?_
  rw [← Equiv.sum_comp (contrEquiv1 dot_S128x64_S64x32_S128x32_1_0_0_1_n_n 64 rfl rfl).symm]
  refine Finset.sum_congr rfl fun k _ => ?_
  have hk := contrEquiv1_symm_val dot_S128x64_S64x32_S128x32_1_0_0_1_n_n 64 rfl rfl k
  have el : dot_S128x64_S64x32_S128x32_1_0_0_1_n_n.lhsIdx (ix2 p q) ((contrEquiv1 dot_S128x64_S64x32_S128x32_1_0_0_1_n_n 64 rfl rfl).symm k) = ix2 p k := funext fun a => Fin.ext (by
    match a with
    | ⟨0, _⟩ => exact tw_lhs_0 _ _
    | ⟨1, _⟩ => exact (tw_lhs_1 _ _).trans hk)
  have er : dot_S128x64_S64x32_S128x32_1_0_0_1_n_n.rhsIdx (ix2 p q) ((contrEquiv1 dot_S128x64_S64x32_S128x32_1_0_0_1_n_n 64 rfl rfl).symm k) = ix2 k q := funext fun a => Fin.ext (by
    match a with
    | ⟨0, _⟩ => exact (tw_rhs_0 _ _).trans hk
    | ⟨1, _⟩ => exact tw_rhs_1 _ _)
  rw [el, er]

/-- tanh (X^T * Wa1) * Wa2 at (p, q). -/
theorem pay3_apply (x0 : Vec Ideal S10000x128 .f32) (x4 : Vec Ideal S10000x64 .f32) (x7 : Vec Ideal S64x32 .f32) (p : Fin 128) (q : Fin 32) :
    k0_pay3 x0 x4 x7 (ix2 p q) = ∑ l : Fin 64, Ideal.tanh (∑ k : Fin 10000, x0 (ix2 k p) * x4 (ix2 k l)) * x7 (ix2 l q) := by
  refine (tw_apply (k0_pay2 x0 x4) x7 p q).trans ?_
  refine Finset.sum_congr rfl fun l _ => ?_
  rw [pay2_apply]

/-- tanh (X^T * Wa1) * Wa3 at (p, q). -/
theorem pay4_apply (x0 : Vec Ideal S10000x128 .f32) (x4 : Vec Ideal S10000x64 .f32) (x10 : Vec Ideal S64x32 .f32) (p : Fin 128) (q : Fin 32) :
    k0_pay4 x0 x4 x10 (ix2 p q) = ∑ l : Fin 64, Ideal.tanh (∑ k : Fin 10000, x0 (ix2 k p) * x4 (ix2 k l)) * x10 (ix2 l q) := by
  refine (tw_apply (k0_pay2 x0 x4) x10 p q).trans ?_
  refine Finset.sum_congr rfl fun l _ => ?_
  rw [pay2_apply]

/-! ## Every block of the region is its whole array -/

theorem hz : (![0, 0] : Fin 2 → Nat) = fun _ => 0 := funext fun a => by fin_cases a <;> rfl

/-- Window 0's block sits at offset zero in its array: a coordinate inside the block is the same coordinate of the array. -/
theorem emb_0 (t : Fin cfg0.N) (y : S10000x128.Idx) : ((cfg0.win 0).blk t).view.emb y = y := by
  funext a; apply Fin.ext
  match a with
  | ⟨0, _⟩ => show win0_0.index t (0 : Fin 2) * 10000 + 1 * (y 0).val = (y 0).val; have h : win0_0.index t (0 : Fin 2) = 0 := rfl; omega
  | ⟨1, _⟩ => show win0_0.index t (1 : Fin 2) * 128 + 1 * (y 1).val = (y 1).val; have h : win0_0.index t (1 : Fin 2) = 0 := rfl; omega

/-- Window 1's block sits at offset zero in its array: a coordinate inside the block is the same coordinate of the array. -/
theorem emb_1 (t : Fin cfg0.N) (y : S128x64.Idx) : ((cfg0.win 1).blk t).view.emb y = y := by
  funext a; apply Fin.ext
  match a with
  | ⟨0, _⟩ => show win0_1.index t (0 : Fin 2) * 128 + 1 * (y 0).val = (y 0).val; have h : win0_1.index t (0 : Fin 2) = 0 := rfl; omega
  | ⟨1, _⟩ => show win0_1.index t (1 : Fin 2) * 64 + 1 * (y 1).val = (y 1).val; have h : win0_1.index t (1 : Fin 2) = 0 := rfl; omega

/-- Window 2's block sits at offset zero in its array: a coordinate inside the block is the same coordinate of the array. -/
theorem emb_2 (t : Fin cfg0.N) (y : S10000x64.Idx) : ((cfg0.win 2).blk t).view.emb y = y := by
  funext a; apply Fin.ext
  match a with
  | ⟨0, _⟩ => show win0_2.index t (0 : Fin 2) * 10000 + 1 * (y 0).val = (y 0).val; have h : win0_2.index t (0 : Fin 2) = 0 := rfl; omega
  | ⟨1, _⟩ => show win0_2.index t (1 : Fin 2) * 64 + 1 * (y 1).val = (y 1).val; have h : win0_2.index t (1 : Fin 2) = 0 := rfl; omega

/-- Window 3's block sits at offset zero in its array: a coordinate inside the block is the same coordinate of the array. -/
theorem emb_3 (t : Fin cfg0.N) (y : S64x32.Idx) : ((cfg0.win 3).blk t).view.emb y = y := by
  funext a; apply Fin.ext
  match a with
  | ⟨0, _⟩ => show win0_3.index t (0 : Fin 2) * 64 + 1 * (y 0).val = (y 0).val; have h : win0_3.index t (0 : Fin 2) = 0 := rfl; omega
  | ⟨1, _⟩ => show win0_3.index t (1 : Fin 2) * 32 + 1 * (y 1).val = (y 1).val; have h : win0_3.index t (1 : Fin 2) = 0 := rfl; omega

/-- Window 4's block sits at offset zero in its array: a coordinate inside the block is the same coordinate of the array. -/
theorem emb_4 (t : Fin cfg0.N) (y : S64x32.Idx) : ((cfg0.win 4).blk t).view.emb y = y := by
  funext a; apply Fin.ext
  match a with
  | ⟨0, _⟩ => show win0_4.index t (0 : Fin 2) * 64 + 1 * (y 0).val = (y 0).val; have h : win0_4.index t (0 : Fin 2) = 0 := rfl; omega
  | ⟨1, _⟩ => show win0_4.index t (1 : Fin 2) * 32 + 1 * (y 1).val = (y 1).val; have h : win0_4.index t (1 : Fin 2) = 0 := rfl; omega

/-- Window 5's block sits at offset zero in its array: a coordinate inside the block is the same coordinate of the array. -/
theorem emb_5 (t : Fin cfg0.N) (y : S10000x64.Idx) : ((cfg0.win 5).blk t).view.emb y = y := by
  funext a; apply Fin.ext
  match a with
  | ⟨0, _⟩ => show win0_5.index t (0 : Fin 2) * 10000 + 1 * (y 0).val = (y 0).val; have h : win0_5.index t (0 : Fin 2) = 0 := rfl; omega
  | ⟨1, _⟩ => show win0_5.index t (1 : Fin 2) * 64 + 1 * (y 1).val = (y 1).val; have h : win0_5.index t (1 : Fin 2) = 0 := rfl; omega

/-- Window 6's block sits at offset zero in its array: a coordinate inside the block is the same coordinate of the array. -/
theorem emb_6 (t : Fin cfg0.N) (y : S128x32.Idx) : ((cfg0.win 6).blk t).view.emb y = y := by
  funext a; apply Fin.ext
  match a with
  | ⟨0, _⟩ => show win0_6.index t (0 : Fin 2) * 128 + 1 * (y 0).val = (y 0).val; have h : win0_6.index t (0 : Fin 2) = 0 := rfl; omega
  | ⟨1, _⟩ => show win0_6.index t (1 : Fin 2) * 32 + 1 * (y 1).val = (y 1).val; have h : win0_6.index t (1 : Fin 2) = 0 := rfl; omega

/-- Window 7's block sits at offset zero in its array: a coordinate inside the block is the same coordinate of the array. -/
theorem emb_7 (t : Fin cfg0.N) (y : S128x32.Idx) : ((cfg0.win 7).blk t).view.emb y = y := by
  funext a; apply Fin.ext
  match a with
  | ⟨0, _⟩ => show win0_7.index t (0 : Fin 2) * 128 + 1 * (y 0).val = (y 0).val; have h : win0_7.index t (0 : Fin 2) = 0 := rfl; omega
  | ⟨1, _⟩ => show win0_7.index t (1 : Fin 2) * 32 + 1 * (y 1).val = (y 1).val; have h : win0_7.index t (1 : Fin 2) = 0 := rfl; omega

/-- So input window 0's block at the region's point is the array as the region finds it. -/
theorem iblk_0 (c : Dev nD) (t : Fin cfg0.N) (y : S10000x128.Idx) : iblk0 V c 0 t y = V c main_arg0 y :=
  congrArg (V c main_arg0) (emb_0 t y)

/-- So input window 1's block at the region's point is the array as the region finds it. -/
theorem iblk_1 (c : Dev nD) (t : Fin cfg0.N) (y : S128x64.Idx) : iblk0 V c 1 t y = V c main_arg2 y :=
  congrArg (V c main_arg2) (emb_1 t y)

/-- So input window 2's block at the region's point is the array as the region finds it. -/
theorem iblk_2 (c : Dev nD) (t : Fin cfg0.N) (y : S10000x64.Idx) : iblk0 V c 2 t y = V c main_arg5 y :=
  congrArg (V c main_arg5) (emb_2 t y)

/-- So input window 3's block at the region's point is the array as the region finds it. -/
theorem iblk_3 (c : Dev nD) (t : Fin cfg0.N) (y : S64x32.Idx) : iblk0 V c 3 t y = V c main_arg6 y :=
  congrArg (V c main_arg6) (emb_3 t y)

/-- So input window 4's block at the region's point is the array as the region finds it. -/
theorem iblk_4 (c : Dev nD) (t : Fin cfg0.N) (y : S64x32.Idx) : iblk0 V c 4 t y = V c main_arg7 y :=
  congrArg (V c main_arg7) (emb_4 t y)

/-! ## The body's results against the matrices -/

/-- The first result, where the two loaded blocks are the arrays A0 and A1: X * W1. -/
theorem out5_at (x0 : Vec Ideal S10000x128 .f32) (x1 : Vec Ideal S128x64 .f32) (A0 : Arr 10000 128) (A1 : Arr 128 64)
    (h0 : ∀ y, x0 y = A0 y) (h1 : ∀ y, x1 y = A1 y) (j i : S10000x64.Idx) (hij : i = j) :
    k0_pay1 x0 x1 j = ofMat 10000 64 (xw1 (toMat 10000 128 A0) (toMat 128 64 A1)) i := by
  subst hij
  obtain ⟨p, q, rfl⟩ : ∃ (p : Fin 10000) (q : Fin 64), i = ix2 p q := ⟨i 0, i 1, eq_ix2 i⟩
  rw [pay1_apply]
  show _ = ∑ k : Fin 128, A0 (ix2 p k) * A1 (ix2 k q)
  simp only [h0, h1]

/-- The second result, where the three loaded blocks are the arrays A0, A2 and A3: tanh (X^T * Wa1) * Wa2. -/
theorem out6_at (x0 : Vec Ideal S10000x128 .f32) (x2 : Vec Ideal S10000x64 .f32) (x3 : Vec Ideal S64x32 .f32)
    (A0 : Arr 10000 128) (A2 : Arr 10000 64) (A3 : Arr 64 32)
    (h0 : ∀ y, x0 y = A0 y) (h2 : ∀ y, x2 y = A2 y) (h3 : ∀ y, x3 y = A3 y) (j i : S128x32.Idx) (hij : i = j) :
    k0_pay3 x0 x2 x3 j = ofMat 128 32 (mua (toMat 10000 128 A0) (toMat 10000 64 A2) (toMat 64 32 A3)) i := by
  subst hij
  obtain ⟨p, q, rfl⟩ : ∃ (p : Fin 128) (q : Fin 32), i = ix2 p q := ⟨i 0, i 1, eq_ix2 i⟩
  rw [pay3_apply]
  show _ = ∑ l : Fin 64, Ideal.tanh (∑ k : Fin 10000, A0 (ix2 k p) * A2 (ix2 k l)) * A3 (ix2 l q)
  simp only [h0, h2, h3]

/-- The third result: the same with Wa3 for Wa2. -/
theorem out7_at (x0 : Vec Ideal S10000x128 .f32) (x2 : Vec Ideal S10000x64 .f32) (x4 : Vec Ideal S64x32 .f32)
    (A0 : Arr 10000 128) (A2 : Arr 10000 64) (A4 : Arr 64 32)
    (h0 : ∀ y, x0 y = A0 y) (h2 : ∀ y, x2 y = A2 y) (h4 : ∀ y, x4 y = A4 y) (j i : S128x32.Idx) (hij : i = j) :
    k0_pay4 x0 x2 x4 j = ofMat 128 32 (mua (toMat 10000 128 A0) (toMat 10000 64 A2) (toMat 64 32 A4)) i := by
  subst hij
  obtain ⟨p, q, rfl⟩ : ∃ (p : Fin 128) (q : Fin 32), i = ix2 p q := ⟨i 0, i 1, eq_ix2 i⟩
  rw [pay4_apply]
  show _ = ∑ l : Fin 64, Ideal.tanh (∑ k : Fin 10000, A0 (ix2 k p) * A2 (ix2 k l)) * A4 (ix2 l q)
  simp only [h0, h2, h4]

/-! ## What the point writes back: the whole of each result -/

/-- Output window 5's write-back is its block of X * W1. -/
theorem flushed5_eq (c : Dev nD) (t : Fin cfg0.N) :
    (dat0 V c).flushed 5 t = ((cfg0.win 5).blk t).view.read (Elt Ideal) (ofMat 10000 64 (xw1 (toMat 10000 128 (V c main_arg0)) (toMat 128 64 (V c main_arg2)))) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x64) hz]
  funext j
  exact out5_at (iblk0 V c 0 t) (iblk0 V c 1 t) (V c main_arg0) (V c main_arg2) (iblk_0 V c t) (iblk_1 V c t) j _ (emb_5 t j)

/-- Output window 6's write-back is its block of tanh (X^T * Wa1) * Wa2. -/
theorem flushed6_eq (c : Dev nD) (t : Fin cfg0.N) :
    (dat0 V c).flushed 6 t = ((cfg0.win 6).blk t).view.read (Elt Ideal) (ofMat 128 32 (mua (toMat 10000 128 (V c main_arg0)) (toMat 10000 64 (V c main_arg5)) (toMat 64 32 (V c main_arg6)))) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x64) hz, View.ld_unit_zero (S := S64x32) hz]
  funext j
  exact out6_at (iblk0 V c 0 t) (iblk0 V c 2 t) (iblk0 V c 3 t) (V c main_arg0) (V c main_arg5) (V c main_arg6) (iblk_0 V c t) (iblk_2 V c t) (iblk_3 V c t) j _ (emb_6 t j)

/-- Output window 7's write-back is its block of tanh (X^T * Wa1) * Wa3. -/
theorem flushed7_eq (c : Dev nD) (t : Fin cfg0.N) :
    (dat0 V c).flushed 7 t = ((cfg0.win 7).blk t).view.read (Elt Ideal) (ofMat 128 32 (mua (toMat 10000 128 (V c main_arg0)) (toMat 10000 64 (V c main_arg5)) (toMat 64 32 (V c main_arg7)))) := by
  show (cfg0.win 7).cut (grid0.coords t) ((dat0 V c).after 7 t) = _
  rw [after0_7]
  unfold out0_7
  rw [View.canon_unit_zero hz]
  simp only [View.ld_unit_zero (S := S10000x128) hz, View.ld_unit_zero (S := S10000x64) hz, View.ld_unit_zero (S := S64x32) hz]
  funext j
  exact out7_at (iblk0 V c 0 t) (iblk0 V c 2 t) (iblk0 V c 4 t) (V c main_arg0) (V c main_arg5) (V c main_arg7) (iblk_0 V c t) (iblk_2 V c t) (iblk_4 V c t) j _ (emb_7 t j)

/-! ## The one point's blocks cover the arrays -/

/-- An index of array 5 is in the point's block iff each coordinate is in the block's range on its axis. -/
theorem mem_blk5 (t : Fin cfg0.N) (i : S10000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v0_0).slice (win0_5.rect t)).set ↔ _
  rw [View.set_slice_whole, Rect.mem_set_unit]
  exact Iff.rfl

/-- The block starts at zero and has the array's extents, so every index is in it. -/
theorem cover5 (i : S10000x64.Idx) : ∃ t : Fin cfg0.N, (cfg0.win 5).flush t = true ∧ i ∈ ((cfg0.win 5).blk t).view.set := by
  refine ⟨t0_0, flush0_5 t0_0, ?_⟩
  rw [mem_blk5]
  intro a
  match a with
  | ⟨0, _⟩ => show win0_5.index t0_0 (0 : Fin 2) * 10000 ≤ (i 0).val ∧ (i 0).val < win0_5.index t0_0 (0 : Fin 2) * 10000 + 10000; have h : win0_5.index t0_0 (0 : Fin 2) = 0 := rfl; have hi : (i 0).val < 10000 := (i 0).isLt; omega
  | ⟨1, _⟩ => show win0_5.index t0_0 (1 : Fin 2) * 64 ≤ (i 1).val ∧ (i 1).val < win0_5.index t0_0 (1 : Fin 2) * 64 + 64; have h : win0_5.index t0_0 (1 : Fin 2) = 0 := rfl; have hi : (i 1).val < 64 := (i 1).isLt; omega

/-- An index of array 6 is in the point's block iff each coordinate is in the block's range on its axis. -/
theorem mem_blk6 (t : Fin cfg0.N) (i : S128x32.Idx) :
    i ∈ ((cfg0.win 6).blk t).view.set ↔ ∀ a : Fin 2, win0_6.index t a * S128x32.size a ≤ (i a).val ∧ (i a).val < win0_6.index t a * S128x32.size a + S128x32.size a := by
  show i ∈ ((View.whole main_v0_1).slice (win0_6.rect t)).set ↔ _
  rw [View.set_slice_whole, Rect.mem_set_unit]
  exact Iff.rfl

/-- The block starts at zero and has the array's extents, so every index is in it. -/
theorem cover6 (i : S128x32.Idx) : ∃ t : Fin cfg0.N, (cfg0.win 6).flush t = true ∧ i ∈ ((cfg0.win 6).blk t).view.set := by
  refine ⟨t0_0, flush0_6 t0_0, ?_⟩
  rw [mem_blk6]
  intro a
  match a with
  | ⟨0, _⟩ => show win0_6.index t0_0 (0 : Fin 2) * 128 ≤ (i 0).val ∧ (i 0).val < win0_6.index t0_0 (0 : Fin 2) * 128 + 128; have h : win0_6.index t0_0 (0 : Fin 2) = 0 := rfl; have hi : (i 0).val < 128 := (i 0).isLt; omega
  | ⟨1, _⟩ => show win0_6.index t0_0 (1 : Fin 2) * 32 ≤ (i 1).val ∧ (i 1).val < win0_6.index t0_0 (1 : Fin 2) * 32 + 32; have h : win0_6.index t0_0 (1 : Fin 2) = 0 := rfl; have hi : (i 1).val < 32 := (i 1).isLt; omega

/-- An index of array 7 is in the point's block iff each coordinate is in the block's range on its axis. -/
theorem mem_blk7 (t : Fin cfg0.N) (i : S128x32.Idx) :
    i ∈ ((cfg0.win 7).blk t).view.set ↔ ∀ a : Fin 2, win0_7.index t a * S128x32.size a ≤ (i a).val ∧ (i a).val < win0_7.index t a * S128x32.size a + S128x32.size a := by
  show i ∈ ((View.whole main_v0_2).slice (win0_7.rect t)).set ↔ _
  rw [View.set_slice_whole, Rect.mem_set_unit]
  exact Iff.rfl

/-- The block starts at zero and has the array's extents, so every index is in it. -/
theorem cover7 (i : S128x32.Idx) : ∃ t : Fin cfg0.N, (cfg0.win 7).flush t = true ∧ i ∈ ((cfg0.win 7).blk t).view.set := by
  refine ⟨t0_0, flush0_7 t0_0, ?_⟩
  rw [mem_blk7]
  intro a
  match a with
  | ⟨0, _⟩ => show win0_7.index t0_0 (0 : Fin 2) * 128 ≤ (i 0).val ∧ (i 0).val < win0_7.index t0_0 (0 : Fin 2) * 128 + 128; have h : win0_7.index t0_0 (0 : Fin 2) = 0 := rfl; have hi : (i 0).val < 128 := (i 0).isLt; omega
  | ⟨1, _⟩ => show win0_7.index t0_0 (1 : Fin 2) * 32 ≤ (i 1).val ∧ (i 1).val < win0_7.index t0_0 (1 : Fin 2) * 32 + 32; have h : win0_7.index t0_0 (1 : Fin 2) = 0 := rfl; have hi : (i 1).val < 32 := (i 1).isLt; omega

/-! ## The arrays after the region -/

/-- Array 5 after the region: X * W1. -/
theorem final0_5 (c : Dev nD) : (dat0 V c).arrAt 5 cfg0.N = ofMat 10000 64 (xw1 (toMat 10000 128 (V c main_arg0)) (toMat 128 64 (V c main_arg2))) :=
  (dat0 V c).arrAt_eq_of_cover 5 _ (fun t _ => flushed5_eq V c t) cover5

/-- Array 6 after the region: tanh (X^T * Wa1) * Wa2. -/
theorem final0_6 (c : Dev nD) : (dat0 V c).arrAt 6 cfg0.N = ofMat 128 32 (mua (toMat 10000 128 (V c main_arg0)) (toMat 10000 64 (V c main_arg5)) (toMat 64 32 (V c main_arg6))) :=
  (dat0 V c).arrAt_eq_of_cover 6 _ (fun t _ => flushed6_eq V c t) cover6

/-- Array 7 after the region: tanh (X^T * Wa1) * Wa3. -/
theorem final0_7 (c : Dev nD) : (dat0 V c).arrAt 7 cfg0.N = ofMat 128 32 (mua (toMat 10000 128 (V c main_arg0)) (toMat 10000 64 (V c main_arg5)) (toMat 64 32 (V c main_arg7))) :=
  (dat0 V c).arrAt_eq_of_cover 7 _ (fun t _ => flushed7_eq V c t) cover7

end Cert.KernelIdeal.Val0

end
-- ==== Proof.Val1.lean ====
/-
  What region 1 leaves in its output array, as the shared specification's matrices.

  At each grid point t the body stores max(A_t · B, 0) · W into the output's staging buffer, where A_t is rows
  400·t … 400·t + 399 of the adjacency matrix A, B the whole first-layer product and W the two second-layer weight
  matrices side by side; the pipeline writes that block back to rows 400·t … 400·t + 399 of the output array. Entry
  (r, q) of max(A · B, 0) · W depends on row r of A only, so each block written back is the same block of the one matrix
  hw A B W = max(A · B, 0) · W, and the 25 blocks cover the array: the output array ends holding hw A B W.

  Also here: the host concatenation along the column axis of two 64 x 32 matrices, read as the specification's `cat`.
-/
import proofs.«132950_g81999515615950_cont_9to1_m_63_4_alg».proof.Proof.KernelIdealReg1
import proofs.«132950_g81999515615950_cont_9to1_m_63_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Hand Cert.Spec
open Idealize.ShloMosaic Idealize.ShloMosaic.ValueIdx Idealize.ShloMosaic.TcCoe Idealize.SL.Sem
open Idealize.ShloMosaic.Pipeline (Dat)

/-! ## The two matrix products of the body, as sums over the contracted coordinate -/

theorem lhsA_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhsA_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhsA_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhsA_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- A 400 x 10000 block times a 10000 x 64 matrix into the zero accumulator: entry (p, q) is the sum over k of
    a(p, k) · b(k, q). -/
theorem matmulA_apply (a : FVec Ideal S400x10000 .f32) (b : FVec Ideal S10000x64 .f32) (p : Fin 400) (q : Fin 64) :
    matmul dot_S400x10000_S10000x64_S400x64_1_0_0_1_n_n none a b (constant (F := Ideal) S400x64 .f32 0x00000000#32) (ix2 p q)
      = ∑ k : Fin 10000, a (ix2 p k) * b (ix2 k q) := by
  show FloatOps.matmul dot_S400x10000_S10000x64_S400x64_1_0_0_1_n_n none a b (constant (F := Ideal) S400x64 .f32 0x00000000#32) (ix2 p q) = _
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 p q) ((ValueIdx.contrEquiv1 dot_S400x10000_S10000x64_S400x64_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x64_S400x64_1_0_0_1_n_n.rhsIdx (ix2 p q) ((ValueIdx.contrEquiv1 dot_S400x10000_S10000x64_S400x64_1_0_0_1_n_n 10000 rfl rfl).symm k) = ix2 k q := funext fun a => Fin.ext (by
    match a with
    | ⟨0, _⟩ => exact (rhsA_0 _ _).trans hk
    | ⟨1, _⟩ => exact rhsA_1 _ _)
  rw [el, er]

theorem lhsB_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide), dif_pos (show (0 : Fin S400x64.rank) ∈ dot_S400x64_S64x64_S400x64_1_0_0_1_n_n.lhsNonContracting by decide)]
  rfl
theorem lhsB_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q
theorem rhsB_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q
theorem rhsB_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide), dif_pos (show (1 : Fin S64x64.rank) ∈ dot_S400x64_S64x64_S400x64_1_0_0_1_n_n.rhsNonContracting by decide)]
  rfl

/-- A 400 x 64 block times a 64 x 64 matrix into the zero accumulator: entry (p, q) is the sum over l of
    a(p, l) · b(l, q). -/
theorem matmulB_apply (a : FVec Ideal S400x64 .f32) (b : FVec Ideal S64x64 .f32) (p : Fin 400) (q : Fin 64) :
    matmul dot_S400x64_S64x64_S400x64_1_0_0_1_n_n none a b (constant (F := Ideal) S400x64 .f32 0x00000000#32) (ix2 p q)
      = ∑ l : Fin 64, a (ix2 p l) * b (ix2 l q) := by
  show FloatOps.matmul dot_S400x64_S64x64_S400x64_1_0_0_1_n_n none a b (constant (F := Ideal) S400x64 .f32 0x00000000#32) (ix2 p q) = _
  rw [Ideal.matmul_constant_zero_apply, ← Equiv.sum_comp (ValueIdx.contrEquiv1 dot_S400x64_S64x64_S400x64_1_0_0_1_n_n 64 rfl rfl).symm]
  refine Finset.sum_congr rfl fun k _ => ?_
  have hk := ValueIdx.contrEquiv1_symm_val dot_S400x64_S64x64_S400x64_1_0_0_1_n_n 64 rfl rfl k
  have el : dot_S400x64_S64x64_S400x64_1_0_0_1_n_n.lhsIdx (ix2 p q) ((ValueIdx.contrEquiv1 dot_S400x64_S64x64_S400x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S400x64_S64x64_S400x64_1_0_0_1_n_n.rhsIdx (ix2 p q) ((ValueIdx.contrEquiv1 dot_S400x64_S64x64_S400x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-- The body's payload at entry (p, q): the sum over l of max(Σ_k x0(p, k) · x1(k, l), 0) · x2(l, q). -/
theorem pay1_apply (x0 : Vec Ideal S400x10000 .f32) (x1 : Vec Ideal S10000x64 .f32) (x2 : Vec Ideal S64x64 .f32) (p : Fin 400) (q : Fin 64) :
    k1_pay1 (F := Ideal) x0 x1 x2 (ix2 p q)
      = ∑ l : Fin 64, max (∑ k : Fin 10000, x0 (ix2 p k) * x1 (ix2 k l)) 0 * x2 (ix2 l q) := by
  unfold k1_pay1
  rw [shapeCast_self, shapeCast_self]
  refine (matmulB_apply _ _ p q).trans ?_
  refine Finset.sum_congr rfl fun l _ => ?_
  rw [maximumf_apply, broadcast_apply]
  refine congrArg₂ (· * ·) (congrArg₂ max (matmulA_apply x0 x1 p l) ?_) rfl
  exact Ideal.ofBits_zero_f32

/-! ## The payload against the specification, at one entry -/

/-- If x0 is rows 400·r … 400·r + 399 of A, x1 is B and x2 is W, then entry j of the payload is entry
    (400·r + j₀, j₁) of max(A · B, 0) · W. -/
theorem pay1_spec (A : Arr 10000 10000) (B : Arr 10000 64) (W : Arr 64 64)
    (x0 : Vec Ideal S400x10000 .f32) (x1 : Vec Ideal S10000x64 .f32) (x2 : Vec Ideal S64x64 .f32)
    (r : Nat) (hr : r ≤ 24)
    (h0 : ∀ (p : Fin 400) (k : Fin 10000), x0 (ix2 p k) = A (ix2 (⟨r * 400 + p.val, by have := p.isLt; omega⟩ : Fin 10000) k))
    (h1 : ∀ (k : Fin 10000) (l : Fin 64), x1 (ix2 k l) = B (ix2 k l))
    (h2 : ∀ (l : Fin 64) (q : Fin 64), x2 (ix2 l q) = W (ix2 l q))
    (j : S400x64.Idx) (i : S10000x64.Idx) (hi0 : (i 0).val = r * 400 + (j 0).val) (hi1 : (i 1).val = (j 1).val) :
    k1_pay1 (F := Ideal) x0 x1 x2 j = ofMat 10000 64 (hw (toMat 10000 10000 A) (toMat 10000 64 B) (toMat 64 64 W)) i := by
  obtain ⟨p, q, rfl⟩ : ∃ (p : Fin 400) (q : Fin 64), j = ix2 p q := ⟨j 0, j 1, eq_ix2 j⟩
  change (i 0).val = r * 400 + p.val at hi0
  change (i 1).val = q.val at hi1
  rw [pay1_apply]
  have e0 : i 0 = (⟨r * 400 + p.val, by have := p.isLt; omega⟩ : Fin 10000) := Fin.ext hi0
  have e1 : i 1 = q := Fin.ext hi1
  show _ = ∑ l : Fin 64, max (∑ k : Fin 10000, A (ix2 (i 0) k) * B (ix2 k l)) 0 * W (ix2 l (i 1))
  rw [e0, e1]
  refine Finset.sum_congr rfl fun l _ => ?_
  rw [h2]
  refine congrArg₂ (· * ·) (congrArg₂ max (Finset.sum_congr rfl fun k _ => ?_) rfl) rfl
  rw [h0, h1]

/-! ## The blocks of the three input windows, as entries of their arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the adjacency window moves down the rows with the output
    window and stays at column block 0; the two whole-array windows stay at block (0, 0); the output's row block is
    at most 24 and its column block 0. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 24 ∧ win1_3.index t (1 : Fin 2) = 0 :=
  (by decide +kernel : ∀ t : Fin grid1.N, _)

/-- Every row block of the output is some grid point's. -/
theorem idx_onto1 : ∀ q0 : Fin 25, ∃ t : Fin cfg1.N, win1_3.index t = ![q0.val, 0] :=
  (by decide +kernel : ∀ q0 : Fin 25, ∃ t : Fin grid1.N, win1_3.index t = ![q0.val, 0])

/-- The adjacency window's block at point t is rows 400·(row block) … of the adjacency array. -/
theorem iblk1_0_apply (c : Dev nD) (t : Fin cfg1.N) (x : S400x10000.Idx) (k : S10000x10000.Idx)
    (hk0 : (k 0).val = win1_3.index t (0 : Fin 2) * 400 + (x 0).val) (hk1 : (k 1).val = (x 1).val) :
    (iblk1 V c 0 t : Vec Ideal S400x10000 .f32) x = (V c main_arg1 : S10000x10000.Idx → EReal) k := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 400 + 1 * (x 0).val = (k 0).val; rw [e0, hk0]; omega
  | ⟨1, _⟩ => show win1_0.index t (1 : Fin 2) * 10000 + 1 * (x 1).val = (k 1).val; rw [e1, hk1]; omega

/-- The window of the first-layer product is the whole array at every point. -/
theorem iblk1_1_apply (c : Dev nD) (t : Fin cfg1.N) (x : S10000x64.Idx) :
    (iblk1 V c 1 t : Vec Ideal S10000x64 .f32) x = (V c main_v0_0 : S10000x64.Idx → EReal) x := by
  obtain ⟨-, -, e0, e1, -⟩ := idx_facts1 t
  unfold iblk1
  rw [View.read_apply]
  show V c main_v0_0 _ = V c main_v0_0 _
  congr 1
  funext a
  apply Fin.ext
  match a with
  | ⟨0, _⟩ => show win1_1.index t (0 : Fin 2) * 10000 + 1 * (x 0).val = (x 0).val; rw [e0]; omega
  | ⟨1, _⟩ => show win1_1.index t (1 : Fin 2) * 64 + 1 * (x 1).val = (x 1).val; rw [e1]; omega

/-- The window of the two weight matrices side by side is the whole array at every point. -/
theorem iblk1_2_apply (c : Dev nD) (t : Fin cfg1.N) (x : S64x64.Idx) :
    (iblk1 V c 2 t : Vec Ideal S64x64 .f32) x = (V c main_v1 : S64x64.Idx → EReal) x := by
  obtain ⟨-, -, -, -, e0, e1, -⟩ := idx_facts1 t
  unfold iblk1
  rw [View.read_apply]
  show V c main_v1 _ = V c main_v1 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

/-! ## What a point writes back, the cover, the final array -/

/-- What point t writes back is block t of hw A B W, of the arrays as the region finds them. -/
theorem flushed1_3_eq (c : Dev nD) (t : Fin cfg1.N) :
    (dat1 V c).flushed 3 t = ((cfg1.win 3).blk t).view.read (Elt Ideal)
      (ofMat 10000 64 (hw (toMat 10000 10000 (V c main_arg1)) (toMat 10000 64 (V c main_v0_0)) (toMat 64 64 (V c main_v1)))) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x64) hz, View.ld_unit_zero (S := S64x64) hz]
  obtain ⟨-, -, -, -, -, -, e6, e7⟩ := idx_facts1 t
  funext j
  show k1_pay1 (F := Ideal) (iblk1 V c 0 t) (iblk1 V c 1 t) (iblk1 V c 2 t) j
    = ofMat 10000 64 (hw (toMat 10000 10000 (V c main_arg1)) (toMat 10000 64 (V c main_v0_0)) (toMat 64 64 (V c main_v1))) (((cfg1.win 3).blk t).view.emb j)
  refine pay1_spec _ _ _ _ _ _ (win1_3.index t (0 : Fin 2)) e6 (fun p k => ?_) (fun k l => ?_) (fun l q => ?_) j _ ?_ ?_
  · exact iblk1_0_apply V c t _ _ rfl rfl
  · exact iblk1_1_apply V c t _
  · exact iblk1_2_apply V c t _
  · show win1_3.index t (0 : Fin 2) * 400 + 1 * (j 0).val = _; omega
  · show win1_3.index t (1 : Fin 2) * 64 + 1 * (j 1).val = _; rw [e7]; omega

/-- An index of the output array is in point t's block iff each coordinate is in the block's range on its axis. -/
theorem mem_blk1_3 (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v2).slice (win1_3.rect t)).set ↔ _
  rw [View.set_slice_whole, Rect.mem_set_unit]
  exact Iff.rfl

/-- Row r of the output array is in the block of the point whose row block is r / 400. -/
theorem covered1_3 (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  obtain ⟨t, ht⟩ := idx_onto1 ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 64 ≤ (i 1).val ∧ (i 1).val < win1_3.index t (1 : Fin 2) * 64 + 64; omega

/-- The output array after the region: hw of the adjacency array, the first-layer product and the two weight matrices
    side by side, as the region finds them. -/
theorem final1_3 (c : Dev nD) : (dat1 V c).arrAt 3 cfg1.N = ofMat 10000 64 (hw (toMat 10000 10000 (V c main_arg1)) (toMat 10000 64 (V c main_v0_0)) (toMat 64 64 (V c main_v1))) :=
  (dat1 V c).arrAt_eq_of_cover 3 _ (fun t _ => flushed1_3_eq V c t) covered1_3

/-! ## The host concatenation that feeds the weights' window -/

/-- Two 64 x 32 matrices concatenated along the columns, read as a matrix, are the two side by side. -/
theorem cat_eq (a b : S64x32.Idx → EReal) : toMat 64 64 (concatenate S64x64 1 [⟨S64x32, a⟩, ⟨S64x32, b⟩] concatenates_S64x32_S64x32_S64x64_d1) = cat (toMat 64 32 a) (toMat 64 32 b) := by
  funext i j
  show concatenate S64x64 1 [⟨S64x32, a⟩, ⟨S64x32, b⟩] concatenates_S64x32_S64x32_S64x64_d1 (ix2 i j) = Fin.addCases (fun j' => a (ix2 i j')) (fun j' => b (ix2 i j')) j
  by_cases hj : j.val < 32
  · have ej : j = Fin.castAdd 32 (⟨j.val, hj⟩ : Fin 32) := Fin.ext rfl
    rw [ej, Fin.addCases_left]
    refine concatenate_pair_apply_left (1 : Fin S64x64.rank) a b _ _ rfl (ix2 i ⟨j.val, hj⟩) fun d => ?_
    match d with
    | ⟨0, _⟩ => rfl
    | ⟨1, _⟩ => rfl
  · have hj' : j.val - 32 < 32 := by have := j.isLt; omega
    have ej : j = Fin.natAdd 32 (⟨j.val - 32, hj'⟩ : Fin 32) := Fin.ext (by show j.val = 32 + (j.val - 32); omega)
    rw [ej, Fin.addCases_right]
    refine concatenate_pair_apply_right (1 : Fin S64x64.rank) a b _ _ rfl rfl (ix2 i ⟨j.val - 32, hj'⟩) (fun d hd => ?_) ?_
    · match d with
      | ⟨0, _⟩ => rfl
      | ⟨1, _⟩ => exact absurd rfl hd
    · show (j.val - 32) + 32 = 32 + (j.val - 32); omega

end Cert.KernelIdeal.Val1

end
-- ==== Proof.Val2.lean ====
/- What region 2 leaves in its three output arrays, over the extended reals, in terms of the matrices of the
   shared specification. With ADJ the adjacency matrix (10000 x 10000), HW the hidden features times the two
   projection matrices side by side (10000 x 64) and MUA the attribute means (128 x 32), as the region finds them:
     the means array        is  left  (ADJ · HW)            (columns 0..31),
     the log-variance array is  right (ADJ · HW)            (columns 32..63),
     the features array     is  left  (ADJ · HW) · MUAᵀ.
   The road: each stored value at a pair of coordinates is a finite sum of products of the loaded blocks; at grid
   point t the adjacency block is rows 400 t .. 400 t + 399 of ADJ and the other two inputs are whole, so what
   point t writes back is rows 400 t .. 400 t + 399 of the stated matrix; row r lies in the block of point r / 400,
   so the 25 blocks cover each array. -/
import proofs.«132950_g81999515615950_cont_9to1_m_63_4_alg».proof.Proof.KernelIdealReg2
import proofs.«132950_g81999515615950_cont_9to1_m_63_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Hand Cert.Spec Idealize.ShloMosaic Idealize.ShloMosaic.ValueIdx Idealize.ShloMosaic.TcCoe Idealize.SL.Sem
open Idealize.ShloMosaic.Pipeline (Dat)

/-! ## The two products' operand indices, axis by axis -/

theorem lhs_adj_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_adj_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_adj_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_adj_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem lhs_feat_0 (i : S400x128.Idx) (q : dot_S400x32_S128x32_S400x128_1_1_0_0_n_n.contr.Idx) :
    (dot_S400x32_S128x32_S400x128_1_1_0_0_n_n.lhsIdx i q 0).val = (i 0).val := by
  unfold DotDims.lhsIdx
  rw [dif_neg (show ¬(0 : Fin S400x32.rank) ∈ dot_S400x32_S128x32_S400x128_1_1_0_0_n_n.lhsBatch by decide), dif_pos (show (0 : Fin S400x32.rank) ∈ dot_S400x32_S128x32_S400x128_1_1_0_0_n_n.lhsNonContracting by decide)]
  rfl
theorem lhs_feat_1 (i : S400x128.Idx) (q : dot_S400x32_S128x32_S400x128_1_1_0_0_n_n.contr.Idx) :
    (dot_S400x32_S128x32_S400x128_1_1_0_0_n_n.lhsIdx i q 1).val = (q ⟨0, by decide⟩).val :=
  dot_S400x32_S128x32_S400x128_1_1_0_0_n_n.lhsIdx_val_of_single rfl i q
theorem rhs_feat_0 (i : S400x128.Idx) (q : dot_S400x32_S128x32_S400x128_1_1_0_0_n_n.contr.Idx) :
    (dot_S400x32_S128x32_S400x128_1_1_0_0_n_n.rhsIdx i q 0).val = (i 1).val := by
  unfold DotDims.rhsIdx
  rw [dif_neg (show ¬(0 : Fin S128x32.rank) ∈ dot_S400x32_S128x32_S400x128_1_1_0_0_n_n.rhsBatch by decide), dif_pos (show (0 : Fin S128x32.rank) ∈ dot_S400x32_S128x32_S400x128_1_1_0_0_n_n.rhsNonContracting by decide)]
  rfl
theorem rhs_feat_1 (i : S400x128.Idx) (q : dot_S400x32_S128x32_S400x128_1_1_0_0_n_n.contr.Idx) :
    (dot_S400x32_S128x32_S400x128_1_1_0_0_n_n.rhsIdx i q 1).val = (q ⟨0, by decide⟩).val :=
  dot_S400x32_S128x32_S400x128_1_1_0_0_n_n.rhsIdx_val_of_single rfl i q

/-! ## The stored values at a pair of coordinates -/

/-- The 400 x 64 product at (p, q): the sum over the 10000 columns of the adjacency block's row p against column q of
    the hidden features. -/
theorem pay1_apply (x0 : Vec Ideal S400x10000 .f32) (x1 : Vec Ideal S10000x64 .f32) (p : Fin 400) (q : Fin 64) :
    k2_pay1 (F := Ideal) x0 x1 (ix2 p q) = ∑ l : Fin 10000, x0 (ix2 p l) * x1 (ix2 l q) := by
  unfold k2_pay1
  simp only [matmul, shapeCast_self]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p q) ((contrEquiv1 dot_S400x10000_S10000x64_S400x64_1_0_0_1_n_n 10000 rfl rfl).symm k) = ix2 p k := funext fun a => Fin.ext (by
    match a with
    | ⟨0, _⟩ => exact lhs_adj_0 _ _
    | ⟨1, _⟩ => exact (lhs_adj_1 _ _).trans hk)
  have er : dot_S400x10000_S10000x64_S400x64_1_0_0_1_n_n.rhsIdx (ix2 p q) ((contrEquiv1 dot_S400x10000_S10000x64_S400x64_1_0_0_1_n_n 10000 rfl rfl).symm k) = ix2 k q := funext fun a => Fin.ext (by
    match a with
    | ⟨0, _⟩ => exact (rhs_adj_0 _ _).trans hk
    | ⟨1, _⟩ => exact rhs_adj_1 _ _)
  rw [el, er]

/-- The mean columns: column q of the 400 x 32 slice at offset 0 is column q of the product. -/
theorem pay2_apply (x0 : Vec Ideal S400x10000 .f32) (x1 : Vec Ideal S10000x64 .f32) (p : Fin 400) (q : Fin 32) :
    k2_pay2 (F := Ideal) x0 x1 (ix2 p q) = k2_pay1 (F := Ideal) x0 x1 (ix2 p (Fin.castAdd 32 q)) := by
  unfold k2_pay2
  exact extractStridedSlice_apply _ _ _ _ _ (fun a => by
    match a with
    | ⟨0, _⟩ => show p.val = 0 + p.val; omega
    | ⟨1, _⟩ => show q.val = 0 + q.val; omega)

/-- The log-variance columns: column q of the slice at offset 32 is column 32 + q of the product. -/
theorem pay3_apply (x0 : Vec Ideal S400x10000 .f32) (x1 : Vec Ideal S10000x64 .f32) (p : Fin 400) (q : Fin 32) :
    k2_pay3 (F := Ideal) x0 x1 (ix2 p q) = k2_pay1 (F := Ideal) x0 x1 (ix2 p (Fin.natAdd 32 q)) := by
  unfold k2_pay3
  exact extractStridedSlice_apply _ _ _ _ _ (fun a => by
    match a with
    | ⟨0, _⟩ => show p.val = 0 + p.val; omega
    | ⟨1, _⟩ => show 32 + q.val = 32 + q.val; rfl)

/-- The features at (p, q): the sum over the 32 latent coordinates of the mean row p against row q of the attribute
    means. -/
theorem pay4_apply (x0 : Vec Ideal S400x10000 .f32) (x1 : Vec Ideal S10000x64 .f32) (x2 : Vec Ideal S128x32 .f32) (p : Fin 400) (q : Fin 128) :
    k2_pay4 (F := Ideal) x0 x1 x2 (ix2 p q) = ∑ l : Fin 32, k2_pay2 (F := Ideal) x0 x1 (ix2 p l) * x2 (ix2 q l) := by
  unfold k2_pay4
  simp only [matmul, shapeCast_self]
  rw [Ideal.matmul_constant_zero_apply, ← Equiv.sum_comp (contrEquiv1 dot_S400x32_S128x32_S400x128_1_1_0_0_n_n 32 rfl rfl).symm]
  refine Finset.sum_congr rfl fun k _ => ?_
  have hk := contrEquiv1_symm_val dot_S400x32_S128x32_S400x128_1_1_0_0_n_n 32 rfl rfl k
  have el : dot_S400x32_S128x32_S400x128_1_1_0_0_n_n.lhsIdx (ix2 p q) ((contrEquiv1 dot_S400x32_S128x32_S400x128_1_1_0_0_n_n 32 rfl rfl).symm k) = ix2 p k := funext fun a => Fin.ext (by
    match a with
    | ⟨0, _⟩ => exact lhs_feat_0 _ _
    | ⟨1, _⟩ => exact (lhs_feat_1 _ _).trans hk)
  have er : dot_S400x32_S128x32_S400x128_1_1_0_0_n_n.rhsIdx (ix2 p q) ((contrEquiv1 dot_S400x32_S128x32_S400x128_1_1_0_0_n_n 32 rfl rfl).symm k) = ix2 q k := funext fun a => Fin.ext (by
    match a with
    | ⟨0, _⟩ => exact rhs_feat_0 _ _
    | ⟨1, _⟩ => exact (rhs_feat_1 _ _).trans hk)
  rw [el, er]

variable (V : (c : Dev nD) → (b : Ref sig .tc) → Buf (Elt Ideal) ((c : Thread nD τ).loc b))

/-! ## The windows' blocks at a grid point, as rows of the arrays -/

theorem zero_offsets : (![0, 0] : Fin 2 → Nat) = fun _ => 0 := funext fun a => match a with | ⟨0, _⟩ => rfl | ⟨1, _⟩ => rfl

/-- The grid has 25 points. -/
theorem point_lt (t : Fin cfg2.N) : t.val < 25 := by
  have h := t.isLt
  have e : cfg2.N = 25 := N_2
  omega

/-- Row p of grid point t's block is row 400 t + p of the array. -/
def row (t : Fin cfg2.N) (p : Fin 400) : Fin 10000 :=
  ⟨t.val * 400 + p.val, by have h := point_lt t; have hp := p.isLt; omega⟩

/-- The windows' block indices at every grid point, decided over the 25 points: the adjacency and the three outputs
    move down one block of rows per point; the hidden features and the attribute means stay whole. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The adjacency block at point t, entry (p, l), is the adjacency array at (400 t + p, l). -/
theorem adj_blk (c : Dev nD) (t : Fin cfg2.N) (p : Fin 400) (l : Fin 10000) :
    iblk2 V c 0 t (ix2 p l) = V c main_arg1 (ix2 (row t p) l) := by
  obtain ⟨e0, e1, -⟩ := block_indices t
  show V c main_arg1 (((cfg2.win 0).blk t).view.emb (ix2 p l)) = V c main_arg1 (ix2 (row t p) l)
  refine congrArg _ (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * l.val = l.val; omega

/-- The hidden-features block at any point is the whole array. -/
theorem hw_blk (c : Dev nD) (t : Fin cfg2.N) (l : Fin 10000) (s : Fin 64) :
    iblk2 V c 1 t (ix2 l s) = V c main_v2 (ix2 l s) := by
  obtain ⟨-, -, e0, e1, -⟩ := block_indices t
  show V c main_v2 (((cfg2.win 1).blk t).view.emb (ix2 l s)) = V c main_v2 (ix2 l s)
  refine congrArg _ (funext fun a => Fin.ext ?_)
  match a with
  | ⟨0, _⟩ => show win2_1.index t (0 : Fin 2) * 10000 + 1 * l.val = l.val; omega
  | ⟨1, _⟩ => show win2_1.index t (1 : Fin 2) * 64 + 1 * s.val = s.val; omega

/-- The attribute-means block at any point is the whole array. -/
theorem mua_blk (c : Dev nD) (t : Fin cfg2.N) (q : Fin 128) (l : Fin 32) :
    iblk2 V c 2 t (ix2 q l) = V c main_v0_1 (ix2 q l) := by
  obtain ⟨-, -, -, -, e0, e1, -⟩ := block_indices t
  show V c main_v0_1 (((cfg2.win 2).blk t).view.emb (ix2 q l)) = V c main_v0_1 (ix2 q l)
  refine congrArg _ (funext fun a => Fin.ext ?_)
  match a with
  | ⟨0, _⟩ => show win2_2.index t (0 : Fin 2) * 128 + 1 * q.val = q.val; omega
  | ⟨1, _⟩ => show win2_2.index t (1 : Fin 2) * 32 + 1 * l.val = l.val; omega

/-- Entry (p, q) of each output's block at point t sits at (400 t + p, q) of its array. -/
theorem mu_emb (t : Fin cfg2.N) (p : Fin 400) (q : Fin 32) :
    ((cfg2.win 3).blk t).view.emb (ix2 p q) = ix2 (row t p) q := by
  obtain ⟨-, -, -, -, -, -, e0, e1, -⟩ := block_indices t
  refine funext fun a => Fin.ext ?_
  match a with
  | ⟨0, _⟩ => show win2_3.index t (0 : Fin 2) * 400 + 1 * p.val = t.val * 400 + p.val; omega
  | ⟨1, _⟩ => show win2_3.index t (1 : Fin 2) * 32 + 1 * q.val = q.val; omega
theorem lv_emb (t : Fin cfg2.N) (p : Fin 400) (q : Fin 32) :
    ((cfg2.win 4).blk t).view.emb (ix2 p q) = ix2 (row t p) q := by
  obtain ⟨-, -, -, -, -, -, -, -, e0, e1, -⟩ := block_indices t
  refine funext fun a => Fin.ext ?_
  match a with
  | ⟨0, _⟩ => show win2_4.index t (0 : Fin 2) * 400 + 1 * p.val = t.val * 400 + p.val; omega
  | ⟨1, _⟩ => show win2_4.index t (1 : Fin 2) * 32 + 1 * q.val = q.val; omega
theorem feat_emb (t : Fin cfg2.N) (p : Fin 400) (q : Fin 128) :
    ((cfg2.win 5).blk t).view.emb (ix2 p q) = ix2 (row t p) q := by
  obtain ⟨-, -, -, -, -, -, -, -, -, -, e0, e1⟩ := block_indices t
  refine funext fun a => Fin.ext ?_
  match a with
  | ⟨0, _⟩ => show win2_5.index t (0 : Fin 2) * 400 + 1 * p.val = t.val * 400 + p.val; omega
  | ⟨1, _⟩ => show win2_5.index t (1 : Fin 2) * 128 + 1 * q.val = q.val; omega

/-! ## The stored values at a grid point, as entries of the specification's matrices -/

/-- The product block at point t: entry (p, s) is entry (400 t + p, s) of ADJ · HW. -/
theorem prod_row (c : Dev nD) (t : Fin cfg2.N) (p : Fin 400) (s : Fin 64) :
    k2_pay1 (F := Ideal) (iblk2 V c 0 t) (iblk2 V c 1 t) (ix2 p s)
      = mm (toMat 10000 10000 (V c main_arg1)) (toMat 10000 64 (V c main_v2)) (row t p) s := by
  rw [pay1_apply]
  show _ = ∑ l : Fin 10000, toMat 10000 10000 (V c main_arg1) (row t p) l * toMat 10000 64 (V c main_v2) l s
  refine Finset.sum_congr rfl fun l _ => ?_
  rw [adj_blk, hw_blk]
  rfl

/-! ## The means -/

/-- What point t writes back to the means array is rows 400 t .. 400 t + 399 of the left half of ADJ · HW. -/
theorem flushed2_3 (c : Dev nD) (t : Fin cfg2.N) :
    (dat2 V c).flushed 3 t = ((cfg2.win 3).blk t).view.read (Elt Ideal) (ofMat 10000 32 (muK (toMat 10000 10000 (V c main_arg1)) (toMat 10000 64 (V c main_v2)))) := by
  show (cfg2.win 3).cut (grid2.coords t) ((dat2 V c).after 3 t) = _
  rw [after2_3]
  unfold out2_3
  rw [View.canon_unit_zero zero_offsets]
  simp only [View.ld_unit_zero (S := S400x10000) zero_offsets, View.ld_unit_zero (S := S10000x64) zero_offsets]
  funext j
  obtain ⟨p, q, rfl⟩ : ∃ (p : Fin 400) (q : Fin 32), j = ix2 p q := ⟨j 0, j 1, eq_ix2 j⟩
  show k2_pay2 (F := Ideal) (iblk2 V c 0 t) (iblk2 V c 1 t) (ix2 p q) = ofMat 10000 32 (muK (toMat 10000 10000 (V c main_arg1)) (toMat 10000 64 (V c main_v2))) (((cfg2.win 3).blk t).view.emb (ix2 p q))
  rw [mu_emb, ofMat_ix2]
  rw [pay2_apply, prod_row]
  rfl

/-- An index of the means array is in point t's block iff each coordinate is in the block's range. -/
theorem mem_blk2_3 (t : Fin cfg2.N) (i : S10000x32.Idx) :
    i ∈ ((cfg2.win 3).blk t).view.set ↔ ∀ a : Fin 2, win2_3.index t a * S400x32.size a ≤ (i a).val ∧ (i a).val < win2_3.index t a * S400x32.size a + S400x32.size a := by
  show i ∈ ((View.whole main_v3_0).slice (win2_3.rect t)).set ↔ _
  rw [View.set_slice_whole, Rect.mem_set_unit]
  exact Iff.rfl

/-- Row r of the means array lies in the block of point r / 400. -/
theorem cover2_3 (i : S10000x32.Idx) :
    ∃ t : Fin cfg2.N, (cfg2.win 3).flush t = true ∧ i ∈ ((cfg2.win 3).blk t).view.set := by
  have hi0 : (i 0).val < 10000 := (i 0).isLt
  have hi1 : (i 1).val < 32 := (i 1).isLt
  obtain ⟨t, ht⟩ : ∃ t : Fin cfg2.N, t.val = (i 0).val / 400 :=
    ⟨⟨(i 0).val / 400, by show _ < grid2.N; rw [N_2]; omega⟩, rfl⟩
  obtain ⟨-, -, -, -, -, -, e0, e1, -⟩ := block_indices t
  refine ⟨t, flush2_3 t, ?_⟩
  rw [mem_blk2_3]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 32 ≤ (i 1).val ∧ (i 1).val < win2_3.index t (1 : Fin 2) * 32 + 32; omega

/-- After the region the means array is the left half of ADJ · HW. -/
theorem final2_3 (c : Dev nD) : (dat2 V c).arrAt 3 cfg2.N = ofMat 10000 32 (muK (toMat 10000 10000 (V c main_arg1)) (toMat 10000 64 (V c main_v2))) :=
  (dat2 V c).arrAt_eq_of_cover 3 (ofMat 10000 32 (muK (toMat 10000 10000 (V c main_arg1)) (toMat 10000 64 (V c main_v2)))) (fun t _ => flushed2_3 V c t) cover2_3

/-! ## The log-variances -/

/-- What point t writes back to the log-variance array is rows 400 t .. 400 t + 399 of the right half of ADJ · HW. -/
theorem flushed2_4 (c : Dev nD) (t : Fin cfg2.N) :
    (dat2 V c).flushed 4 t = ((cfg2.win 4).blk t).view.read (Elt Ideal) (ofMat 10000 32 (lvK (toMat 10000 10000 (V c main_arg1)) (toMat 10000 64 (V c main_v2)))) := by
  show (cfg2.win 4).cut (grid2.coords t) ((dat2 V c).after 4 t) = _
  rw [after2_4]
  unfold out2_4
  rw [View.canon_unit_zero zero_offsets]
  simp only [View.ld_unit_zero (S := S400x10000) zero_offsets, View.ld_unit_zero (S := S10000x64) zero_offsets]
  funext j
  obtain ⟨p, q, rfl⟩ : ∃ (p : Fin 400) (q : Fin 32), j = ix2 p q := ⟨j 0, j 1, eq_ix2 j⟩
  show k2_pay3 (F := Ideal) (iblk2 V c 0 t) (iblk2 V c 1 t) (ix2 p q) = ofMat 10000 32 (lvK (toMat 10000 10000 (V c main_arg1)) (toMat 10000 64 (V c main_v2))) (((cfg2.win 4).blk t).view.emb (ix2 p q))
  rw [lv_emb, ofMat_ix2]
  rw [pay3_apply, prod_row]
  rfl

/-- An index of the log-variance array is in point t's block iff each coordinate is in the block's range. -/
theorem mem_blk2_4 (t : Fin cfg2.N) (i : S10000x32.Idx) :
    i ∈ ((cfg2.win 4).blk t).view.set ↔ ∀ a : Fin 2, win2_4.index t a * S400x32.size a ≤ (i a).val ∧ (i a).val < win2_4.index t a * S400x32.size a + S400x32.size a := by
  show i ∈ ((View.whole main_v3_1).slice (win2_4.rect t)).set ↔ _
  rw [View.set_slice_whole, Rect.mem_set_unit]
  exact Iff.rfl

/-- Row r of the log-variance array lies in the block of point r / 400. -/
theorem cover2_4 (i : S10000x32.Idx) :
    ∃ t : Fin cfg2.N, (cfg2.win 4).flush t = true ∧ i ∈ ((cfg2.win 4).blk t).view.set := by
  have hi0 : (i 0).val < 10000 := (i 0).isLt
  have hi1 : (i 1).val < 32 := (i 1).isLt
  obtain ⟨t, ht⟩ : ∃ t : Fin cfg2.N, t.val = (i 0).val / 400 :=
    ⟨⟨(i 0).val / 400, by show _ < grid2.N; rw [N_2]; omega⟩, rfl⟩
  obtain ⟨-, -, -, -, -, -, -, -, e0, e1, -⟩ := block_indices t
  refine ⟨t, flush2_4 t, ?_⟩
  rw [mem_blk2_4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 32 ≤ (i 1).val ∧ (i 1).val < win2_4.index t (1 : Fin 2) * 32 + 32; omega

/-- After the region the log-variance array is the right half of ADJ · HW. -/
theorem final2_4 (c : Dev nD) : (dat2 V c).arrAt 4 cfg2.N = ofMat 10000 32 (lvK (toMat 10000 10000 (V c main_arg1)) (toMat 10000 64 (V c main_v2))) :=
  (dat2 V c).arrAt_eq_of_cover 4 (ofMat 10000 32 (lvK (toMat 10000 10000 (V c main_arg1)) (toMat 10000 64 (V c main_v2)))) (fun t _ => flushed2_4 V c t) cover2_4

/-! ## The features -/

/-- What point t writes back to the features array is rows 400 t .. 400 t + 399 of the left half of ADJ · HW times the transpose of MUA. -/
theorem flushed2_5 (c : Dev nD) (t : Fin cfg2.N) :
    (dat2 V c).flushed 5 t = ((cfg2.win 5).blk t).view.read (Elt Ideal) (ofMat 10000 128 (featK (toMat 10000 10000 (V c main_arg1)) (toMat 10000 64 (V c main_v2)) (toMat 128 32 (V c main_v0_1)))) := by
  show (cfg2.win 5).cut (grid2.coords t) ((dat2 V c).after 5 t) = _
  rw [after2_5]
  unfold out2_5
  rw [View.canon_unit_zero zero_offsets]
  simp only [View.ld_unit_zero (S := S400x10000) zero_offsets, View.ld_unit_zero (S := S10000x64) zero_offsets, View.ld_unit_zero (S := S128x32) zero_offsets]
  funext j
  obtain ⟨p, q, rfl⟩ : ∃ (p : Fin 400) (q : Fin 128), j = ix2 p q := ⟨j 0, j 1, eq_ix2 j⟩
  show k2_pay4 (F := Ideal) (iblk2 V c 0 t) (iblk2 V c 1 t) (iblk2 V c 2 t) (ix2 p q) = ofMat 10000 128 (featK (toMat 10000 10000 (V c main_arg1)) (toMat 10000 64 (V c main_v2)) (toMat 128 32 (V c main_v0_1))) (((cfg2.win 5).blk t).view.emb (ix2 p q))
  rw [feat_emb, ofMat_ix2]
  rw [pay4_apply]
  show _ = ∑ l : Fin 32, muK (toMat 10000 10000 (V c main_arg1)) (toMat 10000 64 (V c main_v2)) (row t p) l * toMat 128 32 (V c main_v0_1) q l
  refine Finset.sum_congr rfl fun l _ => ?_
  rw [pay2_apply, prod_row, mua_blk]
  rfl

/-- An index of the features array is in point t's block iff each coordinate is in the block's range. -/
theorem mem_blk2_5 (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v3_2).slice (win2_5.rect t)).set ↔ _
  rw [View.set_slice_whole, Rect.mem_set_unit]
  exact Iff.rfl

/-- Row r of the features array lies in the block of point r / 400. -/
theorem cover2_5 (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, by show _ < grid2.N; rw [N_2]; omega⟩, rfl⟩
  obtain ⟨-, -, -, -, -, -, -, -, -, -, e0, e1⟩ := block_indices t
  refine ⟨t, flush2_5 t, ?_⟩
  rw [mem_blk2_5]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 128 ≤ (i 1).val ∧ (i 1).val < win2_5.index t (1 : Fin 2) * 128 + 128; omega

/-- After the region the features array is the left half of ADJ · HW times the transpose of MUA. -/
theorem final2_5 (c : Dev nD) : (dat2 V c).arrAt 5 cfg2.N = ofMat 10000 128 (featK (toMat 10000 10000 (V c main_arg1)) (toMat 10000 64 (V c main_v2)) (toMat 128 32 (V c main_v0_1))) :=
  (dat2 V c).arrAt_eq_of_cover 5 (ofMat 10000 128 (featK (toMat 10000 10000 (V c main_arg1)) (toMat 10000 64 (V c main_v2)) (toMat 128 32 (V c main_v0_1)))) (fun t _ => flushed2_5 V c t) cover2_5

end Cert.KernelIdeal.Val2

end
-- ==== Proof.Val3.lean ====
/- What region 3 leaves in its output array, as the shared specification's matrix.

   Point t of the 25-point grid holds rows 400·t … 400·t+399 of the 10000 × 32 matrix mu (window 0) and the whole of
   mu (window 1, the same array), and stores the product of the block with mu contracted along the 32-long axis of
   both: entry (p, q) of the stored 400 × 10000 block is ∑ l, mu (400·t + p, l) · mu (q, l). The block is written
   back as rows 400·t … 400·t+399 of the 10000 × 10000 output. Row r of the output lies in the block of point r / 400,
   so the 25 blocks cover the output, and the output ends as mu · muᵀ, the specification's decoder of mu. -/
import proofs.«132950_g81999515615950_cont_9to1_m_63_4_alg».proof.Proof.KernelIdealReg3
import proofs.«132950_g81999515615950_cont_9to1_m_63_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val3

open Cert.KernelIdeal Cert.KernelIdeal.Gen Cert.KernelIdeal.Hand Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The product at an entry -/

/-- The left factor's index on its kept axis is the result's first coordinate, -/
theorem lhs3_0 (i : S400x10000.Idx) (q : dot_S400x32_S10000x32_S400x10000_1_1_0_0_n_n.contr.Idx) :
    (dot_S400x32_S10000x32_S400x10000_1_1_0_0_n_n.lhsIdx i q 0).val = (i 0).val := by
  unfold DotDims.lhsIdx
  rw [dif_neg (show ¬(0 : Fin S400x32.rank) ∈ dot_S400x32_S10000x32_S400x10000_1_1_0_0_n_n.lhsBatch by decide), dif_pos (show (0 : Fin S400x32.rank) ∈ dot_S400x32_S10000x32_S400x10000_1_1_0_0_n_n.lhsNonContracting by decide)]
  rfl
/-- and on its contracted axis the summation index. -/
theorem lhs3_1 (i : S400x10000.Idx) (q : dot_S400x32_S10000x32_S400x10000_1_1_0_0_n_n.contr.Idx) :
    (dot_S400x32_S10000x32_S400x10000_1_1_0_0_n_n.lhsIdx i q 1).val = (q ⟨0, by decide⟩).val :=
  dot_S400x32_S10000x32_S400x10000_1_1_0_0_n_n.lhsIdx_val_of_single rfl i q
/-- The right factor's index on its kept axis is the result's second coordinate, -/
theorem rhs3_0 (i : S400x10000.Idx) (q : dot_S400x32_S10000x32_S400x10000_1_1_0_0_n_n.contr.Idx) :
    (dot_S400x32_S10000x32_S400x10000_1_1_0_0_n_n.rhsIdx i q 0).val = (i 1).val := by
  unfold DotDims.rhsIdx
  rw [dif_neg (show ¬(0 : Fin S10000x32.rank) ∈ dot_S400x32_S10000x32_S400x10000_1_1_0_0_n_n.rhsBatch by decide), dif_pos (show (0 : Fin S10000x32.rank) ∈ dot_S400x32_S10000x32_S400x10000_1_1_0_0_n_n.rhsNonContracting by decide)]
  rfl
/-- and on its contracted axis the summation index. -/
theorem rhs3_1 (i : S400x10000.Idx) (q : dot_S400x32_S10000x32_S400x10000_1_1_0_0_n_n.contr.Idx) :
    (dot_S400x32_S10000x32_S400x10000_1_1_0_0_n_n.rhsIdx i q 1).val = (q ⟨0, by decide⟩).val :=
  dot_S400x32_S10000x32_S400x10000_1_1_0_0_n_n.rhsIdx_val_of_single rfl i q

/-- The stored product at entry (p, q): row p of the block against row q of the whole matrix. -/
theorem pay3_apply (x0 : Vec Ideal S400x32 .f32) (x1 : Vec Ideal S10000x32 .f32) (p : Fin 400) (q : Fin 10000) :
    k3_pay1 (F := Ideal) x0 x1 (ix2 p q) = ∑ l : Fin 32, x0 (ix2 p l) * x1 (ix2 q l) := by
  unfold k3_pay1
  simp only [shapeCast_self]
  refine (Ideal.matmul_constant_zero_apply dot_S400x32_S10000x32_S400x10000_1_1_0_0_n_n none x0 x1 (ix2 p q)).trans ?_
  rw [← Equiv.sum_comp (contrEquiv1 dot_S400x32_S10000x32_S400x10000_1_1_0_0_n_n 32 rfl rfl).symm]
  refine Finset.sum_congr rfl fun k _ => ?_
  have hk := contrEquiv1_symm_val dot_S400x32_S10000x32_S400x10000_1_1_0_0_n_n 32 rfl rfl k
  have el : dot_S400x32_S10000x32_S400x10000_1_1_0_0_n_n.lhsIdx (ix2 p q) ((contrEquiv1 dot_S400x32_S10000x32_S400x10000_1_1_0_0_n_n 32 rfl rfl).symm k) = ix2 p k := funext fun a => Fin.ext (by
    match a with
    | ⟨0, _⟩ => exact lhs3_0 _ _
    | ⟨1, _⟩ => exact (lhs3_1 _ _).trans hk)
  have er : dot_S400x32_S10000x32_S400x10000_1_1_0_0_n_n.rhsIdx (ix2 p q) ((contrEquiv1 dot_S400x32_S10000x32_S400x10000_1_1_0_0_n_n 32 rfl rfl).symm k) = ix2 q k := funext fun a => Fin.ext (by
    match a with
    | ⟨0, _⟩ => exact rhs3_0 _ _
    | ⟨1, _⟩ => exact (rhs3_1 _ _).trans hk)
  rw [el, er]

/-! ## Where the blocks sit -/

theorem hz3 : (![0, 0] : Fin 2 → Nat) = fun _ => 0 := funext fun a => by fin_cases a <;> rfl

/-- The block indices at point t, decided over the grid: the row-block windows sit at row block t, column block 0;
    the whole-matrix window at block (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What the output ends holding: mu · muᵀ laid out as an array. -/
abbrev G3 (c : Dev nD) : Arr 10000 10000 := ofMat 10000 10000 (dec (toMat 10000 32 (V c main_v3_0)))

/-- WHAT POINT t WRITES BACK is block t of mu · muᵀ. -/
theorem flushed3_2 (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz3]
  simp only [View.ld_unit_zero (S := S400x32) hz3, View.ld_unit_zero (S := S10000x32) hz3]
  obtain ⟨e0, e1, e2, e3, e4, e5⟩ := idx_facts3 t
  funext j
  obtain ⟨p, q, rfl⟩ : ∃ (p : Fin 400) (q : Fin 10000), j = ix2 p q := ⟨j 0, j 1, eq_ix2 j⟩
  show k3_pay1 (F := Ideal) (iblk3 V c 0 t) (iblk3 V c 1 t) (ix2 p q) = G3 V c (((cfg3.win 2).blk t).view.emb (ix2 p q))
  rw [pay3_apply]
  show _ = ∑ l : Fin 32, toMat 10000 32 (V c main_v3_0) ((((cfg3.win 2).blk t).view.emb (ix2 p q)) 0) l
      * toMat 10000 32 (V c main_v3_0) ((((cfg3.win 2).blk t).view.emb (ix2 p q)) 1) l
  refine Finset.sum_congr rfl fun l _ => ?_
  have h0 : ((cfg3.win 0).blk t).view.emb (ix2 p l) = ix2 ((((cfg3.win 2).blk t).view.emb (ix2 p q)) 0) l := by
    funext a; apply Fin.ext
    match a with
    | ⟨0, _⟩ => show win3_0.index t (0 : Fin 2) * 400 + 1 * p.val = win3_2.index t (0 : Fin 2) * 400 + 1 * p.val; omega
    | ⟨1, _⟩ => show win3_0.index t (1 : Fin 2) * 32 + 1 * l.val = l.val; omega
  have h1 : ((cfg3.win 1).blk t).view.emb (ix2 q l) = ix2 ((((cfg3.win 2).blk t).view.emb (ix2 p q)) 1) l := by
    funext a; apply Fin.ext
    match a with
    | ⟨0, _⟩ => show win3_1.index t (0 : Fin 2) * 10000 + 1 * q.val = win3_2.index t (1 : Fin 2) * 10000 + 1 * q.val; omega
    | ⟨1, _⟩ => show win3_1.index t (1 : Fin 2) * 32 + 1 * l.val = l.val; omega
  have h0' : iblk3 V c 0 t (ix2 p l) = toMat 10000 32 (V c main_v3_0) ((((cfg3.win 2).blk t).view.emb (ix2 p q)) 0) l :=
    congrArg (V c main_v3_0 : Arr 10000 32) h0
  have h1' : iblk3 V c 1 t (ix2 q l) = toMat 10000 32 (V c main_v3_0) ((((cfg3.win 2).blk t).view.emb (ix2 p q)) 1) l :=
    congrArg (V c main_v3_0 : Arr 10000 32) h1
  rw [h0', h1']

/-! ## The blocks cover the output -/

/-- An index of the output is in point t's block iff each coordinate is in the block's range on its axis. -/
theorem mem_blk3_2 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v4).slice (win3_2.rect t)).set ↔ _
  rw [View.set_slice_whole, Rect.mem_set_unit]
  exact Iff.rfl

/-- Row r of the output lies in the block of point r / 400. -/
theorem cover3_2 (i : S10000x10000.Idx) :
    ∃ t : Fin cfg3.N, (cfg3.win 2).flush t = true ∧ i ∈ ((cfg3.win 2).blk t).view.set := by
  have hi0 : (i 0).val < 10000 := (i 0).isLt
  have hi1 : (i 1).val < 10000 := (i 1).isLt
  have hN : cfg3.N = 25 := N_3
  have ht : (i 0).val / 400 < cfg3.N := by rw [hN]; omega
  refine ⟨⟨(i 0).val / 400, ht⟩, flush3_2 _, ?_⟩
  obtain ⟨e0, e1, e2, e3, e4, e5⟩ := idx_facts3 ⟨(i 0).val / 400, ht⟩
  have e4' : win3_2.index ⟨(i 0).val / 400, ht⟩ (0 : Fin 2) = (i 0).val / 400 := e4
  rw [mem_blk3_2]
  intro a
  match a with
  | ⟨0, _⟩ => show win3_2.index ⟨(i 0).val / 400, ht⟩ (0 : Fin 2) * 400 ≤ (i 0).val ∧ (i 0).val < win3_2.index ⟨(i 0).val / 400, ht⟩ (0 : Fin 2) * 400 + 400; omega
  | ⟨1, _⟩ => show win3_2.index ⟨(i 0).val / 400, ht⟩ (1 : Fin 2) * 10000 ≤ (i 1).val ∧ (i 1).val < win3_2.index ⟨(i 0).val / 400, ht⟩ (1 : Fin 2) * 10000 + 10000; omega

/-! ## The output after the region -/

/-- THE OUTPUT after the region's write-backs is the specification's decoder of the matrix the region found in its
    input array: mu · muᵀ. -/
theorem final3_2 (c : Dev nD) : (dat3 V c).arrAt 2 cfg3.N = ofMat 10000 10000 (dec (toMat 10000 32 (V c main_v3_0))) :=
  (dat3 V c).arrAt_eq_of_cover 2 (G3 V c) (fun t _ => flushed3_2 V c t) cover3_2

end Cert.KernelIdeal.Val3

end
-- ==== Proof.KernelValue.lean ====
/-
  The kernel program's run, read: at the extended reals each of its six results is the specification's matrix of the
  argument arrays.  Region 0 leaves x·W1, tanh(xᵀ·Wa1)·Wa2 and tanh(xᵀ·Wa1)·Wa3; the host lays W2 and W3 side by side;
  region 1 leaves max(adj·xw1, 0)·[W2|W3]; region 2 leaves the two halves of adj·hw — which are adj·(h1·W2) and
  adj·(h1·W3), a column of a product depending only on that column of the right factor — and mu·mu_aᵀ; region 3 leaves
  mu·muᵀ.  Each region's result is read off its pipeline's written-back blocks (the per-region value modules) at the
  contents the fold through @main gives its operands.
-/
import proofs.«132950_g81999515615950_cont_9to1_m_63_4_alg».proof.Proof.KernelIdealFold
import proofs.«132950_g81999515615950_cont_9to1_m_63_4_alg».proof.Proof.Val0
import proofs.«132950_g81999515615950_cont_9to1_m_63_4_alg».proof.Proof.Val1
import proofs.«132950_g81999515615950_cont_9to1_m_63_4_alg».proof.Proof.Val2
import proofs.«132950_g81999515615950_cont_9to1_m_63_4_alg».proof.Proof.Val3
import proofs.«132950_g81999515615950_cont_9to1_m_63_4_alg».proof.Proof.Spec

set_option maxRecDepth 16384

noncomputable section

namespace Cert.KernelIdeal.KValue

open Cert.KernelIdeal Cert.KernelIdeal.Gen Cert.KernelIdeal.Hand Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument arrays as matrices. -/
abbrev X (c : Dev nD) : Mat 10000 128 := toMat 10000 128 (m ((c.tc : Thread nD τ).loc main_arg0))
abbrev ADJ (c : Dev nD) : Mat 10000 10000 := toMat 10000 10000 (m ((c.tc : Thread nD τ).loc main_arg1))
abbrev W1m (c : Dev nD) : Mat 128 64 := toMat 128 64 (m ((c.tc : Thread nD τ).loc main_arg2))
abbrev W2m (c : Dev nD) : Mat 64 32 := toMat 64 32 (m ((c.tc : Thread nD τ).loc main_arg3))
abbrev W3m (c : Dev nD) : Mat 64 32 := toMat 64 32 (m ((c.tc : Thread nD τ).loc main_arg4))
abbrev WA1 (c : Dev nD) : Mat 10000 64 := toMat 10000 64 (m ((c.tc : Thread nD τ).loc main_arg5))
abbrev WA2 (c : Dev nD) : Mat 64 32 := toMat 64 32 (m ((c.tc : Thread nD τ).loc main_arg6))
abbrev WA3 (c : Dev nD) : Mat 64 32 := toMat 64 32 (m ((c.tc : Thread nD τ).loc main_arg7))

/-! ## Region 0: the small dense algebra -/

theorem e_xw1 (c : Dev nD) : (dat0 (V0 m ρ) c).arrAt 5 cfg0.N = ofMat 10000 64 (xw1 (X m c) (W1m m c)) :=
  Val0.final0_5 (V0 m ρ) c
theorem e_mua (c : Dev nD) : (dat0 (V0 m ρ) c).arrAt 6 cfg0.N = ofMat 128 32 (mua (X m c) (WA1 m c) (WA2 m c)) :=
  Val0.final0_6 (V0 m ρ) c
theorem e_lva (c : Dev nD) : (dat0 (V0 m ρ) c).arrAt 7 cfg0.N = ofMat 128 32 (mua (X m c) (WA1 m c) (WA3 m c)) :=
  Val0.final0_7 (V0 m ρ) c

/-! ## Region 1: the first pass over the adjacency matrix, the two projections side by side -/

theorem e_hw (c : Dev nD) : (dat1 (V2 m ρ) c).arrAt 3 cfg1.N
    = ofMat 10000 64 (hw (ADJ m c) (xw1 (X m c) (W1m m c)) (cat (W2m m c) (W3m m c))) := by
  have h1 : V2 m ρ c main_arg1 = m ((c.tc : Thread nD τ).loc main_arg1) := W2_main_arg1 m ρ c
  have h2 : V2 m ρ c main_v0_0 = ofMat 10000 64 (xw1 (X m c) (W1m m c)) := (W2_main_v0_0 m ρ c).trans (e_xw1 m ρ c)
  have h3 : V2 m ρ c main_v1 = concatenate S64x64 1 [⟨S64x32, m ((c.tc : Thread nD τ).loc main_arg3)⟩, ⟨S64x32, m ((c.tc : Thread nD τ).loc main_arg4)⟩] concatenates_S64x32_S64x32_S64x64_d1 :=
    W2_main_v1 m ρ c
  rw [Val1.final1_3 (V2 m ρ) c, h1, h2, h3, toMat_ofMat, Val1.cat_eq]

/-! ## Region 2: the second pass; the halves of the fused product are the reference's two products -/

theorem e_mu (c : Dev nD) : (dat2 (V3 m ρ) c).arrAt 3 cfg2.N
    = ofMat 10000 32 (muR (ADJ m c) (xw1 (X m c) (W1m m c)) (W2m m c)) := by
  have h1 : V3 m ρ c main_arg1 = m ((c.tc : Thread nD τ).loc main_arg1) := W3_main_arg1 m ρ c
  have h2 : V3 m ρ c main_v2 = ofMat 10000 64 (hw (ADJ m c) (xw1 (X m c) (W1m m c)) (cat (W2m m c) (W3m m c))) :=
    (W3_main_v2 m ρ c).trans (e_hw m ρ c)
  rw [Val2.final2_3 (V3 m ρ) c, h1, h2, toMat_ofMat, muK_hw]

theorem e_lv (c : Dev nD) : (dat2 (V3 m ρ) c).arrAt 4 cfg2.N
    = ofMat 10000 32 (muR (ADJ m c) (xw1 (X m c) (W1m m c)) (W3m m c)) := by
  have h1 : V3 m ρ c main_arg1 = m ((c.tc : Thread nD τ).loc main_arg1) := W3_main_arg1 m ρ c
  have h2 : V3 m ρ c main_v2 = ofMat 10000 64 (hw (ADJ m c) (xw1 (X m c) (W1m m c)) (cat (W2m m c) (W3m m c))) :=
    (W3_main_v2 m ρ c).trans (e_hw m ρ c)
  rw [Val2.final2_4 (V3 m ρ) c, h1, h2, toMat_ofMat, lvK_hw]

theorem e_feat (c : Dev nD) : (dat2 (V3 m ρ) c).arrAt 5 cfg2.N
    = ofMat 10000 128 (mmT (muR (ADJ m c) (xw1 (X m c) (W1m m c)) (W2m m c)) (mua (X m c) (WA1 m c) (WA2 m c))) := by
  have h1 : V3 m ρ c main_arg1 = m ((c.tc : Thread nD τ).loc main_arg1) := W3_main_arg1 m ρ c
  have h2 : V3 m ρ c main_v2 = ofMat 10000 64 (hw (ADJ m c) (xw1 (X m c) (W1m m c)) (cat (W2m m c) (W3m m c))) :=
    (W3_main_v2 m ρ c).trans (e_hw m ρ c)
  have h3 : V3 m ρ c main_v0_1 = ofMat 128 32 (mua (X m c) (WA1 m c) (WA2 m c)) := (W3_main_v0_1 m ρ c).trans (e_mua m ρ c)
  rw [Val2.final2_5 (V3 m ρ) c, h1, h2, h3, toMat_ofMat, toMat_ofMat]
  unfold featK
  rw [muK_hw]

/-! ## Region 3: the inner-product decoder -/

theorem e_dec (c : Dev nD) : (dat3 (V4 m ρ) c).arrAt 2 cfg3.N
    = ofMat 10000 10000 (dec (muR (ADJ m c) (xw1 (X m c) (W1m m c)) (W2m m c))) := by
  have h1 : V4 m ρ c main_v3_0 = ofMat 10000 32 (muR (ADJ m c) (xw1 (X m c) (W1m m c)) (W2m m c)) :=
    (W4_main_v3_0 m ρ c).trans (e_mu m ρ c)
  rw [Val3.final3_2 (V4 m ρ) c, h1, toMat_ofMat]

/-! ## The run, read -/

/-- Every weakly fair execution of the kernel program's @main terminates, nothing faulting, with each of the six results
    at the specification's matrix of the argument arrays, and the arguments as launched. -/
theorem run : θ_run (defs (F := Ideal)) (onTc (τ := τ) (main (F := Ideal))) ⟨m, fun _ => 0, ρ⟩ fun r => ∀ c : Dev nD,
      r.2.mem ((c.tc : Thread nD τ).loc main_v4) = ofMat 10000 10000 (dec (muR (ADJ m c) (xw1 (X m c) (W1m m c)) (W2m m c)))
      ∧ r.2.mem ((c.tc : Thread nD τ).loc main_v3_2) = ofMat 10000 128 (mmT (muR (ADJ m c) (xw1 (X m c) (W1m m c)) (W2m m c)) (mua (X m c) (WA1 m c) (WA2 m c)))
      ∧ r.2.mem ((c.tc : Thread nD τ).loc main_v3_0) = ofMat 10000 32 (muR (ADJ m c) (xw1 (X m c) (W1m m c)) (W2m m c))
      ∧ r.2.mem ((c.tc : Thread nD τ).loc main_v3_1) = ofMat 10000 32 (muR (ADJ m c) (xw1 (X m c) (W1m m c)) (W3m m c))
      ∧ r.2.mem ((c.tc : Thread nD τ).loc main_v0_1) = ofMat 128 32 (mua (X m c) (WA1 m c) (WA2 m c))
      ∧ r.2.mem ((c.tc : Thread nD τ).loc main_v0_2) = ofMat 128 32 (mua (X m c) (WA1 m c) (WA3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      (h c _ (mem_uc main_v4 (by decide))).trans ((W5_main_v4 m ρ c).trans (e_dec m ρ c)),
      (h c _ (mem_uc main_v3_2 (by decide))).trans ((W5_main_v3_2 m ρ c).trans (e_feat m ρ c)),
      (h c _ (mem_uc main_v3_0 (by decide))).trans ((W5_main_v3_0 m ρ c).trans (e_mu m ρ c)),
      (h c _ (mem_uc main_v3_1 (by decide))).trans ((W5_main_v3_1 m ρ c).trans (e_lv m ρ c)),
      (h c _ (mem_uc main_v0_1 (by decide))).trans ((W5_main_v0_1 m ρ c).trans (e_mua m ρ c)),
      (h c _ (mem_uc main_v0_2 (by decide))).trans ((W5_main_v0_2 m ρ c).trans (e_lva m ρ c)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩)
    (run_all m ρ)

end Cert.KernelIdeal.KValue

end
-- ==== Proof.RefValue.lean ====
/-
  The reference's run read as the shared specification's matrices.

  The reference program is the graph-convolution auto-encoder in eval mode, written with whole-array
  operations.  Each operation is read here as a matrix over the extended reals, entry by entry:

    x @ W1                      xw1 X W1        = X · W1
    relu (adj @ (x @ W1))       h1 ADJ XW1      = max (ADJ · XW1) 0   (the maximum against the array of zeros)
    adj @ (hidden1 @ W2)        muR ADJ XW1 W2  = ADJ · (h1 · W2)     (mu)
    adj @ (hidden1 @ W3)        muR ADJ XW1 W3  = ADJ · (h1 · W3)     (logvar)
    tanh (x.T @ Wa1)            ha1 X WA1       = tanh (Xᵀ · WA1)
    hidden_a1 @ Wa2             mua X WA1 WA2   = ha1 · WA2           (mu_a)
    hidden_a1 @ Wa3             mua X WA1 WA3   = ha1 · WA3           (logvar_a)
    z @ z.T                     dec mu          = mu · muᵀ            (adj_rec)
    z @ z_a.T                   mmT mu mu_a     = mu · mu_aᵀ          (features)

  A product [a,k]·[k,b] at the entry (i, j) is the sum over l of the left array at (i, l) times the right
  array at (l, j).  A transposed array at (p, n) is the original at (n, p); so a product whose right factor
  is a transpose sums rows against rows (`mmT`), and one whose left factor is a transpose sums columns
  against columns (`tmm`).  The maximum against the broadcast zero constant is the entrywise maximum with
  zero, and the hyperbolic tangent is taken entrywise.  The latent mean mu is read once as a matrix and
  that reading serves the three results built from it (mu itself, adj_rec, features).
-/
import proofs.«132950_g81999515615950_cont_9to1_m_63_4_alg».proof.Proof.Gen.ReferenceIdeal.Read
import proofs.«132950_g81999515615950_cont_9to1_m_63_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.Spec Idealize.ShloMosaic Idealize.ShloMosaic.ValueIdx Idealize.ShloMosaic.TcCoe Idealize.SL.Sem

/-! ## Indices and sums -/

/-- A rank-2 index with the coordinates `i` and `j` is `ix2 i j`. -/
theorem idx_eq_ix2 {a b : Nat} (y : (⟨2, ![a, b]⟩ : Shape).Idx) (i : Fin a) (j : Fin b)
    (h0 : (y 0).val = i.val) (h1 : (y 1).val = j.val) : y = ix2 i j := by
  funext d
  match d with
  | ⟨0, _⟩ => exact Fin.ext h0
  | ⟨1, _⟩ => exact Fin.ext h1

/-- An array at an index with the coordinates `i` and `j` is its matrix's entry (i, j). -/
theorem arr_at {a b : Nat} (A : Arr a b) (y : (⟨2, ![a, b]⟩ : Shape).Idx) (i : Fin a) (j : Fin b)
    (h0 : (y 0).val = i.val) (h1 : (y 1).val = j.val) : A y = toMat a b A i j :=
  congrArg A (idx_eq_ix2 y i j h0 h1)

/-- An array that is the layout of the matrix `M`, at an index with the coordinates `i` and `j`, is `M i j`. -/
theorem at_of_eq {a b : Nat} {A : Arr a b} {M : Mat a b} (h : A = ofMat a b M) (y : (⟨2, ![a, b]⟩ : Shape).Idx)
    (i : Fin a) (j : Fin b) (h0 : (y 0).val = i.val) (h1 : (y 1).val = j.val) : A y = M i j :=
  (congrFun h y).trans (congrArg (ofMat a b M) (idx_eq_ix2 y i j h0 h1))

/-- An array whose entry at every pair of coordinates is the matrix's is the matrix's layout. -/
theorem eq_ofMat {a b : Nat} {A : Arr a b} {M : Mat a b} (h : ∀ (i : Fin a) (j : Fin b), A (ix2 i j) = M i j) :
    A = ofMat a b M :=
  arr_ext h

/-- A sum of products whose factors are row `i` of `A` and column `j` of `B` is the product's entry. -/
theorem sum_eq_mm {a K b : Nat} (A : Mat a K) (B : Mat K b) (i : Fin a) (j : Fin b) (f g : Fin K → EReal)
    (hf : ∀ k, f k = A i k) (hg : ∀ k, g k = B k j) : ∑ k : Fin K, f k * g k = mm A B i j :=
  Finset.sum_congr rfl fun k _ => by rw [hf, hg]

/-- … row `i` of `A` and row `j` of `B`: the product against the transpose. -/
theorem sum_eq_mmT {a K b : Nat} (A : Mat a K) (B : Mat b K) (i : Fin a) (j : Fin b) (f g : Fin K → EReal)
    (hf : ∀ k, f k = A i k) (hg : ∀ k, g k = B j k) : ∑ k : Fin K, f k * g k = mmT A B i j :=
  Finset.sum_congr rfl fun k _ => by rw [hf, hg]

/-- … column `i` of `A` and column `j` of `B`: the product of the transpose. -/
theorem sum_eq_tmm {K a b : Nat} (A : Mat K a) (B : Mat K b) (i : Fin a) (j : Fin b) (f g : Fin K → EReal)
    (hf : ∀ k, f k = A k i) (hg : ∀ k, g k = B k j) : ∑ k : Fin K, f k * g k = tmm A B i j :=
  Finset.sum_congr rfl fun k _ => by rw [hf, hg]

/-! ## The graph branch -/

section Stages

variable (x0 : Arr 10000 128) (x1 : Arr 10000 10000) (x2 : Arr 128 64) (x3 x4 : Arr 64 32)
  (x5 : Arr 10000 64) (x6 x7 : Arr 64 32)

/-- x @ W1. -/
theorem v0_mat : Read.val_main_v0 (F := Ideal) x0 x2 = ofMat 10000 64 (xw1 (toMat 10000 128 x0) (toMat 128 64 x2)) :=
  eq_ofMat fun i j => (Read.val_main_v0_apply x0 x2 (ix2 i j)).trans
    (sum_eq_mm (toMat 10000 128 x0) (toMat 128 64 x2) i j _ _
      (fun k => arr_at x0 (Read.lidx_main_v0 (ix2 i j) k) i k rfl rfl)
      (fun k => arr_at x2 (Read.ridx_main_v0 (ix2 i j) k) k j rfl rfl))

/-- adj @ (x @ W1). -/
theorem v1_mat : Read.val_main_v1 (F := Ideal) x0 x1 x2 = ofMat 10000 64 (mm (toMat 10000 10000 x1) (xw1 (toMat 10000 128 x0) (toMat 128 64 x2))) :=
  eq_ofMat fun i j => (Read.val_main_v1_apply x0 x1 x2 (ix2 i j)).trans
    (sum_eq_mm (toMat 10000 10000 x1) (xw1 (toMat 10000 128 x0) (toMat 128 64 x2)) i j _ _
      (fun k => arr_at x1 (Read.lidx_main_v1 (ix2 i j) k) i k rfl rfl)
      (fun k => at_of_eq (v0_mat x0 x2) (Read.ridx_main_v1 (ix2 i j) k) k j rfl rfl))

/-- The broadcast of the zero constant is zero at every index. -/
theorem zeros_at (i : S10000x64.Idx) : Read.val_main_call0_v0 (F := Ideal) i = 0 :=
  (Read.val_main_call0_v0_apply (F := Ideal) i).trans
    ((Read.val_main_call0_cst_apply (F := Ideal) _).trans Ideal.ofBits_zero_f32)

/-- hidden1 = relu (adj @ (x @ W1)): the maximum against the zeros is the entrywise maximum with zero. -/
theorem v2_mat : Read.val_main_v2 (F := Ideal) x0 x1 x2 = ofMat 10000 64 (h1 (toMat 10000 10000 x1) (xw1 (toMat 10000 128 x0) (toMat 128 64 x2))) :=
  eq_ofMat fun i j => (Read.val_main_v2_apply (F := Ideal) x0 x1 x2 (ix2 i j)).trans
    (congrArg₂ (fun u v : EReal => max u v)
      (at_of_eq (v1_mat x0 x1 x2) (ix2 i j) i j rfl rfl) (zeros_at (ix2 i j)))

/-- hidden1 @ W2. -/
theorem v3_mat : Read.val_main_v3 (F := Ideal) x0 x1 x2 x3 = ofMat 10000 32 (mm (h1 (toMat 10000 10000 x1) (xw1 (toMat 10000 128 x0) (toMat 128 64 x2))) (toMat 64 32 x3)) :=
  eq_ofMat fun i j => (Read.val_main_v3_apply x0 x1 x2 x3 (ix2 i j)).trans
    (sum_eq_mm (h1 (toMat 10000 10000 x1) (xw1 (toMat 10000 128 x0) (toMat 128 64 x2))) (toMat 64 32 x3) i j _ _
      (fun k => at_of_eq (v2_mat x0 x1 x2) (Read.lidx_main_v3 (ix2 i j) k) i k rfl rfl)
      (fun k => arr_at x3 (Read.ridx_main_v3 (ix2 i j) k) k j rfl rfl))

/-- mu = adj @ (hidden1 @ W2). -/
theorem v4_mat : Read.val_main_v4 (F := Ideal) x0 x1 x2 x3 = ofMat 10000 32 (muR (toMat 10000 10000 x1) (xw1 (toMat 10000 128 x0) (toMat 128 64 x2)) (toMat 64 32 x3)) :=
  eq_ofMat fun i j => (Read.val_main_v4_apply x0 x1 x2 x3 (ix2 i j)).trans
    (sum_eq_mm (toMat 10000 10000 x1) (mm (h1 (toMat 10000 10000 x1) (xw1 (toMat 10000 128 x0) (toMat 128 64 x2))) (toMat 64 32 x3)) i j _ _
      (fun k => arr_at x1 (Read.lidx_main_v4 (ix2 i j) k) i k rfl rfl)
      (fun k => at_of_eq (v3_mat x0 x1 x2 x3) (Read.ridx_main_v4 (ix2 i j) k) k j rfl rfl))

/-- hidden1 @ W3. -/
theorem v5_mat : Read.val_main_v5 (F := Ideal) x0 x1 x2 x4 = ofMat 10000 32 (mm (h1 (toMat 10000 10000 x1) (xw1 (toMat 10000 128 x0) (toMat 128 64 x2))) (toMat 64 32 x4)) :=
  eq_ofMat fun i j => (Read.val_main_v5_apply x0 x1 x2 x4 (ix2 i j)).trans
    (sum_eq_mm (h1 (toMat 10000 10000 x1) (xw1 (toMat 10000 128 x0) (toMat 128 64 x2))) (toMat 64 32 x4) i j _ _
      (fun k => at_of_eq (v2_mat x0 x1 x2) (Read.lidx_main_v5 (ix2 i j) k) i k rfl rfl)
      (fun k => arr_at x4 (Read.ridx_main_v5 (ix2 i j) k) k j rfl rfl))

/-- logvar = adj @ (hidden1 @ W3). -/
theorem v6_mat : Read.val_main_v6 (F := Ideal) x0 x1 x2 x4 = ofMat 10000 32 (muR (toMat 10000 10000 x1) (xw1 (toMat 10000 128 x0) (toMat 128 64 x2)) (toMat 64 32 x4)) :=
  eq_ofMat fun i j => (Read.val_main_v6_apply x0 x1 x2 x4 (ix2 i j)).trans
    (sum_eq_mm (toMat 10000 10000 x1) (mm (h1 (toMat 10000 10000 x1) (xw1 (toMat 10000 128 x0) (toMat 128 64 x2))) (toMat 64 32 x4)) i j _ _
      (fun k => arr_at x1 (Read.lidx_main_v6 (ix2 i j) k) i k rfl rfl)
      (fun k => at_of_eq (v5_mat x0 x1 x2 x4) (Read.ridx_main_v6 (ix2 i j) k) k j rfl rfl))

/-! ## The linear branch on the transposed features -/

/-- x.T at an index with the coordinates (p, n) is x at (n, p). -/
theorem v7_at (y : S128x10000.Idx) (p : Fin 128) (n : Fin 10000) (h0 : (y 0).val = p.val) (h1 : (y 1).val = n.val) :
    Read.val_main_v7 (F := Ideal) x0 y = (toMat 10000 128 x0) n p :=
  (Read.val_main_v7_apply (F := Ideal) x0 y).trans (arr_at x0 (Read.idx_main_v7 y) n p h1 h0)

/-- x.T @ Wa1. -/
theorem v8_mat : Read.val_main_v8 (F := Ideal) x0 x5 = ofMat 128 64 (tmm (toMat 10000 128 x0) (toMat 10000 64 x5)) :=
  eq_ofMat fun i j => (Read.val_main_v8_apply x0 x5 (ix2 i j)).trans
    (sum_eq_tmm (toMat 10000 128 x0) (toMat 10000 64 x5) i j _ _
      (fun k => v7_at x0 (Read.lidx_main_v8 (ix2 i j) k) i k rfl rfl)
      (fun k => arr_at x5 (Read.ridx_main_v8 (ix2 i j) k) k j rfl rfl))

/-- hidden_a1 = tanh (x.T @ Wa1), entrywise. -/
theorem v9_mat : Read.val_main_v9 (F := Ideal) x0 x5 = ofMat 128 64 (ha1 (toMat 10000 128 x0) (toMat 10000 64 x5)) :=
  eq_ofMat fun i j => (Read.val_main_v9_apply (F := Ideal) x0 x5 (ix2 i j)).trans
    (congrArg Ideal.tanh (at_of_eq (v8_mat x0 x5) (ix2 i j) i j rfl rfl))

/-- mu_a = hidden_a1 @ Wa2. -/
theorem v10_mat : Read.val_main_v10 (F := Ideal) x0 x5 x6 = ofMat 128 32 (mua (toMat 10000 128 x0) (toMat 10000 64 x5) (toMat 64 32 x6)) :=
  eq_ofMat fun i j => (Read.val_main_v10_apply x0 x5 x6 (ix2 i j)).trans
    (sum_eq_mm (ha1 (toMat 10000 128 x0) (toMat 10000 64 x5)) (toMat 64 32 x6) i j _ _
      (fun k => at_of_eq (v9_mat x0 x5) (Read.lidx_main_v10 (ix2 i j) k) i k rfl rfl)
      (fun k => arr_at x6 (Read.ridx_main_v10 (ix2 i j) k) k j rfl rfl))

/-- logvar_a = hidden_a1 @ Wa3. -/
theorem v11_mat : Read.val_main_v11 (F := Ideal) x0 x5 x7 = ofMat 128 32 (mua (toMat 10000 128 x0) (toMat 10000 64 x5) (toMat 64 32 x7)) :=
  eq_ofMat fun i j => (Read.val_main_v11_apply x0 x5 x7 (ix2 i j)).trans
    (sum_eq_mm (ha1 (toMat 10000 128 x0) (toMat 10000 64 x5)) (toMat 64 32 x7) i j _ _
      (fun k => at_of_eq (v9_mat x0 x5) (Read.lidx_main_v11 (ix2 i j) k) i k rfl rfl)
      (fun k => arr_at x7 (Read.ridx_main_v11 (ix2 i j) k) k j rfl rfl))

/-! ## The inner-product decoder -/

/-- z.T at an index with the coordinates (p, n) is mu at (n, p). -/
theorem v12_at (y : S32x10000.Idx) (p : Fin 32) (n : Fin 10000) (h0 : (y 0).val = p.val) (h1 : (y 1).val = n.val) :
    Read.val_main_v12 (F := Ideal) x0 x1 x2 x3 y = (muR (toMat 10000 10000 x1) (xw1 (toMat 10000 128 x0) (toMat 128 64 x2)) (toMat 64 32 x3)) n p :=
  (Read.val_main_v12_apply (F := Ideal) x0 x1 x2 x3 y).trans
    (at_of_eq (v4_mat x0 x1 x2 x3) (Read.idx_main_v12 y) n p h1 h0)

/-- adj_rec = z @ z.T. -/
theorem v13_mat : Read.val_main_v13 (F := Ideal) x0 x1 x2 x3 = ofMat 10000 10000 (dec (muR (toMat 10000 10000 x1) (xw1 (toMat 10000 128 x0) (toMat 128 64 x2)) (toMat 64 32 x3))) :=
  eq_ofMat fun i j => (Read.val_main_v13_apply x0 x1 x2 x3 (ix2 i j)).trans
    (sum_eq_mmT (muR (toMat 10000 10000 x1) (xw1 (toMat 10000 128 x0) (toMat 128 64 x2)) (toMat 64 32 x3)) (muR (toMat 10000 10000 x1) (xw1 (toMat 10000 128 x0) (toMat 128 64 x2)) (toMat 64 32 x3)) i j _ _
      (fun k => at_of_eq (v4_mat x0 x1 x2 x3) (Read.lidx_main_v13 (ix2 i j) k) i k rfl rfl)
      (fun k => v12_at x0 x1 x2 x3 (Read.ridx_main_v13 (ix2 i j) k) k j rfl rfl))

/-- z_a.T at an index with the coordinates (p, n) is mu_a at (n, p). -/
theorem v14_at (y : S32x128.Idx) (p : Fin 32) (n : Fin 128) (h0 : (y 0).val = p.val) (h1 : (y 1).val = n.val) :
    Read.val_main_v14 (F := Ideal) x0 x5 x6 y = (mua (toMat 10000 128 x0) (toMat 10000 64 x5) (toMat 64 32 x6)) n p :=
  (Read.val_main_v14_apply (F := Ideal) x0 x5 x6 y).trans
    (at_of_eq (v10_mat x0 x5 x6) (Read.idx_main_v14 y) n p h1 h0)

/-- features = z @ z_a.T. -/
theorem v15_mat : Read.val_main_v15 (F := Ideal) x0 x1 x2 x3 x5 x6 = ofMat 10000 128 (mmT (muR (toMat 10000 10000 x1) (xw1 (toMat 10000 128 x0) (toMat 128 64 x2)) (toMat 64 32 x3)) (mua (toMat 10000 128 x0) (toMat 10000 64 x5) (toMat 64 32 x6))) :=
  eq_ofMat fun i j => (Read.val_main_v15_apply x0 x1 x2 x3 x5 x6 (ix2 i j)).trans
    (sum_eq_mmT (muR (toMat 10000 10000 x1) (xw1 (toMat 10000 128 x0) (toMat 128 64 x2)) (toMat 64 32 x3)) (mua (toMat 10000 128 x0) (toMat 10000 64 x5) (toMat 64 32 x6)) i j _ _
      (fun k => at_of_eq (v4_mat x0 x1 x2 x3) (Read.lidx_main_v15 (ix2 i j) k) i k rfl rfl)
      (fun k => v14_at x0 x5 x6 (Read.ridx_main_v15 (ix2 i j) k) k j rfl rfl))

end Stages

/-! ## The run -/

/-- Every weakly fair execution of the reference ends with its six results at the specification's matrices of
    the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = ofMat 10000 10000 (dec (muR (toMat 10000 10000 (m ((c.tc : Thread nD τ).loc main_arg1))) (xw1 (toMat 10000 128 (m ((c.tc : Thread nD τ).loc main_arg0))) (toMat 128 64 (m ((c.tc : Thread nD τ).loc main_arg2)))) (toMat 64 32 (m ((c.tc : Thread nD τ).loc main_arg3)))))
      ∧ r.2.mem ((c.tc : Thread nD τ).loc main_v15) = ofMat 10000 128 (mmT (muR (toMat 10000 10000 (m ((c.tc : Thread nD τ).loc main_arg1))) (xw1 (toMat 10000 128 (m ((c.tc : Thread nD τ).loc main_arg0))) (toMat 128 64 (m ((c.tc : Thread nD τ).loc main_arg2)))) (toMat 64 32 (m ((c.tc : Thread nD τ).loc main_arg3)))) (mua (toMat 10000 128 (m ((c.tc : Thread nD τ).loc main_arg0))) (toMat 10000 64 (m ((c.tc : Thread nD τ).loc main_arg5))) (toMat 64 32 (m ((c.tc : Thread nD τ).loc main_arg6)))))
      ∧ r.2.mem ((c.tc : Thread nD τ).loc main_v4) = ofMat 10000 32 (muR (toMat 10000 10000 (m ((c.tc : Thread nD τ).loc main_arg1))) (xw1 (toMat 10000 128 (m ((c.tc : Thread nD τ).loc main_arg0))) (toMat 128 64 (m ((c.tc : Thread nD τ).loc main_arg2)))) (toMat 64 32 (m ((c.tc : Thread nD τ).loc main_arg3))))
      ∧ r.2.mem ((c.tc : Thread nD τ).loc main_v6) = ofMat 10000 32 (muR (toMat 10000 10000 (m ((c.tc : Thread nD τ).loc main_arg1))) (xw1 (toMat 10000 128 (m ((c.tc : Thread nD τ).loc main_arg0))) (toMat 128 64 (m ((c.tc : Thread nD τ).loc main_arg2)))) (toMat 64 32 (m ((c.tc : Thread nD τ).loc main_arg4))))
      ∧ r.2.mem ((c.tc : Thread nD τ).loc main_v10) = ofMat 128 32 (mua (toMat 10000 128 (m ((c.tc : Thread nD τ).loc main_arg0))) (toMat 10000 64 (m ((c.tc : Thread nD τ).loc main_arg5))) (toMat 64 32 (m ((c.tc : Thread nD τ).loc main_arg6))))
      ∧ r.2.mem ((c.tc : Thread nD τ).loc main_v11) = ofMat 128 32 (mua (toMat 10000 128 (m ((c.tc : Thread nD τ).loc main_arg0))) (toMat 10000 64 (m ((c.tc : Thread nD τ).loc main_arg5))) (toMat 64 32 (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨h13, h15, h4, h6, h10, h11, hargs⟩ := h c
    exact ⟨h13.trans ((Read.val_main_v13_eq _ _ _ _).trans (v13_mat _ _ _ _)),
      h15.trans ((Read.val_main_v15_eq _ _ _ _ _ _).trans (v15_mat _ _ _ _ _ _)),
      h4.trans ((Read.val_main_v4_eq _ _ _ _).trans (v4_mat _ _ _ _)),
      h6.trans ((Read.val_main_v6_eq _ _ _ _).trans (v6_mat _ _ _ _)),
      h10.trans ((Read.val_main_v10_eq _ _ _).trans (v10_mat _ _ _)),
      h11.trans ((Read.val_main_v11_eq _ _ _).trans (v11_mat _ _ _)),
      hargs⟩)
    (Cert.ReferenceIdeal.Value.run (F := Ideal) m ρ)

end Cert.ReferenceIdeal.RefValue

end
-- ==== Proof.lean ====
/-
  The certificate of a graph-convolution auto-encoder's forward pass written as four kernel regions (the small dense
  algebra x·W1, tanh(xᵀ·Wa1)·Wa2, tanh(xᵀ·Wa1)·Wa3; a first pass over the adjacency matrix that fuses the two output
  projections, max(adj·xw1, 0)·[W2|W3]; a second pass adj·hw whose halves are mu and logvar, with mu·mu_aᵀ; the
  inner-product decoder mu·muᵀ) against the plain reference, which reads the adjacency matrix three times and
  projects by W2 and W3 separately.

  Frames: each program runs to the end, faults nowhere and leaves its eight argument arrays as launched.  For the two
  kernel programs this is the run of @main region by region (the region modules, the run module and the fold of the
  buffer contents through @main), the same text at the word-level instance and at the extended reals; for the
  reference it is its host run with the results dropped.

  Values, at the extended reals: both programs end with the same six matrices.  The only law between the two
  arrangements is that a column of a matrix product depends only on that column of the right factor, so the left and
  right halves of adj·(h1·[W2|W3]) are adj·(h1·W2) and adj·(h1·W3); sums and products are only regrouped, never
  distributed, so the precondition (finite inputs) is not used.  The ideal pass rewrote nothing, so `preserves` is trivial.
-/
import proofs.«132950_g81999515615950_cont_9to1_m_63_4_alg».proof.Defs
import proofs.«132950_g81999515615950_cont_9to1_m_63_4_alg».proof.Proof.Gen.Kernel
import proofs.«132950_g81999515615950_cont_9to1_m_63_4_alg».proof.Proof.Gen.KernelIdeal
import proofs.«132950_g81999515615950_cont_9to1_m_63_4_alg».proof.Proof.Gen.ReferenceIdeal
import proofs.«132950_g81999515615950_cont_9to1_m_63_4_alg».proof.Proof.Gen.Pre_finite_inputs
import proofs.«132950_g81999515615950_cont_9to1_m_63_4_alg».proof.Proof.KernelFold
import proofs.«132950_g81999515615950_cont_9to1_m_63_4_alg».proof.Proof.KernelIdealFold
import proofs.«132950_g81999515615950_cont_9to1_m_63_4_alg».proof.Proof.KernelValue
import proofs.«132950_g81999515615950_cont_9to1_m_63_4_alg».proof.Proof.RefValue
import Idealize.ShloMosaic.Adequacy
import Idealize.ShloMosaic.Init

noncomputable section

namespace Cert.Proof

open Idealize.ShloMosaic Idealize.SL.Sem

/-- The word-level kernel program runs and keeps its arguments: the run of its four regions, read at the arguments. -/
theorem frame_k : Cert.frame_Kernel := fun m ρ _ => Cert.Kernel.Hand.frame m ρ

/-- The same at the extended reals. -/
theorem frame_ki : Cert.frame_KernelIdeal := fun m ρ _ => Cert.KernelIdeal.Hand.frame m ρ

/-- The reference runs and keeps its arguments: its host run with the six results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- From memories that agree on the arguments both programs end with the same six matrices: the kernel's run and the
    reference's run post the same terms of the specification, the arguments' agreement rewritten. -/
theorem algebraic : Cert.algebraic_KernelIdeal_ReferenceIdeal := by
  intro m ρ m' ρ' _ hagree
  refine ⟨_, _, _, _, _, _, Cert.KernelIdeal.KValue.run m ρ, ?_⟩
  refine (θ_run Cert.ReferenceIdeal.defs _ _).mono (fun _ h c => ?_) (Cert.ReferenceIdeal.RefValue.run m' ρ')
  obtain ⟨a0, a1, a2, a3, a4, a5, a6, a7⟩ := hagree c
  obtain ⟨h13, h15, h4, h6, h10, h11, hargs⟩ := h c
  refine ⟨h13.trans ?_, h15.trans ?_, h4.trans ?_, h6.trans ?_, h10.trans ?_, h11.trans ?_, hargs⟩
  · rw [a0, a1, a2, a3]
  · rw [a0, a1, a2, a3, a5, a6]
  · rw [a0, a1, a2, a3]
  · rw [a0, a1, a2, a4]
  · rw [a0, a5, a6]
  · rw [a0, a5, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
